-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x37 : Shape := ⟨2, ![100000, 37]⟩
abbrev S2x3200000 : Shape := ⟨2, ![2, 3200000]⟩
abbrev S100000 : Shape := ⟨1, ![100000]⟩
abbrev S37x25 : Shape := ⟨2, ![37, 25]⟩
abbrev S25 : Shape := ⟨1, ![25]⟩
abbrev S25x18 : Shape := ⟨2, ![25, 18]⟩
abbrev S18 : Shape := ⟨1, ![18]⟩
abbrev S18x12 : Shape := ⟨2, ![18, 12]⟩
abbrev S12 : Shape := ⟨1, ![12]⟩
abbrev S12x1 : Shape := ⟨2, ![12, 1]⟩
abbrev S1 : Shape := ⟨1, ![1]⟩
abbrev S_ : Shape := ⟨0, ![]⟩

class Facts : Prop where
  bcast_S_S100000x37 : S_.BroadcastsInDim S100000x37 (![] : Fin 0 → Fin S100000x37.rank)
  reducesTo_S100000x37_S_d0_1 : S100000x37.ReducesTo [0, 1] S_
  h_S_ : 0 < S_.numel
  bcast_S_S37x25 : S_.BroadcastsInDim S37x25 (![] : Fin 0 → Fin S37x25.rank)
  reducesTo_S37x25_S_d0_1 : S37x25.ReducesTo [0, 1] S_
  bcast_S_S25 : S_.BroadcastsInDim S25 (![] : Fin 0 → Fin S25.rank)
  reducesTo_S25_S_d0 : S25.ReducesTo [0] S_
  bcast_S_S25x18 : S_.BroadcastsInDim S25x18 (![] : Fin 0 → Fin S25x18.rank)
  reducesTo_S25x18_S_d0_1 : S25x18.ReducesTo [0, 1] S_
  bcast_S_S18 : S_.BroadcastsInDim S18 (![] : Fin 0 → Fin S18.rank)
  reducesTo_S18_S_d0 : S18.ReducesTo [0] S_
  bcast_S_S18x12 : S_.BroadcastsInDim S18x12 (![] : Fin 0 → Fin S18x12.rank)
  reducesTo_S18x12_S_d0_1 : S18x12.ReducesTo [0, 1] S_
  bcast_S_S12 : S_.BroadcastsInDim S12 (![] : Fin 0 → Fin S12.rank)
  reducesTo_S12_S_d0 : S12.ReducesTo [0] S_
  bcast_S_S12x1 : S_.BroadcastsInDim S12x1 (![] : Fin 0 → Fin S12x1.rank)
  reducesTo_S12x1_S_d0_1 : S12x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S12x1 .f32) (main_arg10 : FVec F S1 .f32) (main_v33 : IVec S_ 1) : IVec S_ 1 :=
  let main_v34 : FVec F S12x1 .f32 := Host.absf main_arg9
  let main_cst_12 : FVec F S_ .f32 := constant S_ .f32 0x7F800000#32
  let main_v35 : FVec F S12x1 .f32 := broadcastInDim S12x1 ![] bcast_S_S12x1 main_cst_12
  let main_v36 : IVec S12x1 1 := cmpf .olt main_v34 main_v35
  let main_c_13 : IVec S_ 1 := constantI S_ 1 1#1
  let main_v37 : IVec S_ 1 := (fun x v => Host.reduce IntOp.andi x v reducesTo_S12x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S18 .f32) (main_arg7 : FVec F S18x12 .f32) (main_arg8 : FVec F S12 .f32) (main_arg9 : FVec F S12x1 .f32) (main_arg10 : FVec F S1 .f32) (main_v13 : IVec S_ 1) (main_v16 : IVec S25x18 1) : IVec S_ 1 :=
  let main_c_5 : IVec S_ 1 := constantI S_ 1 1#1
  let main_v17 : IVec S_ 1 := (fun x v => Host.reduce IntOp.andi x v reducesTo_S25x18_S_d0_1 h_S_) main_v16 main_c_5
  let main_v18 : IVec S_ 1 := andi main_v13 main_v17
  let main_v19 : FVec F S18 .f32 := Host.absf main_arg6
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  let main_v24 : FVec F S18x12 .f32 := Host.absf main_arg7
  let main_cst_8 : FVec F S_ .f32 := constant S_ .f32 0x7F800000#32
  let main_v25 : FVec F S18x12 .f32 := broadcastInDim S18x12 ![] bcast_S_S18x12 main_cst_8
  let main_v26 : IVec S18x12 1 := cmpf .olt main_v24 main_v25
  let main_c_9 : IVec S_ 1 := constantI S_ 1 1#1
  let main_v27 : IVec S_ 1 := (fun x v => Host.reduce IntOp.andi x v reducesTo_S18x12_S_d0_1 h_S_) main_v26 main_c_9
  let main_v28 : IVec S_ 1 := andi main_v23 main_v27
  let main_v29 : FVec F S12 .f32 := Host.absf main_arg8
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg9 main_arg10 main_v33

def fn {F : FTy → Type} [FloatOps F] (main_arg0 : FVec F S100000x37 .f32) (main_arg1 : IVec S2x3200000 32) (main_arg2 : IVec S100000 32) (main_arg3 : FVec F S37x25 .f32) (main_arg4 : FVec F S25 .f32) (main_arg5 : FVec F S25x18 .f32) (main_arg6 : FVec F S18 .f32) (main_arg7 : FVec F S18x12 .f32) (main_arg8 : FVec F S12 .f32) (main_arg9 : FVec F S12x1 .f32) (main_arg10 : FVec F S1 .f32) : IVec S_ 1 :=
  let main_v0 : FVec F S100000x37 .f32 := Host.absf main_arg0
  let main_cst : FVec F S_ .f32 := constant S_ .f32 0x7F800000#32
  let main_v1 : FVec F S100000x37 .f32 := broadcastInDim S100000x37 ![] bcast_S_S100000x37 main_cst
  let main_v2 : IVec S100000x37 1 := cmpf .olt main_v0 main_v1
  let main_c : IVec S_ 1 := constantI S_ 1 1#1
  let main_v3 : IVec S_ 1 := (fun x v => Host.reduce IntOp.andi x v reducesTo_S100000x37_S_d0_1 h_S_) main_v2 main_c
  let main_v4 : FVec F S37x25 .f32 := Host.absf main_arg3
  let main_cst_0 : FVec F S_ .f32 := constant S_ .f32 0x7F800000#32
  let main_v5 : FVec F S37x25 .f32 := broadcastInDim S37x25 ![] bcast_S_S37x25 main_cst_0
  let main_v6 : IVec S37x25 1 := cmpf .olt main_v4 main_v5
  let main_c_1 : IVec S_ 1 := constantI S_ 1 1#1
  let main_v7 : IVec S_ 1 := (fun x v => Host.reduce IntOp.andi x v reducesTo_S37x25_S_d0_1 h_S_) main_v6 main_c_1
  let main_v8 : IVec S_ 1 := andi main_v3 main_v7
  let main_v9 : FVec F S25 .f32 := Host.absf main_arg4
  let main_cst_2 : FVec F S_ .f32 := constant S_ .f32 0x7F800000#32
  let main_v10 : FVec F S25 .f32 := broadcastInDim S25 ![] bcast_S_S25 main_cst_2
  let main_v11 : IVec S25 1 := cmpf .olt main_v9 main_v10
  let main_c_3 : IVec S_ 1 := constantI S_ 1 1#1
  let main_v12 : IVec S_ 1 := (fun x v => Host.reduce IntOp.andi x v reducesTo_S25_S_d0 h_S_) main_v11 main_c_3
  let main_v13 : IVec S_ 1 := andi main_v8 main_v12
  let main_v14 : FVec F S25x18 .f32 := Host.absf main_arg5
  let main_cst_4 : FVec F S_ .f32 := constant S_ .f32 0x7F800000#32
  let main_v15 : FVec F S25x18 .f32 := broadcastInDim S25x18 ![] bcast_S_S25x18 main_cst_4
  let main_v16 : IVec S25x18 1 := cmpf .olt main_v14 main_v15
  fn_part1 (F := F) main_arg6 main_arg7 main_arg8 main_arg9 main_arg10 main_v13 main_v16
-- ==== Kernel.lean ====
abbrev S100000x37 : Shape := ⟨2, ![100000, 37]⟩
abbrev S2x3200000 : Shape := ⟨2, ![2, 3200000]⟩
abbrev S100000 : Shape := ⟨1, ![100000]⟩
abbrev S37x25 : Shape := ⟨2, ![37, 25]⟩
abbrev S25 : Shape := ⟨1, ![25]⟩
abbrev S25x18 : Shape := ⟨2, ![25, 18]⟩
abbrev S18 : Shape := ⟨1, ![18]⟩
abbrev S18x12 : Shape := ⟨2, ![18, 12]⟩
abbrev S12 : Shape := ⟨1, ![12]⟩
abbrev S12x1 : Shape := ⟨2, ![12, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x25 : Shape := ⟨2, ![100000, 25]⟩
abbrev S5000x37 : Shape := ⟨2, ![5000, 37]⟩
abbrev S5000x25 : Shape := ⟨2, ![5000, 25]⟩
abbrev S3300000x25 : Shape := ⟨2, ![3300000, 25]⟩
abbrev S1x25 : Shape := ⟨2, ![1, 25]⟩
abbrev S100000x18 : Shape := ⟨2, ![100000, 18]⟩
abbrev S5000x18 : Shape := ⟨2, ![5000, 18]⟩
abbrev S3300000x18 : Shape := ⟨2, ![3300000, 18]⟩
abbrev S1x18 : Shape := ⟨2, ![1, 18]⟩
abbrev S100000x12 : Shape := ⟨2, ![100000, 12]⟩
abbrev S5000x12 : Shape := ⟨2, ![5000, 12]⟩
abbrev S3300000x12 : Shape := ⟨2, ![3300000, 12]⟩
abbrev S1x12 : Shape := ⟨2, ![1, 12]⟩
abbrev S100000x1 : Shape := ⟨2, ![100000, 1]⟩
abbrev S5000x1 : Shape := ⟨2, ![5000, 1]⟩
abbrev S1x1 : Shape := ⟨2, ![1, 1]⟩
abbrev S1x512 : Shape := ⟨2, ![1, 512]⟩
abbrev S1000x1 : Shape := ⟨2, ![1000, 1]⟩
abbrev S1000x512 : Shape := ⟨2, ![1000, 512]⟩
abbrev S512 : Shape := ⟨1, ![512]⟩

abbrev nBuf : Space → Nat
  | .hbm => 135
  | .vmem => 46
  | .smem => 0
  | _ => 0

abbrev hbmTy0_0 (i : Nat) : BufTy := match i % 128 with
  | 0 => ⟨S100000x37, .f32⟩
  | 1 => ⟨S2x3200000, .i32⟩
  | 2 => ⟨S100000, .i32⟩
  | 3 => ⟨S37x25, .f32⟩
  | 4 => ⟨S25, .f32⟩
  | 5 => ⟨S25x18, .f32⟩
  | 6 => ⟨S18, .f32⟩
  | 7 => ⟨S18x12, .f32⟩
  | 8 => ⟨S12, .f32⟩
  | 9 => ⟨S12x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x25, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x25, .f32⟩
  | 61 => ⟨S3300000x1, .f32⟩
  | 62 => ⟨S3300000x25, .f32⟩
  | 63 => ⟨S3300000x25, .f32⟩
  | 64 => ⟨S_, .f32⟩
  | 65 => ⟨S100000x25, .f32⟩
  | 66 => ⟨S3300000x1, .i32⟩
  | 67 => ⟨S100000x25, .f32⟩
  | 68 => ⟨S1x25, .f32⟩
  | 69 => ⟨S100000x25, .f32⟩
  | 70 => ⟨S100000x18, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x18, .f32⟩
  | 80 => ⟨S3300000x1, .f32⟩
  | 81 => ⟨S3300000x18, .f32⟩
  | 82 => ⟨S3300000x18, .f32⟩
  | 83 => ⟨S_, .f32⟩
  | 84 => ⟨S100000x18, .f32⟩
  | 85 => ⟨S3300000x1, .i32⟩
  | 86 => ⟨S100000x18, .f32⟩
  | 87 => ⟨S1x18, .f32⟩
  | 88 => ⟨S100000x18, .f32⟩
  | 89 => ⟨S100000x12, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000x12, .f32⟩
  | 99 => ⟨S3300000x1, .f32⟩
  | 100 => ⟨S3300000x12, .f32⟩
  | 101 => ⟨S3300000x12, .f32⟩
  | 102 => ⟨S_, .f32⟩
  | 103 => ⟨S100000x12, .f32⟩
  | 104 => ⟨S3300000x1, .i32⟩
  | 105 => ⟨S100000x12, .f32⟩
  | 106 => ⟨S1x12, .f32⟩
  | 107 => ⟨S100000x12, .f32⟩
  | 108 => ⟨S100000x1, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x1, .f32⟩
  | 118 => ⟨S3300000x1, .f32⟩
  | 119 => ⟨S3300000x1, .f32⟩
  | 120 => ⟨S_, .f32⟩
  | 121 => ⟨S100000x1, .f32⟩
  | 122 => ⟨S3300000x1, .i32⟩
  | 123 => ⟨S100000x1, .f32⟩
  | 124 => ⟨S1x1, .f32⟩
  | 125 => ⟨S100000x1, .f32⟩
  | 126 => ⟨S100000x1, .i32⟩
  | 127 => ⟨S1x512, .f32⟩
  | _ => ⟨S100000x37, .f32⟩

abbrev hbmTy0_1 (i : Nat) : BufTy := match i % 128 with
  | 0 => ⟨S1x512, .f32⟩
  | 1 => ⟨S512, .f32⟩
  | 2 => ⟨S512, .f32⟩
  | 3 => ⟨S_, .f32⟩
  | 4 => ⟨S512, .f32⟩
  | 5 => ⟨S512, .f32⟩
  | 6 => ⟨S512, .f32⟩
  | _ => ⟨S100000x37, .f32⟩

abbrev hbmTy (i : Nat) : BufTy := match i / 128 with
  | 0 => hbmTy0_0 i
  | 1 => hbmTy0_1 i
  | _ => ⟨S100000x37, .f32⟩

abbrev bufTy : (tb : Table) → Fin (tcTables nBuf tb) → BufTy
  | .hbm, ⟨i, _⟩ => hbmTy i
  | .local _ .vmem, ⟨0, _⟩ => ⟨S5000x37, .f32⟩
  | .local _ .vmem, ⟨1, _⟩ => ⟨S5000x37, .f32⟩
  | .local _ .vmem, ⟨2, _⟩ => ⟨S37x25, .f32⟩
  | .local _ .vmem, ⟨3, _⟩ => ⟨S5000x25, .f32⟩
  | .local _ .vmem, ⟨4, _⟩ => ⟨S5000x25, .f32⟩
  | .local _ .vmem, ⟨5, _⟩ => ⟨S5000x25, .f32⟩
  | .local _ .vmem, ⟨6, _⟩ => ⟨S5000x25, .f32⟩
  | .local _ .vmem, ⟨7, _⟩ => ⟨S1x25, .f32⟩
  | .local _ .vmem, ⟨8, _⟩ => ⟨S5000x25, .f32⟩
  | .local _ .vmem, ⟨9, _⟩ => ⟨S5000x25, .f32⟩
  | .local _ .vmem, ⟨10, _⟩ => ⟨S5000x25, .f32⟩
  | .local _ .vmem, ⟨11, _⟩ => ⟨S5000x25, .f32⟩
  | .local _ .vmem, ⟨12, _⟩ => ⟨S25x18, .f32⟩
  | .local _ .vmem, ⟨13, _⟩ => ⟨S5000x18, .f32⟩
  | .local _ .vmem, ⟨14, _⟩ => ⟨S5000x18, .f32⟩
  | .local _ .vmem, ⟨15, _⟩ => ⟨S5000x18, .f32⟩
  | .local _ .vmem, ⟨16, _⟩ => ⟨S5000x18, .f32⟩
  | .local _ .vmem, ⟨17, _⟩ => ⟨S1x18, .f32⟩
  | .local _ .vmem, ⟨18, _⟩ => ⟨S5000x18, .f32⟩
  | .local _ .vmem, ⟨19, _⟩ => ⟨S5000x18, .f32⟩
  | .local _ .vmem, ⟨20, _⟩ => ⟨S5000x18, .f32⟩
  | .local _ .vmem, ⟨21, _⟩ => ⟨S5000x18, .f32⟩
  | .local _ .vmem, ⟨22, _⟩ => ⟨S18x12, .f32⟩
  | .local _ .vmem, ⟨23, _⟩ => ⟨S5000x12, .f32⟩
  | .local _ .vmem, ⟨24, _⟩ => ⟨S5000x12, .f32⟩
  | .local _ .vmem, ⟨25, _⟩ => ⟨S5000x12, .f32⟩
  | .local _ .vmem, ⟨26, _⟩ => ⟨S5000x12, .f32⟩
  | .local _ .vmem, ⟨27, _⟩ => ⟨S1x12, .f32⟩
  | .local _ .vmem, ⟨28, _⟩ => ⟨S5000x12, .f32⟩
  | .local _ .vmem, ⟨29, _⟩ => ⟨S5000x12, .f32⟩
  | .local _ .vmem, ⟨30, _⟩ => ⟨S5000x12, .f32⟩
  | .local _ .vmem, ⟨31, _⟩ => ⟨S5000x12, .f32⟩
  | .local _ .vmem, ⟨32, _⟩ => ⟨S12x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S1x1, .f32⟩
  | .local _ .vmem, ⟨38, _⟩ => ⟨S5000x1, .f32⟩
  | .local _ .vmem, ⟨39, _⟩ => ⟨S5000x1, .f32⟩
  | .local _ .vmem, ⟨40, _⟩ => ⟨S1000x1, .f32⟩
  | .local _ .vmem, ⟨41, _⟩ => ⟨S1000x1, .f32⟩
  | .local _ .vmem, ⟨42, _⟩ => ⟨S1000x1, .i32⟩
  | .local _ .vmem, ⟨43, _⟩ => ⟨S1000x1, .i32⟩
  | .local _ .vmem, ⟨44, _⟩ => ⟨S1x512, .f32⟩
  | .local _ .vmem, ⟨45, _⟩ => ⟨S1x512, .f32⟩
  | _, _ => ⟨S100000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94_0 : Ref sig .tc := ⟨.hbm, 127, rfl⟩
abbrev main_v94_1 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem3_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S37x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x25 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x25 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x25 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S25x18 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x18 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x18 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x18 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x18 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x18 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S18x12 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x12 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x12 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x12 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x12 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x12 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S12x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x37_S5000x37_0_0 : ∀ a, (![0, 0] : Fin 2 → Nat) a + S5000x37.size a ≤ S5000x37.size a
  h_S5000x37 : 0 < S5000x37.numel
  bitsLt_bf16_f32 : FTy.bits .bf16 < FTy.bits .f32
  inb_S37x25_S37x25_0_0 : ∀ a, (![0, 0] : Fin 2 → Nat) a + S37x25.size a ≤ S37x25.size a
  h_S37x25 : 0 < S37x25.numel
  inb_S5000x25_S5000x25_0_0 : ∀ a, (![0, 0] : Fin 2 → Nat) a + S5000x25.size a ≤ S5000x25.size a
  h_S5000x25 : 0 < S5000x25.numel
  bcast_S3300000x1_S3300000x25_0_1 : S3300000x1.BroadcastsInDim S3300000x25 (![0, 1] : Fin 2 → Fin S3300000x25.rank)
  bcast_S_S100000x25 : S_.BroadcastsInDim S100000x25 (![] : Fin 0 → Fin S100000x25.rank)
  shapeCasts_S25_S1x25 : S25.ShapeCasts S1x25
  shapeCasts_S5000x25_S5000x25 : S5000x25.ShapeCasts S5000x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  inb_S25x18_S25x18_0_0 : ∀ a, (![0, 0] : Fin 2 → Nat) a + S25x18.size a ≤ S25x18.size a
  h_S25x18 : 0 < S25x18.numel
  inb_S5000x18_S5000x18_0_0 : ∀ a, (![0, 0] : Fin 2 → Nat) a + S5000x18.size a ≤ S5000x18.size a
  h_S5000x18 : 0 < S5000x18.numel
  bcast_S3300000x1_S3300000x18_0_1 : S3300000x1.BroadcastsInDim S3300000x18 (![0, 1] : Fin 2 → Fin S3300000x18.rank)
  bcast_S_S100000x18 : S_.BroadcastsInDim S100000x18 (![] : Fin 0 → Fin S100000x18.rank)
  shapeCasts_S18_S1x18 : S18.ShapeCasts S1x18
  shapeCasts_S5000x18_S5000x18 : S5000x18.ShapeCasts S5000x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S5000x18 : S1x18.Broadcasts S5000x18
  inb_S18x12_S18x12_0_0 : ∀ a, (![0, 0] : Fin 2 → Nat) a + S18x12.size a ≤ S18x12.size a
  h_S18x12 : 0 < S18x12.numel
  inb_S5000x12_S5000x12_0_0 : ∀ a, (![0, 0] : Fin 2 → Nat) a + S5000x12.size a ≤ S5000x12.size a
  h_S5000x12 : 0 < S5000x12.numel
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  shapeCasts_S12_S1x12 : S12.ShapeCasts S1x12
  shapeCasts_S5000x12_S5000x12 : S5000x12.ShapeCasts S5000x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S12x1_S12x1_0_0 : ∀ a, (![0, 0] : Fin 2 → Nat) a + S12x1.size a ≤ S12x1.size a
  h_S12x1 : 0 < S12x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000_S100000x1 : S100000.ShapeCasts S100000x1
  inb_S1x512_S1x512_0_0 : ∀ a, (![0, 0] : Fin 2 → Nat) a + S1x512.size a ≤ S1x512.size a
  h_S1x512 : 0 < S1x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1x512_d1_w32 : S1x512.Iotas .tc 32 [1]
  broadcasts_S1000x1_S1000x512 : S1000x1.Broadcasts S1000x512
  broadcasts_S1x512_S1000x512 : S1x512.Broadcasts S1000x512
  natLt_1_32 : 1 < 32
  shapeCasts_S1x512_S1x512 : S1x512.ShapeCasts S1x512
  reduces_S1000x512_S512 : S1000x512.Reduces [0] S512
  shapeCasts_S512_S1x512 : S512.ShapeCasts S1x512
  shapeCasts_S1x512_S512 : S1x512.ShapeCasts S512
  bcast_S_S512 : S_.BroadcastsInDim S512 (![] : Fin 0 → Fin S512.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x37_S37x25_S5000x25_1_0_0_1_n_n_wf : DotDims.WF S5000x37 S37x25 S5000x25 [1] [0] [0] [1] [] []
  gather_S100000x25_S3300000x1_S3300000x25_1_0_n_n_0_1_125_wf : GatherDims.WF S100000x25 S3300000x1 S3300000x25 [1] [0] [] [0] [] 1 ![1, 25]
  scatter_S100000x25_S3300000x1_S3300000x25_1_0_0_1_wf : ScatterDims.WF S100000x25 S3300000x1 S3300000x25 [1] [0] [0] 1
  dot_S5000x25_S25x18_S5000x18_1_0_0_1_n_n_wf : DotDims.WF S5000x25 S25x18 S5000x18 [1] [0] [0] [1] [] []
  gather_S100000x18_S3300000x1_S3300000x18_1_0_n_n_0_1_118_wf : GatherDims.WF S100000x18 S3300000x1 S3300000x18 [1] [0] [] [0] [] 1 ![1, 18]
  scatter_S100000x18_S3300000x1_S3300000x18_1_0_0_1_wf : ScatterDims.WF S100000x18 S3300000x1 S3300000x18 [1] [0] [0] 1
  dot_S5000x18_S18x12_S5000x12_1_0_0_1_n_n_wf : DotDims.WF S5000x18 S18x12 S5000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1
  dot_S5000x12_S12x1_S5000x1_1_0_0_1_n_n_wf : DotDims.WF S5000x12 S12x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x37.size a ≤ S100000x37.size a
  hwx0_0 : ∀ i : grid0.Coords, EltTy.bits .f32 = 32 ∨ (Rect.block (s := S100000x37) S5000x37.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S37x25.size a ≤ S37x25.size a
  hwx0_1 : ∀ i : grid0.Coords, EltTy.bits .f32 = 32 ∨ (Rect.block (s := S37x25) S37x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x25.size a ≤ S100000x25.size a
  hwx0_2 : ∀ i : grid0.Coords, EltTy.bits .f32 = 32 ∨ (Rect.block (s := S100000x25) S5000x25.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x25.size a ≤ S100000x25.size a
  hwx1_0 : ∀ i : grid1.Coords, EltTy.bits .f32 = 32 ∨ (Rect.block (s := S100000x25) S5000x25.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x25.size a ≤ S1x25.size a
  hwx1_1 : ∀ i : grid1.Coords, EltTy.bits .f32 = 32 ∨ (Rect.block (s := S1x25) S1x25.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x25.size a ≤ S100000x25.size a
  hwx1_2 : ∀ i : grid1.Coords, EltTy.bits .f32 = 32 ∨ (Rect.block (s := S100000x25) S5000x25.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x25.size a ≤ S100000x25.size a
  hwx2_0 : ∀ i : grid2.Coords, EltTy.bits .f32 = 32 ∨ (Rect.block (s := S100000x25) S5000x25.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S25x18.size a ≤ S25x18.size a
  hwx2_1 : ∀ i : grid2.Coords, EltTy.bits .f32 = 32 ∨ (Rect.block (s := S25x18) S25x18.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x18.size a ≤ S100000x18.size a
  hwx2_2 : ∀ i : grid2.Coords, EltTy.bits .f32 = 32 ∨ (Rect.block (s := S100000x18) S5000x18.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x18.size a ≤ S100000x18.size a
  hwx3_0 : ∀ i : grid3.Coords, EltTy.bits .f32 = 32 ∨ (Rect.block (s := S100000x18) S5000x18.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x18.size a ≤ S1x18.size a
  hwx3_1 : ∀ i : grid3.Coords, EltTy.bits .f32 = 32 ∨ (Rect.block (s := S1x18) S1x18.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x18.size a ≤ S100000x18.size a
  hwx3_2 : ∀ i : grid3.Coords, EltTy.bits .f32 = 32 ∨ (Rect.block (s := S100000x18) S5000x18.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x18.size a ≤ S100000x18.size a
  hwx4_0 : ∀ i : grid4.Coords, EltTy.bits .f32 = 32 ∨ (Rect.block (s := S100000x18) S5000x18.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S18x12.size a ≤ S18x12.size a
  hwx4_1 : ∀ i : grid4.Coords, EltTy.bits .f32 = 32 ∨ (Rect.block (s := S18x12) S18x12.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x12.size a ≤ S100000x12.size a
  hwx4_2 : ∀ i : grid4.Coords, EltTy.bits .f32 = 32 ∨ (Rect.block (s := S100000x12) S5000x12.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x12.size a ≤ S100000x12.size a
  hwx5_0 : ∀ i : grid5.Coords, EltTy.bits .f32 = 32 ∨ (Rect.block (s := S100000x12) S5000x12.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x12.size a ≤ S1x12.size a
  hwx5_1 : ∀ i : grid5.Coords, EltTy.bits .f32 = 32 ∨ (Rect.block (s := S1x12) S1x12.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x12.size a ≤ S100000x12.size a
  hwx5_2 : ∀ i : grid5.Coords, EltTy.bits .f32 = 32 ∨ (Rect.block (s := S100000x12) S5000x12.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x12.size a ≤ S100000x12.size a
  hwx6_0 : ∀ i : grid6.Coords, EltTy.bits .f32 = 32 ∨ (Rect.block (s := S100000x12) S5000x12.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S12x1.size a ≤ S12x1.size a
  hwx6_1 : ∀ i : grid6.Coords, EltTy.bits .f32 = 32 ∨ (Rect.block (s := S12x1) S12x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S100000x1.size a
  hwx7_0 : ∀ i : grid7.Coords, EltTy.bits .f32 = 32 ∨ (Rect.block (s := S100000x1) S5000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x1.size a ≤ S100000x1.size a
  hwx8_0 : ∀ i : grid8.Coords, EltTy.bits .f32 = 32 ∨ (Rect.block (s := S100000x1) S1000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x1.size a ≤ S100000x1.size a
  hwx8_1 : ∀ i : grid8.Coords, EltTy.bits .i32 = 32 ∨ (Rect.block (s := S100000x1) S1000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x37_S37x25_S5000x25_1_0_0_1_n_n : DotDims S5000x37 S37x25 S5000x25 where
  lhsContracting := [1]
  rhsContracting := [0]
  lhsNonContracting := [0]
  rhsNonContracting := [1]
  lhsBatch := []
  rhsBatch := []
  wf := dot_S5000x37_S37x25_S5000x25_1_0_0_1_n_n_wf
def gather_S100000x25_S3300000x1_S3300000x25_1_0_n_n_0_1_125 : GatherDims S100000x25 S3300000x1 S3300000x25 where
  offsetDims := [1]
  collapsedSliceDims := [0]
  operandBatchingDims := []
  startIndicesBatchingDims := []
  startIndexMap := [0]
  indexVectorDim := 1
  sliceSizes := ![1, 25]
  wf := gather_S100000x25_S3300000x1_S3300000x25_1_0_n_n_0_1_125_wf
def scatter_S100000x25_S3300000x1_S3300000x25_1_0_0_1 : ScatterDims S100000x25 S3300000x1 S3300000x25 where
  updateWindowDims := [1]
  insertedWindowDims := [0]
  scatterDimsToOperandDims := [0]
  indexVectorDim := 1
  wf := scatter_S100000x25_S3300000x1_S3300000x25_1_0_0_1_wf
def dot_S5000x25_S25x18_S5000x18_1_0_0_1_n_n : DotDims S5000x25 S25x18 S5000x18 where
  lhsContracting := [1]
  rhsContracting := [0]
  lhsNonContracting := [0]
  rhsNonContracting := [1]
  lhsBatch := []
  rhsBatch := []
  wf := dot_S5000x25_S25x18_S5000x18_1_0_0_1_n_n_wf
def gather_S100000x18_S3300000x1_S3300000x18_1_0_n_n_0_1_118 : GatherDims S100000x18 S3300000x1 S3300000x18 where
  offsetDims := [1]
  collapsedSliceDims := [0]
  operandBatchingDims := []
  startIndicesBatchingDims := []
  startIndexMap := [0]
  indexVectorDim := 1
  sliceSizes := ![1, 18]
  wf := gather_S100000x18_S3300000x1_S3300000x18_1_0_n_n_0_1_118_wf
def scatter_S100000x18_S3300000x1_S3300000x18_1_0_0_1 : ScatterDims S100000x18 S3300000x1 S3300000x18 where
  updateWindowDims := [1]
  insertedWindowDims := [0]
  scatterDimsToOperandDims := [0]
  indexVectorDim := 1
  wf := scatter_S100000x18_S3300000x1_S3300000x18_1_0_0_1_wf
def dot_S5000x18_S18x12_S5000x12_1_0_0_1_n_n : DotDims S5000x18 S18x12 S5000x12 where
  lhsContracting := [1]
  rhsContracting := [0]
  lhsNonContracting := [0]
  rhsNonContracting := [1]
  lhsBatch := []
  rhsBatch := []
  wf := dot_S5000x18_S18x12_S5000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf
def dot_S5000x12_S12x1_S5000x1_1_0_0_1_n_n : DotDims S5000x12 S12x1 S5000x1 where
  lhsContracting := [1]
  rhsContracting := [0]
  lhsNonContracting := [0]
  rhsNonContracting := [1]
  lhsBatch := []
  rhsBatch := []
  wf := dot_S5000x12_S12x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S37x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x25.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x25.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x25.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x25.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S25x18.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x18.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x18.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x18.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x18.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x18.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S18x12.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x12.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x12.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x12.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x12.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x12.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S12x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v90) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S5000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S1000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S1000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v94_0) S1x512.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v94_1) S1x512.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x37 : Shape := ⟨2, ![100000, 37]⟩
abbrev S2x3200000 : Shape := ⟨2, ![2, 3200000]⟩
abbrev S100000 : Shape := ⟨1, ![100000]⟩
abbrev S37x25 : Shape := ⟨2, ![37, 25]⟩
abbrev S25 : Shape := ⟨1, ![25]⟩
abbrev S25x18 : Shape := ⟨2, ![25, 18]⟩
abbrev S18 : Shape := ⟨1, ![18]⟩
abbrev S18x12 : Shape := ⟨2, ![18, 12]⟩
abbrev S12 : Shape := ⟨1, ![12]⟩
abbrev S12x1 : Shape := ⟨2, ![12, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x25 : Shape := ⟨2, ![100000, 25]⟩
abbrev S3300000x25 : Shape := ⟨2, ![3300000, 25]⟩
abbrev S1x25 : Shape := ⟨2, ![1, 25]⟩
abbrev S100000x18 : Shape := ⟨2, ![100000, 18]⟩
abbrev S3300000x18 : Shape := ⟨2, ![3300000, 18]⟩
abbrev S1x18 : Shape := ⟨2, ![1, 18]⟩
abbrev S100000x12 : Shape := ⟨2, ![100000, 12]⟩
abbrev S3300000x12 : Shape := ⟨2, ![3300000, 12]⟩
abbrev S1x12 : Shape := ⟨2, ![1, 12]⟩
abbrev S100000x1 : Shape := ⟨2, ![100000, 1]⟩
abbrev S1x1 : Shape := ⟨2, ![1, 1]⟩
abbrev S512 : Shape := ⟨1, ![512]⟩

abbrev nBuf : Space → Nat
  | .hbm => 182
  | .vmem => 0
  | .smem => 0
  | _ => 0

abbrev hbmTy0_0 (i : Nat) : BufTy := match i % 128 with
  | 0 => ⟨S100000x37, .f32⟩
  | 1 => ⟨S2x3200000, .i32⟩
  | 2 => ⟨S100000, .i32⟩
  | 3 => ⟨S37x25, .f32⟩
  | 4 => ⟨S25, .f32⟩
  | 5 => ⟨S25x18, .f32⟩
  | 6 => ⟨S18, .f32⟩
  | 7 => ⟨S18x12, .f32⟩
  | 8 => ⟨S12, .f32⟩
  | 9 => ⟨S12x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x25, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x25, .f32⟩
  | 61 => ⟨S3300000x1, .f32⟩
  | 62 => ⟨S3300000x25, .f32⟩
  | 63 => ⟨S3300000x25, .f32⟩
  | 64 => ⟨S_, .f32⟩
  | 65 => ⟨S100000x25, .f32⟩
  | 66 => ⟨S3300000x1, .i32⟩
  | 67 => ⟨S100000x25, .f32⟩
  | 68 => ⟨S1x25, .f32⟩
  | 69 => ⟨S100000x25, .f32⟩
  | 70 => ⟨S100000x25, .f32⟩
  | 71 => ⟨S100000x25, .f32⟩
  | 72 => ⟨S100000x25, .f32⟩
  | 73 => ⟨S_, .f32⟩
  | 74 => ⟨S100000x25, .f32⟩
  | 75 => ⟨S100000x25, .f32⟩
  | 76 => ⟨S100000x25, .f32⟩
  | 77 => ⟨S_, .f32⟩
  | 78 => ⟨S100000x25, .f32⟩
  | 79 => ⟨S100000x25, .f32⟩
  | 80 => ⟨S100000x25, .f32⟩
  | 81 => ⟨S_, .f32⟩
  | 82 => ⟨S100000x25, .f32⟩
  | 83 => ⟨S100000x25, .f32⟩
  | 84 => ⟨S_, .f32⟩
  | 85 => ⟨S100000x25, .f32⟩
  | 86 => ⟨S100000x25, .f32⟩
  | 87 => ⟨S100000x25, .f32⟩
  | 88 => ⟨S100000x18, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000x18, .f32⟩
  | 98 => ⟨S3300000x1, .f32⟩
  | 99 => ⟨S3300000x18, .f32⟩
  | 100 => ⟨S3300000x18, .f32⟩
  | 101 => ⟨S_, .f32⟩
  | 102 => ⟨S100000x18, .f32⟩
  | 103 => ⟨S3300000x1, .i32⟩
  | 104 => ⟨S100000x18, .f32⟩
  | 105 => ⟨S1x18, .f32⟩
  | 106 => ⟨S100000x18, .f32⟩
  | 107 => ⟨S100000x18, .f32⟩
  | 108 => ⟨S_, .f32⟩
  | 109 => ⟨S100000x18, .f32⟩
  | 110 => ⟨S100000x18, .f32⟩
  | 111 => ⟨S100000x12, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x12, .f32⟩
  | 121 => ⟨S3300000x1, .f32⟩
  | 122 => ⟨S3300000x12, .f32⟩
  | 123 => ⟨S3300000x12, .f32⟩
  | 124 => ⟨S_, .f32⟩
  | 125 => ⟨S100000x12, .f32⟩
  | 126 => ⟨S3300000x1, .i32⟩
  | 127 => ⟨S100000x12, .f32⟩
  | _ => ⟨S100000x37, .f32⟩

abbrev hbmTy0_1 (i : Nat) : BufTy := match i % 128 with
  | 0 => ⟨S1x12, .f32⟩
  | 1 => ⟨S100000x12, .f32⟩
  | 2 => ⟨S100000x12, .f32⟩
  | 3 => ⟨S100000x12, .f32⟩
  | 4 => ⟨S100000x12, .f32⟩
  | 5 => ⟨S_, .f32⟩
  | 6 => ⟨S100000x12, .f32⟩
  | 7 => ⟨S100000x12, .f32⟩
  | 8 => ⟨S100000x12, .f32⟩
  | 9 => ⟨S_, .f32⟩
  | 10 => ⟨S100000x12, .f32⟩
  | 11 => ⟨S100000x12, .f32⟩
  | 12 => ⟨S100000x12, .f32⟩
  | 13 => ⟨S_, .f32⟩
  | 14 => ⟨S100000x12, .f32⟩
  | 15 => ⟨S100000x12, .f32⟩
  | 16 => ⟨S_, .f32⟩
  | 17 => ⟨S100000x12, .f32⟩
  | 18 => ⟨S100000x12, .f32⟩
  | 19 => ⟨S100000x12, .f32⟩
  | 20 => ⟨S100000x1, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S3300000x1, .f32⟩
  | 30 => ⟨S3300000x1, .f32⟩
  | 31 => ⟨S3300000x1, .f32⟩
  | 32 => ⟨S_, .f32⟩
  | 33 => ⟨S100000x1, .f32⟩
  | 34 => ⟨S3300000x1, .i32⟩
  | 35 => ⟨S100000x1, .f32⟩
  | 36 => ⟨S1x1, .f32⟩
  | 37 => ⟨S100000x1, .f32⟩
  | 38 => ⟨S100000x1, .f32⟩
  | 39 => ⟨S100000, .f32⟩
  | 40 => ⟨S_, .f32⟩
  | 41 => ⟨S512, .f32⟩
  | 42 => ⟨S100000x1, .i32⟩
  | 43 => ⟨S512, .f32⟩
  | 44 => ⟨S_, .f32⟩
  | 45 => ⟨S100000, .f32⟩
  | 46 => ⟨S_, .f32⟩
  | 47 => ⟨S512, .f32⟩
  | 48 => ⟨S100000x1, .i32⟩
  | 49 => ⟨S512, .f32⟩
  | 50 => ⟨S_, .f32⟩
  | 51 => ⟨S512, .f32⟩
  | 52 => ⟨S512, .f32⟩
  | 53 => ⟨S512, .f32⟩
  | _ => ⟨S100000x37, .f32⟩

abbrev hbmTy (i : Nat) : BufTy := match i / 128 with
  | 0 => hbmTy0_0 i
  | 1 => hbmTy0_1 i
  | _ => ⟨S100000x37, .f32⟩

abbrev bufTy : (tb : Table) → Fin (tcTables nBuf tb) → BufTy
  | .hbm, ⟨i, _⟩ => hbmTy i
  | _, _ => ⟨S100000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call1_cst : Ref sig .tc := ⟨.hbm, 108, rfl⟩
abbrev main_call1_v0 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_v104 : Ref sig .tc := ⟨.hbm, 143, rfl⟩
abbrev main_cst_22 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_25 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_26 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_27 : Ref sig .tc := ⟨.hbm, 172, rfl⟩
abbrev main_v128 : Ref sig .tc := ⟨.hbm, 173, rfl⟩
abbrev main_cst_28 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_29 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x25_0_1 : S3300000x1.BroadcastsInDim S3300000x25 (![0, 1] : Fin 2 → Fin S3300000x25.rank)
  bcast_S_S100000x25 : S_.BroadcastsInDim S100000x25 (![] : Fin 0 → Fin S100000x25.rank)
  bcast_S25_S1x25_1 : S25.BroadcastsInDim S1x25 (![1] : Fin 1 → Fin S1x25.rank)
  bcast_S1x25_S100000x25_0_1 : S1x25.BroadcastsInDim S100000x25 (![0, 1] : Fin 2 → Fin S100000x25.rank)
  bcast_S3300000x1_S3300000x18_0_1 : S3300000x1.BroadcastsInDim S3300000x18 (![0, 1] : Fin 2 → Fin S3300000x18.rank)
  bcast_S_S100000x18 : S_.BroadcastsInDim S100000x18 (![] : Fin 0 → Fin S100000x18.rank)
  bcast_S18_S1x18_1 : S18.BroadcastsInDim S1x18 (![1] : Fin 1 → Fin S1x18.rank)
  bcast_S1x18_S100000x18_0_1 : S1x18.BroadcastsInDim S100000x18 (![0, 1] : Fin 2 → Fin S100000x18.rank)
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S512 : S_.BroadcastsInDim S512 (![] : Fin 0 → Fin S512.rank)
  bcast_S100000_S100000x1_0 : S100000.BroadcastsInDim S100000x1 (![0] : Fin 1 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x37_S37x25_S100000x25_1_0_0_1_n_n_wf : DotDims.WF S100000x37 S37x25 S100000x25 [1] [0] [0] [1] [] []
  gather_S100000x25_S3300000x1_S3300000x25_1_0_n_n_0_1_125_wf : GatherDims.WF S100000x25 S3300000x1 S3300000x25 [1] [0] [] [0] [] 1 ![1, 25]
  scatter_S100000x25_S3300000x1_S3300000x25_1_0_0_1_wf : ScatterDims.WF S100000x25 S3300000x1 S3300000x25 [1] [0] [0] 1
  dot_S100000x25_S25x18_S100000x18_1_0_0_1_n_n_wf : DotDims.WF S100000x25 S25x18 S100000x18 [1] [0] [0] [1] [] []
  gather_S100000x18_S3300000x1_S3300000x18_1_0_n_n_0_1_118_wf : GatherDims.WF S100000x18 S3300000x1 S3300000x18 [1] [0] [] [0] [] 1 ![1, 18]
  scatter_S100000x18_S3300000x1_S3300000x18_1_0_0_1_wf : ScatterDims.WF S100000x18 S3300000x1 S3300000x18 [1] [0] [0] 1
  dot_S100000x18_S18x12_S100000x12_1_0_0_1_n_n_wf : DotDims.WF S100000x18 S18x12 S100000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1
  dot_S100000x12_S12x1_S100000x1_1_0_0_1_n_n_wf : DotDims.WF S100000x12 S12x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S512_S100000x1_S100000_n_0_0_1_wf : ScatterDims.WF S512 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x37_S37x25_S100000x25_1_0_0_1_n_n : DotDims S100000x37 S37x25 S100000x25 where
  lhsContracting := [1]
  rhsContracting := [0]
  lhsNonContracting := [0]
  rhsNonContracting := [1]
  lhsBatch := []
  rhsBatch := []
  wf := dot_S100000x37_S37x25_S100000x25_1_0_0_1_n_n_wf
def gather_S100000x25_S3300000x1_S3300000x25_1_0_n_n_0_1_125 : GatherDims S100000x25 S3300000x1 S3300000x25 where
  offsetDims := [1]
  collapsedSliceDims := [0]
  operandBatchingDims := []
  startIndicesBatchingDims := []
  startIndexMap := [0]
  indexVectorDim := 1
  sliceSizes := ![1, 25]
  wf := gather_S100000x25_S3300000x1_S3300000x25_1_0_n_n_0_1_125_wf
def scatter_S100000x25_S3300000x1_S3300000x25_1_0_0_1 : ScatterDims S100000x25 S3300000x1 S3300000x25 where
  updateWindowDims := [1]
  insertedWindowDims := [0]
  scatterDimsToOperandDims := [0]
  indexVectorDim := 1
  wf := scatter_S100000x25_S3300000x1_S3300000x25_1_0_0_1_wf
def dot_S100000x25_S25x18_S100000x18_1_0_0_1_n_n : DotDims S100000x25 S25x18 S100000x18 where
  lhsContracting := [1]
  rhsContracting := [0]
  lhsNonContracting := [0]
  rhsNonContracting := [1]
  lhsBatch := []
  rhsBatch := []
  wf := dot_S100000x25_S25x18_S100000x18_1_0_0_1_n_n_wf
def gather_S100000x18_S3300000x1_S3300000x18_1_0_n_n_0_1_118 : GatherDims S100000x18 S3300000x1 S3300000x18 where
  offsetDims := [1]
  collapsedSliceDims := [0]
  operandBatchingDims := []
  startIndicesBatchingDims := []
  startIndexMap := [0]
  indexVectorDim := 1
  sliceSizes := ![1, 18]
  wf := gather_S100000x18_S3300000x1_S3300000x18_1_0_n_n_0_1_118_wf
def scatter_S100000x18_S3300000x1_S3300000x18_1_0_0_1 : ScatterDims S100000x18 S3300000x1 S3300000x18 where
  updateWindowDims := [1]
  insertedWindowDims := [0]
  scatterDimsToOperandDims := [0]
  indexVectorDim := 1
  wf := scatter_S100000x18_S3300000x1_S3300000x18_1_0_0_1_wf
def dot_S100000x18_S18x12_S100000x12_1_0_0_1_n_n : DotDims S100000x18 S18x12 S100000x12 where
  lhsContracting := [1]
  rhsContracting := [0]
  lhsNonContracting := [0]
  rhsNonContracting := [1]
  lhsBatch := []
  rhsBatch := []
  wf := dot_S100000x18_S18x12_S100000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf
def dot_S100000x12_S12x1_S100000x1_1_0_0_1_n_n : DotDims S100000x12 S12x1 S100000x1 where
  lhsContracting := [1]
  rhsContracting := [0]
  lhsNonContracting := [0]
  rhsNonContracting := [1]
  lhsBatch := []
  rhsBatch := []
  wf := dot_S100000x12_S12x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Spec.lean ====
/-
  What each dense stage of the network computes, as ONE function of whole arrays, written in the host's
  operations over the reference program's shapes and dimension records: the four dense maps h ↦ h · W, the four
  bias additions, the two activations (gelu in its tanh form, relu), and the mean pool's two scatter-sums over the
  512 graphs. A node whose graph id lies outside [0, 512) contributes to no graph: the scatter drops it.
-/
import proofs.«423238_j45140106281309_2_alg».proof.Proof.Gen.ReferenceIdeal
import Idealize.ShloMosaic.PureOps.Ideal

noncomputable section

namespace Cert.Spec

open Idealize.ShloMosaic Cert.ReferenceIdeal Cert.ReferenceIdeal.Gen

/-- Layer 1's dense map: the whole [100000, ·] array times the weight matrix, one host contraction. -/
def lin1 (x : FVec Ideal S100000x37 .f32) (w : FVec Ideal S37x25 .f32) : FVec Ideal S100000x25 .f32 :=
  Host.dotGeneral dot_S100000x37_S37x25_S100000x25_1_0_0_1_n_n none x w

/-- Layer 2's dense map: the whole [100000, ·] array times the weight matrix, one host contraction. -/
def lin2 (x : FVec Ideal S100000x25 .f32) (w : FVec Ideal S25x18 .f32) : FVec Ideal S100000x18 .f32 :=
  Host.dotGeneral dot_S100000x25_S25x18_S100000x18_1_0_0_1_n_n none x w

/-- Layer 3's dense map: the whole [100000, ·] array times the weight matrix, one host contraction. -/
def lin3 (x : FVec Ideal S100000x18 .f32) (w : FVec Ideal S18x12 .f32) : FVec Ideal S100000x12 .f32 :=
  Host.dotGeneral dot_S100000x18_S18x12_S100000x12_1_0_0_1_n_n none x w

/-- Layer 4's dense map: the whole [100000, ·] array times the weight matrix, one host contraction. -/
def lin4 (x : FVec Ideal S100000x12 .f32) (w : FVec Ideal S12x1 .f32) : FVec Ideal S100000x1 .f32 :=
  Host.dotGeneral dot_S100000x12_S12x1_S100000x1_1_0_0_1_n_n none x w

/-- Layer 1's bias row added to every node's row. -/
def bias1 (a : FVec Ideal S100000x25 .f32) (b : FVec Ideal S1x25 .f32) : FVec Ideal S100000x25 .f32 :=
  addf a (broadcastInDim S100000x25 ![0, 1] bcast_S1x25_S100000x25_0_1 b)

/-- Layer 2's bias row added to every node's row. -/
def bias2 (a : FVec Ideal S100000x18 .f32) (b : FVec Ideal S1x18 .f32) : FVec Ideal S100000x18 .f32 :=
  addf a (broadcastInDim S100000x18 ![0, 1] bcast_S1x18_S100000x18_0_1 b)

/-- Layer 3's bias row added to every node's row. -/
def bias3 (a : FVec Ideal S100000x12 .f32) (b : FVec Ideal S1x12 .f32) : FVec Ideal S100000x12 .f32 :=
  addf a (broadcastInDim S100000x12 ![0, 1] bcast_S1x12_S100000x12_0_1 b)

/-- Layer 4's bias row added to every node's row. -/
def bias4 (a : FVec Ideal S100000x1 .f32) (b : FVec Ideal S1x1 .f32) : FVec Ideal S100000x1 .f32 :=
  addf a (broadcastInDim S100000x1 ![0, 1] bcast_S1x1_S100000x1_0_1 b)

/-- The tanh form of gelu on a [100000, 25] array, in the host's operations and in the order the
    reference applies them: z · (½ · (1 + tanh (c₁ · (z + c₂ · ((z · z) · z))))), the four constants the
    reference's own binary words. -/
def gelu25 (z : FVec Ideal S100000x25 .f32) : FVec Ideal S100000x25 .f32 :=
  mulf z (mulf (broadcastInDim S100000x25 ![] bcast_S_S100000x25 (constant S_ .f32 0x3F000000#32))
    (addf (broadcastInDim S100000x25 ![] bcast_S_S100000x25 (constant S_ .f32 0x3F800000#32))
      (Host.tanh (mulf (broadcastInDim S100000x25 ![] bcast_S_S100000x25 (constant S_ .f32 0x3F4C422A#32))
        (addf z (mulf (broadcastInDim S100000x25 ![] bcast_S_S100000x25 (constant S_ .f32 0x3D372713#32))
          (mulf (mulf z z) z)))))))

/-- The tanh form of gelu on a [100000, 12] array, in the host's operations and in the order the
    reference applies them: z · (½ · (1 + tanh (c₁ · (z + c₂ · ((z · z) · z))))), the four constants the
    reference's own binary words. -/
def gelu12 (z : FVec Ideal S100000x12 .f32) : FVec Ideal S100000x12 .f32 :=
  mulf z (mulf (broadcastInDim S100000x12 ![] bcast_S_S100000x12 (constant S_ .f32 0x3F000000#32))
    (addf (broadcastInDim S100000x12 ![] bcast_S_S100000x12 (constant S_ .f32 0x3F800000#32))
      (Host.tanh (mulf (broadcastInDim S100000x12 ![] bcast_S_S100000x12 (constant S_ .f32 0x3F4C422A#32))
        (addf z (mulf (broadcastInDim S100000x12 ![] bcast_S_S100000x12 (constant S_ .f32 0x3D372713#32))
          (mulf (mulf z z) z)))))))

/-- relu on a [100000, 18] array: the maximum with zero. -/
def relu18 (z : FVec Ideal S100000x18 .f32) : FVec Ideal S100000x18 .f32 :=
  maximumf z (broadcastInDim S100000x18 ![] bcast_S_S100000x18 (constant S_ .f32 0x00000000#32))

/-- Per graph, the sum of the node values of the nodes carrying that graph's id (ids read signed; a node
    whose id is outside [0, 512) lands nowhere). -/
def poolSum (h : FVec Ideal S100000 .f32) (ids : IVec S100000x1 32) : FVec Ideal S512 .f32 :=
  Host.scatterAdd scatter_S512_S100000x1_S100000_n_0_0_1
    (broadcastInDim S512 ![] bcast_S_S512 (constant S_ .f32 0x00000000#32)) ids h

/-- Per graph, the number of nodes carrying that graph's id: the same scatter-sum of ones. -/
def poolCnt (ids : IVec S100000x1 32) : FVec Ideal S512 .f32 :=
  Host.scatterAdd scatter_S512_S100000x1_S100000_n_0_0_1
    (broadcastInDim S512 ![] bcast_S_S512 (constant S_ .f32 0x00000000#32)) ids
    (broadcastInDim S100000 ![] bcast_S_S100000 (constant S_ .f32 0x3F800000#32))

end Cert.Spec

end
-- ==== Proof.SpecGraph.lean ====
/-
  The graph side of the network and the network itself, as functions of whole arrays in the host's operations:
  the edge list with one self-loop per node appended (targets `rowIdx`, sources `colIdx`), the degree of a node as
  the number of edges leaving it, the symmetric normalisation d⁻¹ᐟ²[target] · d⁻¹ᐟ²[source] of an edge (zero where the
  degree is zero), the per-layer aggregation "gather the source's row, scale, sum per target", and the four layers
  followed by the mean pool over the 512 graphs. An index that a gather reads is first wrapped once (a negative
  index has the node count added); a scatter drops an update whose index is out of range.
-/
import proofs.«423238_j45140106281309_2_alg».proof.Proof.Spec

noncomputable section

namespace Cert.Spec

open Idealize.ShloMosaic Cert.ReferenceIdeal Cert.ReferenceIdeal.Gen

/-- The edges' target nodes, then the nodes themselves (the self-loops). -/
def rowIdx (ei : IVec S2x3200000 32) : IVec S3300000 32 :=
  concatenate S3300000 0 [⟨S3200000, (shapeCast _ (extractStridedSlice S1x3200000 ![0, 0] (ei) slices_S2x3200000_S1x3200000_0_0) shapeCasts_S1x3200000_S3200000)⟩, ⟨S100000, (iotaInDim S100000 32 0)⟩] concatenates_S3200000_S100000_S3300000_d0

/-- The edges' source nodes, then the nodes themselves (the self-loops). -/
def colIdx (ei : IVec S2x3200000 32) : IVec S3300000 32 :=
  concatenate S3300000 0 [⟨S3200000, (shapeCast _ (extractStridedSlice S1x3200000 ![1, 0] (ei) slices_S2x3200000_S1x3200000_1_0) shapeCasts_S1x3200000_S3200000)⟩, ⟨S100000, (iotaInDim S100000 32 0)⟩] concatenates_S3200000_S100000_S3300000_d0

/-- An index list as a one-column table, the form a gather or scatter takes it in. -/
def asCol (v : IVec S3300000 32) : IVec S3300000x1 32 :=
  broadcastInDim S3300000x1 ![0] bcast_S3300000_S3300000x1_0 v

/-- An index list wrapped once for a gather (a negative index has 100000 added), as a one-column table. -/
def wrap (v : IVec S3300000 32) : IVec S3300000x1 32 :=
  asCol (select (cmpi .slt v (broadcastInDim S3300000 ![] bcast_S_S3300000 (constantI S_ 32 0#32)))
    (addi v (broadcastInDim S3300000 ![] bcast_S_S3300000 (constantI S_ 32 100000#32))) v)

/-- A node's degree: the number of edges (self-loops included) whose source it is. -/
def deg (ei : IVec S2x3200000 32) : FVec Ideal S100000 .f32 :=
  Host.scatterAdd scatter_S100000_S3300000x1_S3300000_n_0_0_1
    (broadcastInDim S100000 ![] bcast_S_S100000 (constant S_ .f32 0x00000000#32))
    (asCol (colIdx ei))
    (broadcastInDim S3300000 ![] bcast_S_S3300000 (constant S_ .f32 0x3F800000#32))

/-- deg⁻¹ᐟ² where the degree is positive, zero elsewhere. -/
def dinv (ei : IVec S2x3200000 32) : FVec Ideal S100000 .f32 :=
  select (cmpf .ogt (deg ei) (broadcastInDim S100000 ![] bcast_S_S100000 (constant S_ .f32 0x00000000#32)))
    (Host.rsqrt (deg ei))
    (broadcastInDim S100000 ![] bcast_S_S100000 (id (constant S_ .f32 0x00000000#32)))

/-- An edge's normalisation: dinv at its target times dinv at its source. -/
def norm (ei : IVec S2x3200000 32) : FVec Ideal S3300000 .f32 :=
  mulf (Host.gather gather_S100000_S3300000x1_S3300000_n_0_n_n_0_1_1 (dinv ei) (wrap (rowIdx ei)))
    (Host.gather gather_S100000_S3300000x1_S3300000_n_0_n_n_0_1_1 (dinv ei) (wrap (colIdx ei)))

/-- The normalisation as a one-column table. -/
def normCol (ei : IVec S2x3200000 32) : FVec Ideal S3300000x1 .f32 :=
  broadcastInDim S3300000x1 ![0] bcast_S3300000_S3300000x1_0 (norm ei)

/-- Layer 1's aggregation over the 3,300,000 edges (self-loops included): every edge carries its source node's
    row of `h` times the edge's normalisation, and the rows are summed per target node. -/
def agg1 (h : FVec Ideal S100000x25 .f32) (ei : IVec S2x3200000 32) : FVec Ideal S100000x25 .f32 :=
  Host.scatterAdd scatter_S100000x25_S3300000x1_S3300000x25_1_0_0_1
    (broadcastInDim S100000x25 ![] bcast_S_S100000x25 (constant S_ .f32 0x00000000#32))
    (asCol (rowIdx ei))
    (mulf (Host.gather gather_S100000x25_S3300000x1_S3300000x25_1_0_n_n_0_1_125 h (wrap (colIdx ei))) (broadcastInDim S3300000x25 ![0, 1] bcast_S3300000x1_S3300000x25_0_1 (normCol ei)))

/-- Layer 2's aggregation over the 3,300,000 edges (self-loops included): every edge carries its source node's
    row of `h` times the edge's normalisation, and the rows are summed per target node. -/
def agg2 (h : FVec Ideal S100000x18 .f32) (ei : IVec S2x3200000 32) : FVec Ideal S100000x18 .f32 :=
  Host.scatterAdd scatter_S100000x18_S3300000x1_S3300000x18_1_0_0_1
    (broadcastInDim S100000x18 ![] bcast_S_S100000x18 (constant S_ .f32 0x00000000#32))
    (asCol (rowIdx ei))
    (mulf (Host.gather gather_S100000x18_S3300000x1_S3300000x18_1_0_n_n_0_1_118 h (wrap (colIdx ei))) (broadcastInDim S3300000x18 ![0, 1] bcast_S3300000x1_S3300000x18_0_1 (normCol ei)))

/-- Layer 3's aggregation over the 3,300,000 edges (self-loops included): every edge carries its source node's
    row of `h` times the edge's normalisation, and the rows are summed per target node. -/
def agg3 (h : FVec Ideal S100000x12 .f32) (ei : IVec S2x3200000 32) : FVec Ideal S100000x12 .f32 :=
  Host.scatterAdd scatter_S100000x12_S3300000x1_S3300000x12_1_0_0_1
    (broadcastInDim S100000x12 ![] bcast_S_S100000x12 (constant S_ .f32 0x00000000#32))
    (asCol (rowIdx ei))
    (mulf (Host.gather gather_S100000x12_S3300000x1_S3300000x12_1_0_n_n_0_1_112 h (wrap (colIdx ei))) (broadcastInDim S3300000x12 ![0, 1] bcast_S3300000x1_S3300000x12_0_1 (normCol ei)))

/-- Layer 4's aggregation over the 3,300,000 edges (self-loops included): every edge carries its source node's
    row of `h` times the edge's normalisation, and the rows are summed per target node. -/
def agg4 (h : FVec Ideal S100000x1 .f32) (ei : IVec S2x3200000 32) : FVec Ideal S100000x1 .f32 :=
  Host.scatterAdd scatter_S100000x1_S3300000x1_S3300000x1_1_0_0_1
    (broadcastInDim S100000x1 ![] bcast_S_S100000x1 (constant S_ .f32 0x00000000#32))
    (asCol (rowIdx ei))
    (mulf (Host.gather gather_S100000x1_S3300000x1_S3300000x1_1_0_n_n_0_1_11 h (wrap (colIdx ei))) (normCol ei))

/-- A bias vector as a one-row table. -/
def biasRow1 (b : FVec Ideal S25 .f32) : FVec Ideal S1x25 .f32 := broadcastInDim S1x25 ![1] bcast_S25_S1x25_1 b
def biasRow2 (b : FVec Ideal S18 .f32) : FVec Ideal S1x18 .f32 := broadcastInDim S1x18 ![1] bcast_S18_S1x18_1 b
def biasRow3 (b : FVec Ideal S12 .f32) : FVec Ideal S1x12 .f32 := broadcastInDim S1x12 ![1] bcast_S12_S1x12_1 b
def biasRow4 (b : FVec Ideal S1 .f32) : FVec Ideal S1x1 .f32 := broadcastInDim S1x1 ![1] bcast_S1_S1x1_1 b

/-- The nodes' graph ids as a one-column table. -/
def idCol (batch : IVec S100000 32) : IVec S100000x1 32 :=
  broadcastInDim S100000x1 ![0] bcast_S100000_S100000x1_0 batch

/-- The node features after each of the four layers. -/
def h1 (x : FVec Ideal S100000x37 .f32) (ei : IVec S2x3200000 32) (w1 : FVec Ideal S37x25 .f32) (b1 : FVec Ideal S25 .f32) :
    FVec Ideal S100000x25 .f32 :=
  gelu25 (bias1 (agg1 (lin1 x w1) ei) (biasRow1 b1))
def h2 (x : FVec Ideal S100000x37 .f32) (ei : IVec S2x3200000 32) (w1 : FVec Ideal S37x25 .f32) (b1 : FVec Ideal S25 .f32)
    (w2 : FVec Ideal S25x18 .f32) (b2 : FVec Ideal S18 .f32) : FVec Ideal S100000x18 .f32 :=
  relu18 (bias2 (agg2 (lin2 (h1 x ei w1 b1) w2) ei) (biasRow2 b2))
def h3 (x : FVec Ideal S100000x37 .f32) (ei : IVec S2x3200000 32) (w1 : FVec Ideal S37x25 .f32) (b1 : FVec Ideal S25 .f32)
    (w2 : FVec Ideal S25x18 .f32) (b2 : FVec Ideal S18 .f32) (w3 : FVec Ideal S18x12 .f32) (b3 : FVec Ideal S12 .f32) :
    FVec Ideal S100000x12 .f32 :=
  gelu12 (bias3 (agg3 (lin3 (h2 x ei w1 b1 w2 b2) w3) ei) (biasRow3 b3))
def h4 (x : FVec Ideal S100000x37 .f32) (ei : IVec S2x3200000 32) (w1 : FVec Ideal S37x25 .f32) (b1 : FVec Ideal S25 .f32)
    (w2 : FVec Ideal S25x18 .f32) (b2 : FVec Ideal S18 .f32) (w3 : FVec Ideal S18x12 .f32) (b3 : FVec Ideal S12 .f32)
    (w4 : FVec Ideal S12x1 .f32) (b4 : FVec Ideal S1 .f32) : FVec Ideal S100000x1 .f32 :=
  bias4 (agg4 (lin4 (h3 x ei w1 b1 w2 b2 w3 b3) w4) ei) (biasRow4 b4)

/-- The whole network: per graph, the sum of its nodes' final values over the larger of its node count and one. -/
def net (x : FVec Ideal S100000x37 .f32) (ei : IVec S2x3200000 32) (batch : IVec S100000 32)
    (w1 : FVec Ideal S37x25 .f32) (b1 : FVec Ideal S25 .f32) (w2 : FVec Ideal S25x18 .f32) (b2 : FVec Ideal S18 .f32)
    (w3 : FVec Ideal S18x12 .f32) (b3 : FVec Ideal S12 .f32) (w4 : FVec Ideal S12x1 .f32) (b4 : FVec Ideal S1 .f32) :
    FVec Ideal S512 .f32 :=
  Host.divf
    (poolSum (shapeCast _ (h4 x ei w1 b1 w2 b2 w3 b3 w4 b4) shapeCasts_S100000x1_S100000) (idCol batch))
    (maximumf (poolCnt (idCol batch)) (broadcastInDim S512 ![] bcast_S_S512 (constant S_ .f32 0x3F800000#32)))

end Cert.Spec

end
-- ==== Proof.Lin1.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.SL.Sem
open Cert.KernelIdeal Cert.KernelIdeal.Gen

/-
  The first dense map, x · W₁ with x of 100000 rows and 37 columns and W₁ of 37 rows and 25 columns, computed
  in 20 row tiles of 5000 rows. Each grid point t multiplies rows 5000·t … 5000·t + 4999 of x by the whole of W₁
  (after a narrowing of both operands that is the identity on the extended reals, into a zero accumulator) and
  writes the [5000, 25] result back as the same rows of the output. Entry (p, q) of a tile is ∑ₖ x(5000·t + p, k) · W₁(k, q),
  which is entry (5000·t + p, q) of the whole product; the 20 tiles cover all 100000 rows.
-/

/-! ## One row tile times the weight matrix, read at an entry -/

/-- Entry (p, k) of the row tile, for the output entry (p, q) and the contraction position k. -/
abbrev tileRow1 (j : S5000x25.Idx) (k : Fin 37) : S5000x37.Idx := fun a => match a with
  | ⟨0, _⟩ => ⟨(j 0).val, (j 0).isLt⟩
  | ⟨1, _⟩ => ⟨k.val, k.isLt⟩
/-- Entry (k, q) of the weight matrix, for the output entry (p, q) and the contraction position k. -/
abbrev tileCol1 (j : S5000x25.Idx) (k : Fin 37) : S37x25.Idx := fun a => match a with
  | ⟨0, _⟩ => ⟨k.val, k.isLt⟩
  | ⟨1, _⟩ => ⟨(j 1).val, (j 1).isLt⟩

theorem tile1_lhs_0 (i : S5000x25.Idx) (q : dot_S5000x37_S37x25_S5000x25_1_0_0_1_n_n.contr.Idx) :
    (dot_S5000x37_S37x25_S5000x25_1_0_0_1_n_n.lhsIdx i q 0).val = (i 0).val := by
  unfold DotDims.lhsIdx
  rw [dif_neg (show ¬(0 : Fin S5000x37.rank) ∈ dot_S5000x37_S37x25_S5000x25_1_0_0_1_n_n.lhsBatch by decide), dif_pos (show (0 : Fin S5000x37.rank) ∈ dot_S5000x37_S37x25_S5000x25_1_0_0_1_n_n.lhsNonContracting by decide)]
  rfl
theorem tile1_lhs_1 (i : S5000x25.Idx) (q : dot_S5000x37_S37x25_S5000x25_1_0_0_1_n_n.contr.Idx) :
    (dot_S5000x37_S37x25_S5000x25_1_0_0_1_n_n.lhsIdx i q 1).val = (q ⟨0, by decide⟩).val :=
  dot_S5000x37_S37x25_S5000x25_1_0_0_1_n_n.lhsIdx_val_of_single rfl i q
theorem tile1_rhs_0 (i : S5000x25.Idx) (q : dot_S5000x37_S37x25_S5000x25_1_0_0_1_n_n.contr.Idx) :
    (dot_S5000x37_S37x25_S5000x25_1_0_0_1_n_n.rhsIdx i q 0).val = (q ⟨0, by decide⟩).val :=
  dot_S5000x37_S37x25_S5000x25_1_0_0_1_n_n.rhsIdx_val_of_single rfl i q
theorem tile1_rhs_1 (i : S5000x25.Idx) (q : dot_S5000x37_S37x25_S5000x25_1_0_0_1_n_n.contr.Idx) :
    (dot_S5000x37_S37x25_S5000x25_1_0_0_1_n_n.rhsIdx i q 1).val = (i 1).val := by
  unfold DotDims.rhsIdx
  rw [dif_neg (show ¬(1 : Fin S37x25.rank) ∈ dot_S5000x37_S37x25_S5000x25_1_0_0_1_n_n.rhsBatch by decide), dif_pos (show (1 : Fin S37x25.rank) ∈ dot_S5000x37_S37x25_S5000x25_1_0_0_1_n_n.rhsNonContracting by decide)]
  rfl

/-- The body's arithmetic at entry (p, q) of the tile: the narrowing of both operands is the identity on the
    extended reals and the accumulator is zero, so the entry is the plain sum over k of x(p, k) · w(k, q). -/
theorem tile1_apply (x0 : Vec Ideal S5000x37 .f32) (x1 : Vec Ideal S37x25 .f32) (j : S5000x25.Idx) :
    k0_pay1 (F := Ideal) x0 x1 j = ∑ k : Fin 37, x0 (tileRow1 j k) * x1 (tileCol1 j k) := by
  unfold k0_pay1
  simp only [matmul]
  rw [Ideal.matmul_constant_zero_apply, ← Equiv.sum_comp (ValueIdx.contrEquiv1 dot_S5000x37_S37x25_S5000x25_1_0_0_1_n_n 37 rfl rfl).symm]
  refine Finset.sum_congr rfl fun k _ => ?_
  have hk := ValueIdx.contrEquiv1_symm_val dot_S5000x37_S37x25_S5000x25_1_0_0_1_n_n 37 rfl rfl k
  have el : dot_S5000x37_S37x25_S5000x25_1_0_0_1_n_n.lhsIdx j ((ValueIdx.contrEquiv1 dot_S5000x37_S37x25_S5000x25_1_0_0_1_n_n 37 rfl rfl).symm k) = tileRow1 j k := funext fun a => Fin.ext (by
    match a with
    | ⟨0, _⟩ => exact tile1_lhs_0 _ _
    | ⟨1, _⟩ => exact (tile1_lhs_1 _ _).trans hk)
  have er : dot_S5000x37_S37x25_S5000x25_1_0_0_1_n_n.rhsIdx j ((ValueIdx.contrEquiv1 dot_S5000x37_S37x25_S5000x25_1_0_0_1_n_n 37 rfl rfl).symm k) = tileCol1 j k := funext fun a => Fin.ext (by
    match a with
    | ⟨0, _⟩ => exact (tile1_rhs_0 _ _).trans hk
    | ⟨1, _⟩ => exact tile1_rhs_1 _ _)
  rw [el, er]
  rfl

/-! ## The whole product, read at an entry -/

/-- Entry (r, k) of the whole input array, for the output entry (r, q) and the contraction position k. -/
abbrev fullRow1 (i : Cert.ReferenceIdeal.S100000x25.Idx) (k : Fin 37) : Cert.ReferenceIdeal.S100000x37.Idx := fun a => match a with
  | ⟨0, _⟩ => ⟨(i 0).val, (i 0).isLt⟩
  | ⟨1, _⟩ => ⟨k.val, k.isLt⟩
/-- Entry (k, q) of the weight matrix, for the output entry (r, q) and the contraction position k. -/
abbrev fullCol1 (i : Cert.ReferenceIdeal.S100000x25.Idx) (k : Fin 37) : Cert.ReferenceIdeal.S37x25.Idx := fun a => match a with
  | ⟨0, _⟩ => ⟨k.val, k.isLt⟩
  | ⟨1, _⟩ => ⟨(i 1).val, (i 1).isLt⟩

theorem full1_lhs_0 (i : Cert.ReferenceIdeal.S100000x25.Idx) (q : Cert.ReferenceIdeal.dot_S100000x37_S37x25_S100000x25_1_0_0_1_n_n.contr.Idx) :
    (Cert.ReferenceIdeal.dot_S100000x37_S37x25_S100000x25_1_0_0_1_n_n.lhsIdx i q 0).val = (i 0).val := by
  unfold DotDims.lhsIdx
  rw [dif_neg (show ¬(0 : Fin Cert.ReferenceIdeal.S100000x37.rank) ∈ Cert.ReferenceIdeal.dot_S100000x37_S37x25_S100000x25_1_0_0_1_n_n.lhsBatch by decide), dif_pos (show (0 : Fin Cert.ReferenceIdeal.S100000x37.rank) ∈ Cert.ReferenceIdeal.dot_S100000x37_S37x25_S100000x25_1_0_0_1_n_n.lhsNonContracting by decide)]
  rfl
theorem full1_lhs_1 (i : Cert.ReferenceIdeal.S100000x25.Idx) (q : Cert.ReferenceIdeal.dot_S100000x37_S37x25_S100000x25_1_0_0_1_n_n.contr.Idx) :
    (Cert.ReferenceIdeal.dot_S100000x37_S37x25_S100000x25_1_0_0_1_n_n.lhsIdx i q 1).val = (q ⟨0, by decide⟩).val :=
  Cert.ReferenceIdeal.dot_S100000x37_S37x25_S100000x25_1_0_0_1_n_n.lhsIdx_val_of_single rfl i q
theorem full1_rhs_0 (i : Cert.ReferenceIdeal.S100000x25.Idx) (q : Cert.ReferenceIdeal.dot_S100000x37_S37x25_S100000x25_1_0_0_1_n_n.contr.Idx) :
    (Cert.ReferenceIdeal.dot_S100000x37_S37x25_S100000x25_1_0_0_1_n_n.rhsIdx i q 0).val = (q ⟨0, by decide⟩).val :=
  Cert.ReferenceIdeal.dot_S100000x37_S37x25_S100000x25_1_0_0_1_n_n.rhsIdx_val_of_single rfl i q
theorem full1_rhs_1 (i : Cert.ReferenceIdeal.S100000x25.Idx) (q : Cert.ReferenceIdeal.dot_S100000x37_S37x25_S100000x25_1_0_0_1_n_n.contr.Idx) :
    (Cert.ReferenceIdeal.dot_S100000x37_S37x25_S100000x25_1_0_0_1_n_n.rhsIdx i q 1).val = (i 1).val := by
  unfold DotDims.rhsIdx
  rw [dif_neg (show ¬(1 : Fin Cert.ReferenceIdeal.S37x25.rank) ∈ Cert.ReferenceIdeal.dot_S100000x37_S37x25_S100000x25_1_0_0_1_n_n.rhsBatch by decide), dif_pos (show (1 : Fin Cert.ReferenceIdeal.S37x25.rank) ∈ Cert.ReferenceIdeal.dot_S100000x37_S37x25_S100000x25_1_0_0_1_n_n.rhsNonContracting by decide)]
  rfl

/-- The host's contraction at entry (r, q): the sum over k of X(r, k) · W(k, q). -/
theorem full1_apply (X : FVec Ideal Cert.ReferenceIdeal.S100000x37 .f32) (W : FVec Ideal Cert.ReferenceIdeal.S37x25 .f32)
    (i : Cert.ReferenceIdeal.S100000x25.Idx) :
    Cert.Spec.lin1 X W i = ∑ k : Fin 37, X (fullRow1 i k) * W (fullCol1 i k) := by
  unfold Cert.Spec.lin1
  simp only [Host.dotGeneral]
  rw [Ideal.dotGeneral_apply, ← Equiv.sum_comp (ValueIdx.contrEquiv1 Cert.ReferenceIdeal.dot_S100000x37_S37x25_S100000x25_1_0_0_1_n_n 37 rfl rfl).symm]
  refine Finset.sum_congr rfl fun k _ => ?_
  have hk := ValueIdx.contrEquiv1_symm_val Cert.ReferenceIdeal.dot_S100000x37_S37x25_S100000x25_1_0_0_1_n_n 37 rfl rfl k
  have el : Cert.ReferenceIdeal.dot_S100000x37_S37x25_S100000x25_1_0_0_1_n_n.lhsIdx i ((ValueIdx.contrEquiv1 Cert.ReferenceIdeal.dot_S100000x37_S37x25_S100000x25_1_0_0_1_n_n 37 rfl rfl).symm k) = fullRow1 i k := funext fun a => Fin.ext (by
    match a with
    | ⟨0, _⟩ => exact full1_lhs_0 _ _
    | ⟨1, _⟩ => exact (full1_lhs_1 _ _).trans hk)
  have er : Cert.ReferenceIdeal.dot_S100000x37_S37x25_S100000x25_1_0_0_1_n_n.rhsIdx i ((ValueIdx.contrEquiv1 Cert.ReferenceIdeal.dot_S100000x37_S37x25_S100000x25_1_0_0_1_n_n 37 rfl rfl).symm k) = fullCol1 i k := funext fun a => Fin.ext (by
    match a with
    | ⟨0, _⟩ => exact (full1_rhs_0 _ _).trans hk
    | ⟨1, _⟩ => exact full1_rhs_1 _ _)
  rw [el, er]

/-- A tile entry is an entry of the whole product as soon as the tile's row and the weight matrix's column are the
    whole arrays' row and column, position by position. -/
theorem tile1_eq_full1 (X : FVec Ideal Cert.ReferenceIdeal.S100000x37 .f32) (W : FVec Ideal Cert.ReferenceIdeal.S37x25 .f32)
    (x0 : Vec Ideal S5000x37 .f32) (x1 : Vec Ideal S37x25 .f32) (j : S5000x25.Idx) (i : Cert.ReferenceIdeal.S100000x25.Idx)
    (h0 : ∀ k : Fin 37, x0 (tileRow1 j k) = X (fullRow1 i k))
    (h1 : ∀ k : Fin 37, x1 (tileCol1 j k) = W (fullCol1 i k)) :
    k0_pay1 (F := Ideal) x0 x1 j = Cert.Spec.lin1 X W i := by
  rw [tile1_apply, full1_apply]
  exact Finset.sum_congr rfl fun k _ => by rw [h0 k, h1 k]

/-! ## From the row tiles to the array -/

-- the TensorCore's buffer contents when the region is entered
variable (V : (c : Dev nD) → (b : Ref sig .tc) → Buf (Elt Ideal) ((c : Thread nD τ).loc b))

theorem zero_offsets1 : (![0, 0] : Fin 2 → Nat) = fun _ => 0 := funext fun a => by fin_cases a <;> rfl

/-- The three index maps over the 20 grid points: the input tile and the output tile sit at the same row-block t
    and column-block 0; the weight matrix's one block is at (0, 0). -/
theorem lin1_index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is rows 5000·t … 5000·t + 4999 of the whole product. -/
theorem lin1_flushed (c : Dev nD) (t : Fin cfg0.N) :
    (dat0 V c).flushed 2 t = ((cfg0.win 2).blk t).view.read (Elt Ideal)
      (Cert.Spec.lin1 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets1]
  simp only [View.ld_unit_zero (S := S5000x37) zero_offsets1, View.ld_unit_zero (S := S37x25) zero_offsets1]
  funext j
  show k0_pay1 (F := Ideal) (iblk0 V c 0 t) (iblk0 V c 1 t) j
    = Cert.Spec.lin1 (V c (Pipeline.arrRef spec0 0)) (V c (Pipeline.arrRef spec0 1)) (((cfg0.win 2).blk t).view.emb j)
  obtain ⟨e00, e01, e10, e11, e20, e21⟩ := lin1_index_maps t
  refine tile1_eq_full1 _ _ _ _ j _ (fun k => ?_) (fun k => ?_)
  · show V c (Pipeline.arrRef spec0 0) (((cfg0.win 0).blk t).view.emb (tileRow1 j k))
      = V c (Pipeline.arrRef spec0 0) (fullRow1 (((cfg0.win 2).blk t).view.emb j) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 37 + 1 * k.val = k.val
      omega
  · show V c (Pipeline.arrRef spec0 1) (((cfg0.win 1).blk t).view.emb (tileCol1 j k))
      = V c (Pipeline.arrRef spec0 1) (fullCol1 (((cfg0.win 2).blk t).view.emb j) k)
    refine congrArg _ (funext fun a => Fin.ext ?_)
    match a with
    | ⟨0, _⟩ =>
      show win0_1.index t (0 : Fin 2) * 37 + 1 * k.val = k.val
      omega
    | ⟨1, _⟩ =>
      show win0_1.index t (1 : Fin 2) * 25 + 1 * (j 1).val = win0_2.index t (1 : Fin 2) * 25 + 1 * (j 1).val
      omega

/-- An index of the output array is in grid point t's tile iff each coordinate is in the tile's range on its axis. -/
theorem lin1_mem_tile (t : Fin cfg0.N) (i : S100000x25.Idx) :
    i ∈ ((cfg0.win 2).blk t).view.set ↔ ∀ a : Fin 2, win0_2.index t a * S5000x25.size a ≤ (i a).val
      ∧ (i a).val < win0_2.index t a * S5000x25.size a + S5000x25.size a := by
  show i ∈ ((View.whole main_v30).slice (win0_2.rect t)).set ↔ _
  rw [View.set_slice_whole, Rect.mem_set_unit]
  exact Iff.rfl

/-- Row r of the output lies in the tile of grid point r / 5000 (there are 100000 = 20 · 5000 rows), and every
    grid point writes its tile back. -/
theorem lin1_cover (i : S100000x25.Idx) :
    ∃ t : Fin cfg0.N, (cfg0.win 2).flush t = true ∧ i ∈ ((cfg0.win 2).blk t).view.set := by
  have hi0 : (i 0).val < 100000 := (i 0).isLt
  have hi1 : (i 1).val < 25 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := lin1_index_maps t
  refine ⟨t, flush0_2 t, ?_⟩
  rw [lin1_mem_tile]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 25 ≤ (i 1).val ∧ (i 1).val < win0_2.index t (1 : Fin 2) * 25 + 25
    omega

/-- After the 20 row tiles of the first dense kernel have been written back, the output array is the whole
    product x · W₁: tile t holds rows 5000·t … 5000·t + 4999 of it, and the tiles cover every row. -/
theorem lin1_final (c : Dev nD) :
    (dat0 V c).arrAt 2 cfg0.N
      = Cert.Spec.lin1 (V c (Pipeline.arrRef spec0 0)) (V c (Pipeline.arrRef spec0 1)) :=
  (dat0 V c).arrAt_eq_of_cover 2 _ (fun t _ => lin1_flushed V c t) lin1_cover

end Cert.KVal

end
-- ==== Proof.Lin2.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.SL.Sem
open Cert.KernelIdeal Cert.KernelIdeal.Gen

/-
  A dense map h · W with h of 100000 rows and 25 columns and W of 25 rows and 18 columns, computed in 20 row
  tiles of 5000 rows. Each grid point t multiplies rows 5000·t … 5000·t + 4999 of h by the whole of W (after a
  reshaping of the tile to its own shape and a narrowing of both operands, both the identity on the extended reals,
  into a zero accumulator) and writes the [5000, 18] result back as the same rows of the output. Entry (p, q) of a
  tile is ∑ₖ h(5000·t + p, k) · W(k, q), which is entry (5000·t + p, q) of the whole product; the 20 tiles cover
  all 100000 rows.
-/

/-! ## One row tile times the weight matrix, read at an entry -/

/-- Entry (p, k) of the row tile, for the output entry (p, q) and the contraction position k. -/
abbrev tileRow2 (j : S5000x18.Idx) (k : Fin 25) : S5000x25.Idx := fun a => match a with
  | ⟨0, _⟩ => ⟨(j 0).val, (j 0).isLt⟩
  | ⟨1, _⟩ => ⟨k.val, k.isLt⟩
/-- Entry (k, q) of the weight matrix, for the output entry (p, q) and the contraction position k. -/
abbrev tileCol2 (j : S5000x18.Idx) (k : Fin 25) : S25x18.Idx := fun a => match a with
  | ⟨0, _⟩ => ⟨k.val, k.isLt⟩
  | ⟨1, _⟩ => ⟨(j 1).val, (j 1).isLt⟩

theorem tile2_lhs_0 (i : S5000x18.Idx) (q : dot_S5000x25_S25x18_S5000x18_1_0_0_1_n_n.contr.Idx) :
    (dot_S5000x25_S25x18_S5000x18_1_0_0_1_n_n.lhsIdx i q 0).val = (i 0).val := by
  unfold DotDims.lhsIdx
  rw [dif_neg (show ¬(0 : Fin S5000x25.rank) ∈ dot_S5000x25_S25x18_S5000x18_1_0_0_1_n_n.lhsBatch by decide), dif_pos (show (0 : Fin S5000x25.rank) ∈ dot_S5000x25_S25x18_S5000x18_1_0_0_1_n_n.lhsNonContracting by decide)]
  rfl
theorem tile2_lhs_1 (i : S5000x18.Idx) (q : dot_S5000x25_S25x18_S5000x18_1_0_0_1_n_n.contr.Idx) :
    (dot_S5000x25_S25x18_S5000x18_1_0_0_1_n_n.lhsIdx i q 1).val = (q ⟨0, by decide⟩).val :=
  dot_S5000x25_S25x18_S5000x18_1_0_0_1_n_n.lhsIdx_val_of_single rfl i q
theorem tile2_rhs_0 (i : S5000x18.Idx) (q : dot_S5000x25_S25x18_S5000x18_1_0_0_1_n_n.contr.Idx) :
    (dot_S5000x25_S25x18_S5000x18_1_0_0_1_n_n.rhsIdx i q 0).val = (q ⟨0, by decide⟩).val :=
  dot_S5000x25_S25x18_S5000x18_1_0_0_1_n_n.rhsIdx_val_of_single rfl i q
theorem tile2_rhs_1 (i : S5000x18.Idx) (q : dot_S5000x25_S25x18_S5000x18_1_0_0_1_n_n.contr.Idx) :
    (dot_S5000x25_S25x18_S5000x18_1_0_0_1_n_n.rhsIdx i q 1).val = (i 1).val := by
  unfold DotDims.rhsIdx
  rw [dif_neg (show ¬(1 : Fin S25x18.rank) ∈ dot_S5000x25_S25x18_S5000x18_1_0_0_1_n_n.rhsBatch by decide), dif_pos (show (1 : Fin S25x18.rank) ∈ dot_S5000x25_S25x18_S5000x18_1_0_0_1_n_n.rhsNonContracting by decide)]
  rfl

/-- The body's arithmetic at entry (p, q) of the tile: the reshaping of the tile to its own shape and the narrowing
    of both operands are the identity on the extended reals and the accumulator is zero, so the entry is the plain
    sum over k of h(p, k) · w(k, q). -/
theorem tile2_apply (x0 : Vec Ideal S5000x25 .f32) (x1 : Vec Ideal S25x18 .f32) (j : S5000x18.Idx) :
    k2_pay1 (F := Ideal) x0 x1 j = ∑ k : Fin 25, x0 (tileRow2 j k) * x1 (tileCol2 j k) := by
  unfold k2_pay1
  simp only [matmul]
  rw [shapeCast_self, Ideal.matmul_constant_zero_apply, ← Equiv.sum_comp (ValueIdx.contrEquiv1 dot_S5000x25_S25x18_S5000x18_1_0_0_1_n_n 25 rfl rfl).symm]
  refine Finset.sum_congr rfl fun k _ => ?_
  have hk := ValueIdx.contrEquiv1_symm_val dot_S5000x25_S25x18_S5000x18_1_0_0_1_n_n 25 rfl rfl k
  have el : dot_S5000x25_S25x18_S5000x18_1_0_0_1_n_n.lhsIdx j ((ValueIdx.contrEquiv1 dot_S5000x25_S25x18_S5000x18_1_0_0_1_n_n 25 rfl rfl).symm k) = tileRow2 j k := funext fun a => Fin.ext (by
    match a with
    | ⟨0, _⟩ => exact tile2_lhs_0 _ _
    | ⟨1, _⟩ => exact (tile2_lhs_1 _ _).trans hk)
  have er : dot_S5000x25_S25x18_S5000x18_1_0_0_1_n_n.rhsIdx j ((ValueIdx.contrEquiv1 dot_S5000x25_S25x18_S5000x18_1_0_0_1_n_n 25 rfl rfl).symm k) = tileCol2 j k := funext fun a => Fin.ext (by
    match a with
    | ⟨0, _⟩ => exact (tile2_rhs_0 _ _).trans hk
    | ⟨1, _⟩ => exact tile2_rhs_1 _ _)
  rw [el, er]
  rfl

/-! ## The whole product, read at an entry -/

/-- Entry (r, k) of the whole input array, for the output entry (r, q) and the contraction position k. -/
abbrev fullRow2 (i : Cert.ReferenceIdeal.S100000x18.Idx) (k : Fin 25) : Cert.ReferenceIdeal.S100000x25.Idx := fun a => match a with
  | ⟨0, _⟩ => ⟨(i 0).val, (i 0).isLt⟩
  | ⟨1, _⟩ => ⟨k.val, k.isLt⟩
/-- Entry (k, q) of the weight matrix, for the output entry (r, q) and the contraction position k. -/
abbrev fullCol2 (i : Cert.ReferenceIdeal.S100000x18.Idx) (k : Fin 25) : Cert.ReferenceIdeal.S25x18.Idx := fun a => match a with
  | ⟨0, _⟩ => ⟨k.val, k.isLt⟩
  | ⟨1, _⟩ => ⟨(i 1).val, (i 1).isLt⟩

theorem full2_lhs_0 (i : Cert.ReferenceIdeal.S100000x18.Idx) (q : Cert.ReferenceIdeal.dot_S100000x25_S25x18_S100000x18_1_0_0_1_n_n.contr.Idx) :
    (Cert.ReferenceIdeal.dot_S100000x25_S25x18_S100000x18_1_0_0_1_n_n.lhsIdx i q 0).val = (i 0).val := by
  unfold DotDims.lhsIdx
  rw [dif_neg (show ¬(0 : Fin Cert.ReferenceIdeal.S100000x25.rank) ∈ Cert.ReferenceIdeal.dot_S100000x25_S25x18_S100000x18_1_0_0_1_n_n.lhsBatch by decide), dif_pos (show (0 : Fin Cert.ReferenceIdeal.S100000x25.rank) ∈ Cert.ReferenceIdeal.dot_S100000x25_S25x18_S100000x18_1_0_0_1_n_n.lhsNonContracting by decide)]
  rfl
theorem full2_lhs_1 (i : Cert.ReferenceIdeal.S100000x18.Idx) (q : Cert.ReferenceIdeal.dot_S100000x25_S25x18_S100000x18_1_0_0_1_n_n.contr.Idx) :
    (Cert.ReferenceIdeal.dot_S100000x25_S25x18_S100000x18_1_0_0_1_n_n.lhsIdx i q 1).val = (q ⟨0, by decide⟩).val :=
  Cert.ReferenceIdeal.dot_S100000x25_S25x18_S100000x18_1_0_0_1_n_n.lhsIdx_val_of_single rfl i q
theorem full2_rhs_0 (i : Cert.ReferenceIdeal.S100000x18.Idx) (q : Cert.ReferenceIdeal.dot_S100000x25_S25x18_S100000x18_1_0_0_1_n_n.contr.Idx) :
    (Cert.ReferenceIdeal.dot_S100000x25_S25x18_S100000x18_1_0_0_1_n_n.rhsIdx i q 0).val = (q ⟨0, by decide⟩).val :=
  Cert.ReferenceIdeal.dot_S100000x25_S25x18_S100000x18_1_0_0_1_n_n.rhsIdx_val_of_single rfl i q
theorem full2_rhs_1 (i : Cert.ReferenceIdeal.S100000x18.Idx) (q : Cert.ReferenceIdeal.dot_S100000x25_S25x18_S100000x18_1_0_0_1_n_n.contr.Idx) :
    (Cert.ReferenceIdeal.dot_S100000x25_S25x18_S100000x18_1_0_0_1_n_n.rhsIdx i q 1).val = (i 1).val := by
  unfold DotDims.rhsIdx
  rw [dif_neg (show ¬(1 : Fin Cert.ReferenceIdeal.S25x18.rank) ∈ Cert.ReferenceIdeal.dot_S100000x25_S25x18_S100000x18_1_0_0_1_n_n.rhsBatch by decide), dif_pos (show (1 : Fin Cert.ReferenceIdeal.S25x18.rank) ∈ Cert.ReferenceIdeal.dot_S100000x25_S25x18_S100000x18_1_0_0_1_n_n.rhsNonContracting by decide)]
  rfl

/-- The host's contraction at entry (r, q): the sum over k of X(r, k) · W(k, q). -/
theorem full2_apply (X : FVec Ideal Cert.ReferenceIdeal.S100000x25 .f32) (W : FVec Ideal Cert.ReferenceIdeal.S25x18 .f32)
    (i : Cert.ReferenceIdeal.S100000x18.Idx) :
    Cert.Spec.lin2 X W i = ∑ k : Fin 25, X (fullRow2 i k) * W (fullCol2 i k) := by
  unfold Cert.Spec.lin2
  simp only [Host.dotGeneral]
  rw [Ideal.dotGeneral_apply, ← Equiv.sum_comp (ValueIdx.contrEquiv1 Cert.ReferenceIdeal.dot_S100000x25_S25x18_S100000x18_1_0_0_1_n_n 25 rfl rfl).symm]
  refine Finset.sum_congr rfl fun k _ => ?_
  have hk := ValueIdx.contrEquiv1_symm_val Cert.ReferenceIdeal.dot_S100000x25_S25x18_S100000x18_1_0_0_1_n_n 25 rfl rfl k
  have el : Cert.ReferenceIdeal.dot_S100000x25_S25x18_S100000x18_1_0_0_1_n_n.lhsIdx i ((ValueIdx.contrEquiv1 Cert.ReferenceIdeal.dot_S100000x25_S25x18_S100000x18_1_0_0_1_n_n 25 rfl rfl).symm k) = fullRow2 i k := funext fun a => Fin.ext (by
    match a with
    | ⟨0, _⟩ => exact full2_lhs_0 _ _
    | ⟨1, _⟩ => exact (full2_lhs_1 _ _).trans hk)
  have er : Cert.ReferenceIdeal.dot_S100000x25_S25x18_S100000x18_1_0_0_1_n_n.rhsIdx i ((ValueIdx.contrEquiv1 Cert.ReferenceIdeal.dot_S100000x25_S25x18_S100000x18_1_0_0_1_n_n 25 rfl rfl).symm k) = fullCol2 i k := funext fun a => Fin.ext (by
    match a with
    | ⟨0, _⟩ => exact (full2_rhs_0 _ _).trans hk
    | ⟨1, _⟩ => exact full2_rhs_1 _ _)
  rw [el, er]

/-- A tile entry is an entry of the whole product as soon as the tile's row and the weight matrix's column are the
    whole arrays' row and column, position by position. -/
theorem tile2_eq_full1 (X : FVec Ideal Cert.ReferenceIdeal.S100000x25 .f32) (W : FVec Ideal Cert.ReferenceIdeal.S25x18 .f32)
    (x0 : Vec Ideal S5000x25 .f32) (x1 : Vec Ideal S25x18 .f32) (j : S5000x18.Idx) (i : Cert.ReferenceIdeal.S100000x18.Idx)
    (h0 : ∀ k : Fin 25, x0 (tileRow2 j k) = X (fullRow2 i k))
    (h1 : ∀ k : Fin 25, x1 (tileCol2 j k) = W (fullCol2 i k)) :
    k2_pay1 (F := Ideal) x0 x1 j = Cert.Spec.lin2 X W i := by
  rw [tile2_apply, full2_apply]
  exact Finset.sum_congr rfl fun k _ => by rw [h0 k, h1 k]

/-! ## From the row tiles to the array -/

-- the TensorCore's buffer contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl

/-- The three index maps over the 20 grid points: the input tile and the output tile sit at the same row-block t
    and column-block 0; the weight matrix's one block is at (0, 0). -/
theorem lin2_index_maps : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is rows 5000·t … 5000·t + 4999 of the whole product. -/
theorem lin2_flushed (c : Dev nD) (t : Fin cfg2.N) :
    (dat2 V c).flushed 2 t = ((cfg2.win 2).blk t).view.read (Elt Ideal)
      (Cert.Spec.lin2 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets2]
  simp only [View.ld_unit_zero (S := S5000x25) zero_offsets2, View.ld_unit_zero (S := S25x18) zero_offsets2]
  funext j
  show k2_pay1 (F := Ideal) (iblk2 V c 0 t) (iblk2 V c 1 t) j
    = Cert.Spec.lin2 (V c (Pipeline.arrRef spec2 0)) (V c (Pipeline.arrRef spec2 1)) (((cfg2.win 2).blk t).view.emb j)
  obtain ⟨e00, e01, e10, e11, e20, e21⟩ := lin2_index_maps t
  refine tile2_eq_full1 _ _ _ _ j _ (fun k => ?_) (fun k => ?_)
  · show V c (Pipeline.arrRef spec2 0) (((cfg2.win 0).blk t).view.emb (tileRow2 j k))
      = V c (Pipeline.arrRef spec2 0) (fullRow2 (((cfg2.win 2).blk t).view.emb j) k)
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 25 + 1 * k.val = k.val
      omega
  · show V c (Pipeline.arrRef spec2 1) (((cfg2.win 1).blk t).view.emb (tileCol2 j k))
      = V c (Pipeline.arrRef spec2 1) (fullCol2 (((cfg2.win 2).blk t).view.emb j) k)
    refine congrArg _ (funext fun a => Fin.ext ?_)
    match a with
    | ⟨0, _⟩ =>
      show win2_1.index t (0 : Fin 2) * 25 + 1 * k.val = k.val
      omega
    | ⟨1, _⟩ =>
      show win2_1.index t (1 : Fin 2) * 18 + 1 * (j 1).val = win2_2.index t (1 : Fin 2) * 18 + 1 * (j 1).val
      omega

/-- An index of the output array is in grid point t's tile iff each coordinate is in the tile's range on its axis. -/
theorem lin2_mem_tile (t : Fin cfg2.N) (i : S100000x18.Idx) :
    i ∈ ((cfg2.win 2).blk t).view.set ↔ ∀ a : Fin 2, win2_2.index t a * S5000x18.size a ≤ (i a).val
      ∧ (i a).val < win2_2.index t a * S5000x18.size a + S5000x18.size a := by
  show i ∈ ((View.whole main_v46).slice (win2_2.rect t)).set ↔ _
  rw [View.set_slice_whole, Rect.mem_set_unit]
  exact Iff.rfl

/-- Row r of the output lies in the tile of grid point r / 5000 (there are 100000 = 20 · 5000 rows), and every
    grid point writes its tile back. -/
theorem lin2_cover (i : S100000x18.Idx) :
    ∃ t : Fin cfg2.N, (cfg2.win 2).flush t = true ∧ i ∈ ((cfg2.win 2).blk t).view.set := by
  have hi0 : (i 0).val < 100000 := (i 0).isLt
  have hi1 : (i 1).val < 18 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e20, e21⟩ := lin2_index_maps t
  refine ⟨t, flush2_2 t, ?_⟩
  rw [lin2_mem_tile]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 18 ≤ (i 1).val ∧ (i 1).val < win2_2.index t (1 : Fin 2) * 18 + 18
    omega

/-- The second dense kernel's output array after its 20 row tiles: the whole product h · W₂. -/
theorem lin2_final (c : Dev nD) :
    (dat2 V c).arrAt 2 cfg2.N
      = Cert.Spec.lin2 (V c (Pipeline.arrRef spec2 0)) (V c (Pipeline.arrRef spec2 1)) :=
  (dat2 V c).arrAt_eq_of_cover 2 _ (fun t _ => lin2_flushed V c t) lin2_cover

end Cert.KVal

end
-- ==== Proof.Lin3.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.SL.Sem
open Cert.KernelIdeal Cert.KernelIdeal.Gen

/-
  A dense map h · W with h of 100000 rows and 18 columns and W of 18 rows and 12 columns, computed in 20 row
  tiles of 5000 rows. Each grid point t multiplies rows 5000·t … 5000·t + 4999 of h by the whole of W (after a
  reshaping of the tile to its own shape and a narrowing of both operands, both the identity on the extended reals,
  into a zero accumulator) and writes the [5000, 12] result back as the same rows of the output. Entry (p, q) of a
  tile is ∑ₖ h(5000·t + p, k) · W(k, q), which is entry (5000·t + p, q) of the whole product; the 20 tiles cover
  all 100000 rows.
-/

/-! ## One row tile times the weight matrix, read at an entry -/

/-- Entry (p, k) of the row tile, for the output entry (p, q) and the contraction position k. -/
abbrev tileRow3 (j : S5000x12.Idx) (k : Fin 18) : S5000x18.Idx := fun a => match a with
  | ⟨0, _⟩ => ⟨(j 0).val, (j 0).isLt⟩
  | ⟨1, _⟩ => ⟨k.val, k.isLt⟩
/-- Entry (k, q) of the weight matrix, for the output entry (p, q) and the contraction position k. -/
abbrev tileCol3 (j : S5000x12.Idx) (k : Fin 18) : S18x12.Idx := fun a => match a with
  | ⟨0, _⟩ => ⟨k.val, k.isLt⟩
  | ⟨1, _⟩ => ⟨(j 1).val, (j 1).isLt⟩

theorem tile3_lhs_0 (i : S5000x12.Idx) (q : dot_S5000x18_S18x12_S5000x12_1_0_0_1_n_n.contr.Idx) :
    (dot_S5000x18_S18x12_S5000x12_1_0_0_1_n_n.lhsIdx i q 0).val = (i 0).val := by
  unfold DotDims.lhsIdx
  rw [dif_neg (show ¬(0 : Fin S5000x18.rank) ∈ dot_S5000x18_S18x12_S5000x12_1_0_0_1_n_n.lhsBatch by decide), dif_pos (show (0 : Fin S5000x18.rank) ∈ dot_S5000x18_S18x12_S5000x12_1_0_0_1_n_n.lhsNonContracting by decide)]
  rfl
theorem tile3_lhs_1 (i : S5000x12.Idx) (q : dot_S5000x18_S18x12_S5000x12_1_0_0_1_n_n.contr.Idx) :
    (dot_S5000x18_S18x12_S5000x12_1_0_0_1_n_n.lhsIdx i q 1).val = (q ⟨0, by decide⟩).val :=
  dot_S5000x18_S18x12_S5000x12_1_0_0_1_n_n.lhsIdx_val_of_single rfl i q
theorem tile3_rhs_0 (i : S5000x12.Idx) (q : dot_S5000x18_S18x12_S5000x12_1_0_0_1_n_n.contr.Idx) :
    (dot_S5000x18_S18x12_S5000x12_1_0_0_1_n_n.rhsIdx i q 0).val = (q ⟨0, by decide⟩).val :=
  dot_S5000x18_S18x12_S5000x12_1_0_0_1_n_n.rhsIdx_val_of_single rfl i q
theorem tile3_rhs_1 (i : S5000x12.Idx) (q : dot_S5000x18_S18x12_S5000x12_1_0_0_1_n_n.contr.Idx) :
    (dot_S5000x18_S18x12_S5000x12_1_0_0_1_n_n.rhsIdx i q 1).val = (i 1).val := by
  unfold DotDims.rhsIdx
  rw [dif_neg (show ¬(1 : Fin S18x12.rank) ∈ dot_S5000x18_S18x12_S5000x12_1_0_0_1_n_n.rhsBatch by decide), dif_pos (show (1 : Fin S18x12.rank) ∈ dot_S5000x18_S18x12_S5000x12_1_0_0_1_n_n.rhsNonContracting by decide)]
  rfl

/-- The body's arithmetic at entry (p, q) of the tile: the reshaping of the tile to its own shape and the narrowing
    of both operands are the identity on the extended reals and the accumulator is zero, so the entry is the plain
    sum over k of h(p, k) · w(k, q). -/
theorem tile3_apply (x0 : Vec Ideal S5000x18 .f32) (x1 : Vec Ideal S18x12 .f32) (j : S5000x12.Idx) :
    k4_pay1 (F := Ideal) x0 x1 j = ∑ k : Fin 18, x0 (tileRow3 j k) * x1 (tileCol3 j k) := by
  unfold k4_pay1
  simp only [matmul]
  rw [shapeCast_self, Ideal.matmul_constant_zero_apply, ← Equiv.sum_comp (ValueIdx.contrEquiv1 dot_S5000x18_S18x12_S5000x12_1_0_0_1_n_n 18 rfl rfl).symm]
  refine Finset.sum_congr rfl fun k _ => ?_
  have hk := ValueIdx.contrEquiv1_symm_val dot_S5000x18_S18x12_S5000x12_1_0_0_1_n_n 18 rfl rfl k
  have el : dot_S5000x18_S18x12_S5000x12_1_0_0_1_n_n.lhsIdx j ((ValueIdx.contrEquiv1 dot_S5000x18_S18x12_S5000x12_1_0_0_1_n_n 18 rfl rfl).symm k) = tileRow3 j k := funext fun a => Fin.ext (by
    match a with
    | ⟨0, _⟩ => exact tile3_lhs_0 _ _
    | ⟨1, _⟩ => exact (tile3_lhs_1 _ _).trans hk)
  have er : dot_S5000x18_S18x12_S5000x12_1_0_0_1_n_n.rhsIdx j ((ValueIdx.contrEquiv1 dot_S5000x18_S18x12_S5000x12_1_0_0_1_n_n 18 rfl rfl).symm k) = tileCol3 j k := funext fun a => Fin.ext (by
    match a with
    | ⟨0, _⟩ => exact (tile3_rhs_0 _ _).trans hk
    | ⟨1, _⟩ => exact tile3_rhs_1 _ _)
  rw [el, er]
  rfl

/-! ## The whole product, read at an entry -/

/-- Entry (r, k) of the whole input array, for the output entry (r, q) and the contraction position k. -/
abbrev fullRow3 (i : Cert.ReferenceIdeal.S100000x12.Idx) (k : Fin 18) : Cert.ReferenceIdeal.S100000x18.Idx := fun a => match a with
  | ⟨0, _⟩ => ⟨(i 0).val, (i 0).isLt⟩
  | ⟨1, _⟩ => ⟨k.val, k.isLt⟩
/-- Entry (k, q) of the weight matrix, for the output entry (r, q) and the contraction position k. -/
abbrev fullCol3 (i : Cert.ReferenceIdeal.S100000x12.Idx) (k : Fin 18) : Cert.ReferenceIdeal.S18x12.Idx := fun a => match a with
  | ⟨0, _⟩ => ⟨k.val, k.isLt⟩
  | ⟨1, _⟩ => ⟨(i 1).val, (i 1).isLt⟩

theorem full3_lhs_0 (i : Cert.ReferenceIdeal.S100000x12.Idx) (q : Cert.ReferenceIdeal.dot_S100000x18_S18x12_S100000x12_1_0_0_1_n_n.contr.Idx) :
    (Cert.ReferenceIdeal.dot_S100000x18_S18x12_S100000x12_1_0_0_1_n_n.lhsIdx i q 0).val = (i 0).val := by
  unfold DotDims.lhsIdx
  rw [dif_neg (show ¬(0 : Fin Cert.ReferenceIdeal.S100000x18.rank) ∈ Cert.ReferenceIdeal.dot_S100000x18_S18x12_S100000x12_1_0_0_1_n_n.lhsBatch by decide), dif_pos (show (0 : Fin Cert.ReferenceIdeal.S100000x18.rank) ∈ Cert.ReferenceIdeal.dot_S100000x18_S18x12_S100000x12_1_0_0_1_n_n.lhsNonContracting by decide)]
  rfl
theorem full3_lhs_1 (i : Cert.ReferenceIdeal.S100000x12.Idx) (q : Cert.ReferenceIdeal.dot_S100000x18_S18x12_S100000x12_1_0_0_1_n_n.contr.Idx) :
    (Cert.ReferenceIdeal.dot_S100000x18_S18x12_S100000x12_1_0_0_1_n_n.lhsIdx i q 1).val = (q ⟨0, by decide⟩).val :=
  Cert.ReferenceIdeal.dot_S100000x18_S18x12_S100000x12_1_0_0_1_n_n.lhsIdx_val_of_single rfl i q
theorem full3_rhs_0 (i : Cert.ReferenceIdeal.S100000x12.Idx) (q : Cert.ReferenceIdeal.dot_S100000x18_S18x12_S100000x12_1_0_0_1_n_n.contr.Idx) :
    (Cert.ReferenceIdeal.dot_S100000x18_S18x12_S100000x12_1_0_0_1_n_n.rhsIdx i q 0).val = (q ⟨0, by decide⟩).val :=
  Cert.ReferenceIdeal.dot_S100000x18_S18x12_S100000x12_1_0_0_1_n_n.rhsIdx_val_of_single rfl i q
theorem full3_rhs_1 (i : Cert.ReferenceIdeal.S100000x12.Idx) (q : Cert.ReferenceIdeal.dot_S100000x18_S18x12_S100000x12_1_0_0_1_n_n.contr.Idx) :
    (Cert.ReferenceIdeal.dot_S100000x18_S18x12_S100000x12_1_0_0_1_n_n.rhsIdx i q 1).val = (i 1).val := by
  unfold DotDims.rhsIdx
  rw [dif_neg (show ¬(1 : Fin Cert.ReferenceIdeal.S18x12.rank) ∈ Cert.ReferenceIdeal.dot_S100000x18_S18x12_S100000x12_1_0_0_1_n_n.rhsBatch by decide), dif_pos (show (1 : Fin Cert.ReferenceIdeal.S18x12.rank) ∈ Cert.ReferenceIdeal.dot_S100000x18_S18x12_S100000x12_1_0_0_1_n_n.rhsNonContracting by decide)]
  rfl

/-- The host's contraction at entry (r, q): the sum over k of X(r, k) · W(k, q). -/
theorem full3_apply (X : FVec Ideal Cert.ReferenceIdeal.S100000x18 .f32) (W : FVec Ideal Cert.ReferenceIdeal.S18x12 .f32)
    (i : Cert.ReferenceIdeal.S100000x12.Idx) :
    Cert.Spec.lin3 X W i = ∑ k : Fin 18, X (fullRow3 i k) * W (fullCol3 i k) := by
  unfold Cert.Spec.lin3
  simp only [Host.dotGeneral]
  rw [Ideal.dotGeneral_apply, ← Equiv.sum_comp (ValueIdx.contrEquiv1 Cert.ReferenceIdeal.dot_S100000x18_S18x12_S100000x12_1_0_0_1_n_n 18 rfl rfl).symm]
  refine Finset.sum_congr rfl fun k _ => ?_
  have hk := ValueIdx.contrEquiv1_symm_val Cert.ReferenceIdeal.dot_S100000x18_S18x12_S100000x12_1_0_0_1_n_n 18 rfl rfl k
  have el : Cert.ReferenceIdeal.dot_S100000x18_S18x12_S100000x12_1_0_0_1_n_n.lhsIdx i ((ValueIdx.contrEquiv1 Cert.ReferenceIdeal.dot_S100000x18_S18x12_S100000x12_1_0_0_1_n_n 18 rfl rfl).symm k) = fullRow3 i k := funext fun a => Fin.ext (by
    match a with
    | ⟨0, _⟩ => exact full3_lhs_0 _ _
    | ⟨1, _⟩ => exact (full3_lhs_1 _ _).trans hk)
  have er : Cert.ReferenceIdeal.dot_S100000x18_S18x12_S100000x12_1_0_0_1_n_n.rhsIdx i ((ValueIdx.contrEquiv1 Cert.ReferenceIdeal.dot_S100000x18_S18x12_S100000x12_1_0_0_1_n_n 18 rfl rfl).symm k) = fullCol3 i k := funext fun a => Fin.ext (by
    match a with
    | ⟨0, _⟩ => exact (full3_rhs_0 _ _).trans hk
    | ⟨1, _⟩ => exact full3_rhs_1 _ _)
  rw [el, er]

/-- A tile entry is an entry of the whole product as soon as the tile's row and the weight matrix's column are the
    whole arrays' row and column, position by position. -/
theorem tile3_eq_full1 (X : FVec Ideal Cert.ReferenceIdeal.S100000x18 .f32) (W : FVec Ideal Cert.ReferenceIdeal.S18x12 .f32)
    (x0 : Vec Ideal S5000x18 .f32) (x1 : Vec Ideal S18x12 .f32) (j : S5000x12.Idx) (i : Cert.ReferenceIdeal.S100000x12.Idx)
    (h0 : ∀ k : Fin 18, x0 (tileRow3 j k) = X (fullRow3 i k))
    (h1 : ∀ k : Fin 18, x1 (tileCol3 j k) = W (fullCol3 i k)) :
    k4_pay1 (F := Ideal) x0 x1 j = Cert.Spec.lin3 X W i := by
  rw [tile3_apply, full3_apply]
  exact Finset.sum_congr rfl fun k _ => by rw [h0 k, h1 k]

/-! ## From the row tiles to the array -/

-- the TensorCore's buffer contents when the region is entered
variable (V : (c : Dev nD) → (b : Ref sig .tc) → Buf (Elt Ideal) ((c : Thread nD τ).loc b))

theorem zero_offsets3 : (![0, 0] : Fin 2 → Nat) = fun _ => 0 := funext fun a => by fin_cases a <;> rfl

/-- The three index maps over the 20 grid points: the input tile and the output tile sit at the same row-block t
    and column-block 0; the weight matrix's one block is at (0, 0). -/
theorem lin3_index_maps : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point t writes back is rows 5000·t … 5000·t + 4999 of the whole product. -/
theorem lin3_flushed (c : Dev nD) (t : Fin cfg4.N) :
    (dat4 V c).flushed 2 t = ((cfg4.win 2).blk t).view.read (Elt Ideal)
      (Cert.Spec.lin3 (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets3]
  simp only [View.ld_unit_zero (S := S5000x18) zero_offsets3, View.ld_unit_zero (S := S18x12) zero_offsets3]
  funext j
  show k4_pay1 (F := Ideal) (iblk4 V c 0 t) (iblk4 V c 1 t) j
    = Cert.Spec.lin3 (V c (Pipeline.arrRef spec4 0)) (V c (Pipeline.arrRef spec4 1)) (((cfg4.win 2).blk t).view.emb j)
  obtain ⟨e00, e01, e10, e11, e20, e21⟩ := lin3_index_maps t
  refine tile3_eq_full1 _ _ _ _ j _ (fun k => ?_) (fun k => ?_)
  · show V c (Pipeline.arrRef spec4 0) (((cfg4.win 0).blk t).view.emb (tileRow3 j k))
      = V c (Pipeline.arrRef spec4 0) (fullRow3 (((cfg4.win 2).blk t).view.emb j) k)
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 18 + 1 * k.val = k.val
      omega
  · show V c (Pipeline.arrRef spec4 1) (((cfg4.win 1).blk t).view.emb (tileCol3 j k))
      = V c (Pipeline.arrRef spec4 1) (fullCol3 (((cfg4.win 2).blk t).view.emb j) k)
    refine congrArg _ (funext fun a => Fin.ext ?_)
    match a with
    | ⟨0, _⟩ =>
      show win4_1.index t (0 : Fin 2) * 18 + 1 * k.val = k.val
      omega
    | ⟨1, _⟩ =>
      show win4_1.index t (1 : Fin 2) * 12 + 1 * (j 1).val = win4_2.index t (1 : Fin 2) * 12 + 1 * (j 1).val
      omega

/-- An index of the output array is in grid point t's tile iff each coordinate is in the tile's range on its axis. -/
theorem lin3_mem_tile (t : Fin cfg4.N) (i : S100000x12.Idx) :
    i ∈ ((cfg4.win 2).blk t).view.set ↔ ∀ a : Fin 2, win4_2.index t a * S5000x12.size a ≤ (i a).val
      ∧ (i a).val < win4_2.index t a * S5000x12.size a + S5000x12.size a := by
  show i ∈ ((View.whole main_v62).slice (win4_2.rect t)).set ↔ _
  rw [View.set_slice_whole, Rect.mem_set_unit]
  exact Iff.rfl

/-- Row r of the output lies in the tile of grid point r / 5000 (there are 100000 = 20 · 5000 rows), and every
    grid point writes its tile back. -/
theorem lin3_cover (i : S100000x12.Idx) :
    ∃ t : Fin cfg4.N, (cfg4.win 2).flush t = true ∧ i ∈ ((cfg4.win 2).blk t).view.set := by
  have hi0 : (i 0).val < 100000 := (i 0).isLt
  have hi1 : (i 1).val < 12 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e20, e21⟩ := lin3_index_maps t
  refine ⟨t, flush4_2 t, ?_⟩
  rw [lin3_mem_tile]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 12 ≤ (i 1).val ∧ (i 1).val < win4_2.index t (1 : Fin 2) * 12 + 12
    omega

/-- The third dense kernel's output array after its 20 row tiles: the whole product h · W₃. -/
theorem lin3_final (c : Dev nD) :
    (dat4 V c).arrAt 2 cfg4.N
      = Cert.Spec.lin3 (V c (Pipeline.arrRef spec4 0)) (V c (Pipeline.arrRef spec4 1)) :=
  (dat4 V c).arrAt_eq_of_cover 2 _ (fun t _ => lin3_flushed V c t) lin3_cover

end Cert.KVal

end
-- ==== Proof.Lin4.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.SL.Sem
open Cert.KernelIdeal Cert.KernelIdeal.Gen

/-
  A dense map h · W with h of 100000 rows and 12 columns and W of 12 rows and 1 columns, computed in 20 row
  tiles of 5000 rows. Each grid point t multiplies rows 5000·t … 5000·t + 4999 of h by the whole of W (after a
  reshaping of the tile to its own shape and a narrowing of both operands, both the identity on the extended reals,
  into a zero accumulator) and writes the [5000, 1] result back as the same rows of the output. Entry (p, q) of a
  tile is ∑ₖ h(5000·t + p, k) · W(k, q), which is entry (5000·t + p, q) of the whole product; the 20 tiles cover
  all 100000 rows.
-/

/-! ## One row tile times the weight matrix, read at an entry -/

/-- Entry (p, k) of the row tile, for the output entry (p, q) and the contraction position k. -/
abbrev tileRow4 (j : S5000x1.Idx) (k : Fin 12) : S5000x12.Idx := fun a => match a with
  | ⟨0, _⟩ => ⟨(j 0).val, (j 0).isLt⟩
  | ⟨1, _⟩ => ⟨k.val, k.isLt⟩
/-- Entry (k, q) of the weight matrix, for the output entry (p, q) and the contraction position k. -/
abbrev tileCol4 (j : S5000x1.Idx) (k : Fin 12) : S12x1.Idx := fun a => match a with
  | ⟨0, _⟩ => ⟨k.val, k.isLt⟩
  | ⟨1, _⟩ => ⟨(j 1).val, (j 1).isLt⟩

theorem tile4_lhs_0 (i : S5000x1.Idx) (q : dot_S5000x12_S12x1_S5000x1_1_0_0_1_n_n.contr.Idx) :
    (dot_S5000x12_S12x1_S5000x1_1_0_0_1_n_n.lhsIdx i q 0).val = (i 0).val := by
  unfold DotDims.lhsIdx
  rw [dif_neg (show ¬(0 : Fin S5000x12.rank) ∈ dot_S5000x12_S12x1_S5000x1_1_0_0_1_n_n.lhsBatch by decide), dif_pos (show (0 : Fin S5000x12.rank) ∈ dot_S5000x12_S12x1_S5000x1_1_0_0_1_n_n.lhsNonContracting by decide)]
  rfl
theorem tile4_lhs_1 (i : S5000x1.Idx) (q : dot_S5000x12_S12x1_S5000x1_1_0_0_1_n_n.contr.Idx) :
    (dot_S5000x12_S12x1_S5000x1_1_0_0_1_n_n.lhsIdx i q 1).val = (q ⟨0, by decide⟩).val :=
  dot_S5000x12_S12x1_S5000x1_1_0_0_1_n_n.lhsIdx_val_of_single rfl i q
theorem tile4_rhs_0 (i : S5000x1.Idx) (q : dot_S5000x12_S12x1_S5000x1_1_0_0_1_n_n.contr.Idx) :
    (dot_S5000x12_S12x1_S5000x1_1_0_0_1_n_n.rhsIdx i q 0).val = (q ⟨0, by decide⟩).val :=
  dot_S5000x12_S12x1_S5000x1_1_0_0_1_n_n.rhsIdx_val_of_single rfl i q
theorem tile4_rhs_1 (i : S5000x1.Idx) (q : dot_S5000x12_S12x1_S5000x1_1_0_0_1_n_n.contr.Idx) :
    (dot_S5000x12_S12x1_S5000x1_1_0_0_1_n_n.rhsIdx i q 1).val = (i 1).val := by
  unfold DotDims.rhsIdx
  rw [dif_neg (show ¬(1 : Fin S12x1.rank) ∈ dot_S5000x12_S12x1_S5000x1_1_0_0_1_n_n.rhsBatch by decide), dif_pos (show (1 : Fin S12x1.rank) ∈ dot_S5000x12_S12x1_S5000x1_1_0_0_1_n_n.rhsNonContracting by decide)]
  rfl

/-- The body's arithmetic at entry (p, q) of the tile: the reshaping of the tile to its own shape and the narrowing
    of both operands are the identity on the extended reals and the accumulator is zero, so the entry is the plain
    sum over k of h(p, k) · w(k, q). -/
theorem tile4_apply (x0 : Vec Ideal S5000x12 .f32) (x1 : Vec Ideal S12x1 .f32) (j : S5000x1.Idx) :
    k6_pay1 (F := Ideal) x0 x1 j = ∑ k : Fin 12, x0 (tileRow4 j k) * x1 (tileCol4 j k) := by
  unfold k6_pay1
  simp only [matmul]
  rw [shapeCast_self, Ideal.matmul_constant_zero_apply, ← Equiv.sum_comp (ValueIdx.contrEquiv1 dot_S5000x12_S12x1_S5000x1_1_0_0_1_n_n 12 rfl rfl).symm]
  refine Finset.sum_congr rfl fun k _ => ?_
  have hk := ValueIdx.contrEquiv1_symm_val dot_S5000x12_S12x1_S5000x1_1_0_0_1_n_n 12 rfl rfl k
  have el : dot_S5000x12_S12x1_S5000x1_1_0_0_1_n_n.lhsIdx j ((ValueIdx.contrEquiv1 dot_S5000x12_S12x1_S5000x1_1_0_0_1_n_n 12 rfl rfl).symm k) = tileRow4 j k := funext fun a => Fin.ext (by
    match a with
    | ⟨0, _⟩ => exact tile4_lhs_0 _ _
    | ⟨1, _⟩ => exact (tile4_lhs_1 _ _).trans hk)
  have er : dot_S5000x12_S12x1_S5000x1_1_0_0_1_n_n.rhsIdx j ((ValueIdx.contrEquiv1 dot_S5000x12_S12x1_S5000x1_1_0_0_1_n_n 12 rfl rfl).symm k) = tileCol4 j k := funext fun a => Fin.ext (by
    match a with
    | ⟨0, _⟩ => exact (tile4_rhs_0 _ _).trans hk
    | ⟨1, _⟩ => exact tile4_rhs_1 _ _)
  rw [el, er]
  rfl

/-! ## The whole product, read at an entry -/

/-- Entry (r, k) of the whole input array, for the output entry (r, q) and the contraction position k. -/
abbrev fullRow4 (i : Cert.ReferenceIdeal.S100000x1.Idx) (k : Fin 12) : Cert.ReferenceIdeal.S100000x12.Idx := fun a => match a with
  | ⟨0, _⟩ => ⟨(i 0).val, (i 0).isLt⟩
  | ⟨1, _⟩ => ⟨k.val, k.isLt⟩
/-- Entry (k, q) of the weight matrix, for the output entry (r, q) and the contraction position k. -/
abbrev fullCol4 (i : Cert.ReferenceIdeal.S100000x1.Idx) (k : Fin 12) : Cert.ReferenceIdeal.S12x1.Idx := fun a => match a with
  | ⟨0, _⟩ => ⟨k.val, k.isLt⟩
  | ⟨1, _⟩ => ⟨(i 1).val, (i 1).isLt⟩

theorem full4_lhs_0 (i : Cert.ReferenceIdeal.S100000x1.Idx) (q : Cert.ReferenceIdeal.dot_S100000x12_S12x1_S100000x1_1_0_0_1_n_n.contr.Idx) :
    (Cert.ReferenceIdeal.dot_S100000x12_S12x1_S100000x1_1_0_0_1_n_n.lhsIdx i q 0).val = (i 0).val := by
  unfold DotDims.lhsIdx
  rw [dif_neg (show ¬(0 : Fin Cert.ReferenceIdeal.S100000x12.rank) ∈ Cert.ReferenceIdeal.dot_S100000x12_S12x1_S100000x1_1_0_0_1_n_n.lhsBatch by decide), dif_pos (show (0 : Fin Cert.ReferenceIdeal.S100000x12.rank) ∈ Cert.ReferenceIdeal.dot_S100000x12_S12x1_S100000x1_1_0_0_1_n_n.lhsNonContracting by decide)]
  rfl
theorem full4_lhs_1 (i : Cert.ReferenceIdeal.S100000x1.Idx) (q : Cert.ReferenceIdeal.dot_S100000x12_S12x1_S100000x1_1_0_0_1_n_n.contr.Idx) :
    (Cert.ReferenceIdeal.dot_S100000x12_S12x1_S100000x1_1_0_0_1_n_n.lhsIdx i q 1).val = (q ⟨0, by decide⟩).val :=
  Cert.ReferenceIdeal.dot_S100000x12_S12x1_S100000x1_1_0_0_1_n_n.lhsIdx_val_of_single rfl i q
theorem full4_rhs_0 (i : Cert.ReferenceIdeal.S100000x1.Idx) (q : Cert.ReferenceIdeal.dot_S100000x12_S12x1_S100000x1_1_0_0_1_n_n.contr.Idx) :
    (Cert.ReferenceIdeal.dot_S100000x12_S12x1_S100000x1_1_0_0_1_n_n.rhsIdx i q 0).val = (q ⟨0, by decide⟩).val :=
  Cert.ReferenceIdeal.dot_S100000x12_S12x1_S100000x1_1_0_0_1_n_n.rhsIdx_val_of_single rfl i q
theorem full4_rhs_1 (i : Cert.ReferenceIdeal.S100000x1.Idx) (q : Cert.ReferenceIdeal.dot_S100000x12_S12x1_S100000x1_1_0_0_1_n_n.contr.Idx) :
    (Cert.ReferenceIdeal.dot_S100000x12_S12x1_S100000x1_1_0_0_1_n_n.rhsIdx i q 1).val = (i 1).val := by
  unfold DotDims.rhsIdx
  rw [dif_neg (show ¬(1 : Fin Cert.ReferenceIdeal.S12x1.rank) ∈ Cert.ReferenceIdeal.dot_S100000x12_S12x1_S100000x1_1_0_0_1_n_n.rhsBatch by decide), dif_pos (show (1 : Fin Cert.ReferenceIdeal.S12x1.rank) ∈ Cert.ReferenceIdeal.dot_S100000x12_S12x1_S100000x1_1_0_0_1_n_n.rhsNonContracting by decide)]
  rfl

/-- The host's contraction at entry (r, q): the sum over k of X(r, k) · W(k, q). -/
theorem full4_apply (X : FVec Ideal Cert.ReferenceIdeal.S100000x12 .f32) (W : FVec Ideal Cert.ReferenceIdeal.S12x1 .f32)
    (i : Cert.ReferenceIdeal.S100000x1.Idx) :
    Cert.Spec.lin4 X W i = ∑ k : Fin 12, X (fullRow4 i k) * W (fullCol4 i k) := by
  unfold Cert.Spec.lin4
  simp only [Host.dotGeneral]
  rw [Ideal.dotGeneral_apply, ← Equiv.sum_comp (ValueIdx.contrEquiv1 Cert.ReferenceIdeal.dot_S100000x12_S12x1_S100000x1_1_0_0_1_n_n 12 rfl rfl).symm]
  refine Finset.sum_congr rfl fun k _ => ?_
  have hk := ValueIdx.contrEquiv1_symm_val Cert.ReferenceIdeal.dot_S100000x12_S12x1_S100000x1_1_0_0_1_n_n 12 rfl rfl k
  have el : Cert.ReferenceIdeal.dot_S100000x12_S12x1_S100000x1_1_0_0_1_n_n.lhsIdx i ((ValueIdx.contrEquiv1 Cert.ReferenceIdeal.dot_S100000x12_S12x1_S100000x1_1_0_0_1_n_n 12 rfl rfl).symm k) = fullRow4 i k := funext fun a => Fin.ext (by
    match a with
    | ⟨0, _⟩ => exact full4_lhs_0 _ _
    | ⟨1, _⟩ => exact (full4_lhs_1 _ _).trans hk)
  have er : Cert.ReferenceIdeal.dot_S100000x12_S12x1_S100000x1_1_0_0_1_n_n.rhsIdx i ((ValueIdx.contrEquiv1 Cert.ReferenceIdeal.dot_S100000x12_S12x1_S100000x1_1_0_0_1_n_n 12 rfl rfl).symm k) = fullCol4 i k := funext fun a => Fin.ext (by
    match a with
    | ⟨0, _⟩ => exact (full4_rhs_0 _ _).trans hk
    | ⟨1, _⟩ => exact full4_rhs_1 _ _)
  rw [el, er]

/-- A tile entry is an entry of the whole product as soon as the tile's row and the weight matrix's column are the
    whole arrays' row and column, position by position. -/
theorem tile4_eq_full1 (X : FVec Ideal Cert.ReferenceIdeal.S100000x12 .f32) (W : FVec Ideal Cert.ReferenceIdeal.S12x1 .f32)
    (x0 : Vec Ideal S5000x12 .f32) (x1 : Vec Ideal S12x1 .f32) (j : S5000x1.Idx) (i : Cert.ReferenceIdeal.S100000x1.Idx)
    (h0 : ∀ k : Fin 12, x0 (tileRow4 j k) = X (fullRow4 i k))
    (h1 : ∀ k : Fin 12, x1 (tileCol4 j k) = W (fullCol4 i k)) :
    k6_pay1 (F := Ideal) x0 x1 j = Cert.Spec.lin4 X W i := by
  rw [tile4_apply, full4_apply]
  exact Finset.sum_congr rfl fun k _ => by rw [h0 k, h1 k]

/-! ## From the row tiles to the array -/

-- the TensorCore's buffer contents when the region is entered
variable (V : (c : Dev nD) → (b : Ref sig .tc) → Buf (Elt Ideal) ((c : Thread nD τ).loc b))

theorem zero_offsets4 : (![0, 0] : Fin 2 → Nat) = fun _ => 0 := funext fun a => by fin_cases a <;> rfl

/-- The three index maps over the 20 grid points: the input tile and the output tile sit at the same row-block t
    and column-block 0; the weight matrix's one block is at (0, 0). -/
theorem lin4_index_maps : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What grid point t writes back is rows 5000·t … 5000·t + 4999 of the whole product. -/
theorem lin4_flushed (c : Dev nD) (t : Fin cfg6.N) :
    (dat6 V c).flushed 2 t = ((cfg6.win 2).blk t).view.read (Elt Ideal)
      (Cert.Spec.lin4 (V c (Pipeline.arrRef spec6 0)) (V c (Pipeline.arrRef spec6 1))) := by
  show (cfg6.win 2).cut (grid6.coords t) ((dat6 V c).after 2 t) = _
  rw [after6_2]
  unfold out6_2
  rw [View.canon_unit_zero zero_offsets4]
  simp only [View.ld_unit_zero (S := S5000x12) zero_offsets4, View.ld_unit_zero (S := S12x1) zero_offsets4]
  funext j
  show k6_pay1 (F := Ideal) (iblk6 V c 0 t) (iblk6 V c 1 t) j
    = Cert.Spec.lin4 (V c (Pipeline.arrRef spec6 0)) (V c (Pipeline.arrRef spec6 1)) (((cfg6.win 2).blk t).view.emb j)
  obtain ⟨e00, e01, e10, e11, e20, e21⟩ := lin4_index_maps t
  refine tile4_eq_full1 _ _ _ _ j _ (fun k => ?_) (fun k => ?_)
  · show V c (Pipeline.arrRef spec6 0) (((cfg6.win 0).blk t).view.emb (tileRow4 j k))
      = V c (Pipeline.arrRef spec6 0) (fullRow4 (((cfg6.win 2).blk t).view.emb j) k)
    refine congrArg _ (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 12 + 1 * k.val = k.val
      omega
  · show V c (Pipeline.arrRef spec6 1) (((cfg6.win 1).blk t).view.emb (tileCol4 j k))
      = V c (Pipeline.arrRef spec6 1) (fullCol4 (((cfg6.win 2).blk t).view.emb j) k)
    refine congrArg _ (funext fun a => Fin.ext ?_)
    match a with
    | ⟨0, _⟩ =>
      show win6_1.index t (0 : Fin 2) * 12 + 1 * k.val = k.val
      omega
    | ⟨1, _⟩ =>
      show win6_1.index t (1 : Fin 2) * 1 + 1 * (j 1).val = win6_2.index t (1 : Fin 2) * 1 + 1 * (j 1).val
      omega

/-- An index of the output array is in grid point t's tile iff each coordinate is in the tile's range on its axis. -/
theorem lin4_mem_tile (t : Fin cfg6.N) (i : S100000x1.Idx) :
    i ∈ ((cfg6.win 2).blk t).view.set ↔ ∀ a : Fin 2, win6_2.index t a * S5000x1.size a ≤ (i a).val
      ∧ (i a).val < win6_2.index t a * S5000x1.size a + S5000x1.size a := by
  show i ∈ ((View.whole main_v78).slice (win6_2.rect t)).set ↔ _
  rw [View.set_slice_whole, Rect.mem_set_unit]
  exact Iff.rfl

/-- Row r of the output lies in the tile of grid point r / 5000 (there are 100000 = 20 · 5000 rows), and every
    grid point writes its tile back. -/
theorem lin4_cover (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, e20, e21⟩ := lin4_index_maps t
  refine ⟨t, flush6_2 t, ?_⟩
  rw [lin4_mem_tile]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 1 ≤ (i 1).val ∧ (i 1).val < win6_2.index t (1 : Fin 2) * 1 + 1
    omega

/-- The fourth dense kernel's output array after its 20 row tiles: the whole product h · W₄ (one column). -/
theorem lin4_final (c : Dev nD) :
    (dat6 V c).arrAt 2 cfg6.N
      = Cert.Spec.lin4 (V c (Pipeline.arrRef spec6 0)) (V c (Pipeline.arrRef spec6 1)) :=
  (dat6 V c).arrAt_eq_of_cover 2 _ (fun t _ => lin4_flushed V c t) lin4_cover

end Cert.KVal

end
-- ==== Proof.Act1.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal.Act1

open Idealize.ShloMosaic Idealize.ShloMosaic.TcCoe Idealize.SL.Sem
open Idealize.ShloMosaic.ValueIdx
open Cert.KernelIdeal Cert.KernelIdeal.Gen

/-! ## One entry: the body's arithmetic and the specification's, as one function of an extended real -/

/-- The tanh form of gelu on one extended real, z · (½ · (1 + tanh (c₁ · (z + c₂ · ((z · z) · z))))), the cube
    taken as (z · z) · z and the four constants kept as their binary words. -/
def geluTanh (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * ((z * z) * z)))))

/-- The vector tanh read at an index. -/
theorem tanh_apply {s : Shape} {φ : FTy} (a : FVec Ideal s φ) (i : s.Idx) : tanh a i = Ideal.tanh (a i) := rfl

/-- The host's tanh read at an index: the same function of the entry. -/
theorem hostTanh_apply {s : Shape} {φ : FTy} (a : FVec Ideal s φ) (i : s.Idx) : Host.tanh a i = Ideal.tanh (a i) := rfl

/-- The tile's payload at row p, column q: gelu of the tile's entry plus the bias row's entry in that column.
    A splat scalar reads its word at every index; the one row broadcast over the 5000 rows reads (0, q); the body
    cubes as v · (v · v), and associativity of the product on the extended reals gives (v · v) · v. -/
theorem tilePayload_apply (x0 : Vec Ideal S5000x25 .f32) (x1 : Vec Ideal S1x25 .f32) (p : Fin 5000) (q : Fin 25) :
    (k1_pay1 (F := Ideal) x0 x1) (ix2 p q) = geluTanh (x0 (ix2 p q) + x1 (ix2 (0 : Fin 1) q)) := by
  unfold k1_pay1
  simp only [shapeCast_self]
  simp only [mulf_apply, addf_apply, broadcast_apply, tanh_apply, broadcastTo_1b_ab_apply, Ideal.ofBits_def]
  unfold geluTanh
  rw [mul_assoc (x0 (ix2 p q) + x1 (ix2 (0 : Fin 1) q))]

/-- The bias row broadcast over the 100000 rows reads, at (r, q), the row's entry in column q. -/
theorem biasRow_apply (B : FVec Ideal Cert.ReferenceIdeal.S1x25 .f32) (r : Fin 100000) (q : Fin 25) :
    broadcastInDim Cert.ReferenceIdeal.S100000x25 ![0, 1] Cert.ReferenceIdeal.Gen.bcast_S1x25_S100000x25_0_1 B (ix2 r q)
      = B (ix2 (0 : Fin 1) q) := by
  refine broadcastInDim_apply _ _ B (ix2 r q) (ix2 (0 : Fin 1) q) fun a => ?_
  match a with
  | ⟨0, _⟩ => rfl
  | ⟨1, _⟩ => rfl

/-- The specification at row r, column q: gelu of the array's entry plus the bias row's entry in that column.
    A rank-0 constant broadcast over the array reads its word at every index. -/
theorem spec_apply (A : FVec Ideal Cert.ReferenceIdeal.S100000x25 .f32) (B : FVec Ideal Cert.ReferenceIdeal.S1x25 .f32)
    (r : Fin 100000) (q : Fin 25) :
    Cert.Spec.gelu25 (Cert.Spec.bias1 A B) (ix2 r q) = geluTanh (A (ix2 r q) + B (ix2 (0 : Fin 1) q)) := by
  unfold Cert.Spec.gelu25 Cert.Spec.bias1
  simp only [mulf_apply, addf_apply, hostTanh_apply]
  rw [biasRow_apply B r q]
  rfl

/-- One tile entry against one array entry: when the tile's entry at j is the array's at i, the tile's bias row is
    the array's bias row, and i and j are in the same column, the payload at j is the specification at i. -/
theorem tile_point (x0 : Vec Ideal S5000x25 .f32) (x1 : Vec Ideal S1x25 .f32)
    (A : FVec Ideal Cert.ReferenceIdeal.S100000x25 .f32) (B : FVec Ideal Cert.ReferenceIdeal.S1x25 .f32)
    (j : S5000x25.Idx) (i : Cert.ReferenceIdeal.S100000x25.Idx)
    (h0 : x0 j = A i) (h1 : ∀ q : Fin 25, x1 (ix2 (0 : Fin 1) q) = B (ix2 (0 : Fin 1) q)) (hq : (i 1).val = (j 1).val) :
    (k1_pay1 (F := Ideal) x0 x1) j = Cert.Spec.gelu25 (Cert.Spec.bias1 A B) i := by
  obtain ⟨p, q, rfl⟩ : ∃ (p : Fin 5000) (q : Fin 25), j = ix2 p q := ⟨j 0, j 1, eq_ix2 j⟩
  obtain ⟨r, q', rfl⟩ : ∃ (r : Fin 100000) (q' : Fin 25), i = ix2 r q' := ⟨i 0, i 1, eq_ix2 i⟩
  obtain rfl : q' = q := Fin.ext hq
  rw [tilePayload_apply, spec_apply, h0, h1]

/-! ## From the 20 tiles to the array -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the input tile and the output tile are block (t, 0), the
    bias row is block (0, 0). -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the specification of the two input arrays as the region finds them:
    an element of a block sits in its array, on each axis, at block index × block size + its coordinate in the block,
    so the input tile and the output tile name the same array entries and the bias block is the whole bias row. -/
theorem tile_flushed (c : Dev nD) (t : Fin cfg1.N) :
    (dat1 V c).flushed 2 t = ((cfg1.win 2).blk t).view.read (Elt Ideal)
      (Cert.Spec.gelu25 (Cert.Spec.bias1 (V c (Pipeline.arrRef spec1 0)) (V c (Pipeline.arrRef spec1 1)))) := by
  show (cfg1.win 2).cut (grid1.coords t) ((dat1 V c).after 2 t) = _
  rw [after1_2]
  unfold out1_2
  rw [View.canon_unit_zero hz]
  simp only [View.ld_unit_zero (S := S5000x25) hz, View.ld_unit_zero (S := S1x25) hz]
  obtain ⟨e0, e1, e2, e3, e4, e5⟩ := tile_index t
  funext j
  show (k1_pay1 (F := Ideal) (iblk1 V c 0 t) (iblk1 V c 1 t)) j
    = Cert.Spec.gelu25 (Cert.Spec.bias1 (V c (Pipeline.arrRef spec1 0)) (V c (Pipeline.arrRef spec1 1)))
        (((cfg1.win 2).blk t).view.emb j)
  refine tile_point (iblk1 V c 0 t) (iblk1 V c 1 t) (V c (Pipeline.arrRef spec1 0)) (V c (Pipeline.arrRef spec1 1)) j
    (((cfg1.win 2).blk t).view.emb j) ?_ ?_ ?_
  · show V c (Pipeline.arrRef spec1 0) (((cfg1.win 0).blk t).view.emb j)
      = V c (Pipeline.arrRef spec1 0) (((cfg1.win 2).blk t).view.emb j)
    refine congrArg (V c (Pipeline.arrRef spec1 0)) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 25 + 1 * (j 1).val = win1_2.index t (1 : Fin 2) * 25 + 1 * (j 1).val; omega
  · intro q
    show V c (Pipeline.arrRef spec1 1) (((cfg1.win 1).blk t).view.emb (ix2 (0 : Fin 1) q))
      = V c (Pipeline.arrRef spec1 1) (ix2 (0 : Fin 1) q)
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 25 + 1 * q.val = q.val; omega
  · show win1_2.index t (1 : Fin 2) * 25 + 1 * (j 1).val = (j 1).val
    omega

/-- An index of the array is in grid point t's block iff each coordinate is in the block's range on its axis. -/
theorem mem_tile (t : Fin cfg1.N) (i : S100000x25.Idx) :
    i ∈ ((cfg1.win 2).blk t).view.set ↔ ∀ a : Fin 2, win1_2.index t a * S5000x25.size a ≤ (i a).val
      ∧ (i a).val < win1_2.index t a * S5000x25.size a + S5000x25.size a := by
  show i ∈ ((View.whole main_v45).slice (win1_2.rect t)).set ↔ _
  rw [View.set_slice_whole, Rect.mem_set_unit]
  exact Iff.rfl

/-- Every entry of the array is in some grid point's block: row r is in block r / 5000, and every point writes back. -/
theorem tile_cover (i : S100000x25.Idx) :
    ∃ t : Fin cfg1.N, (cfg1.win 2).flush t = true ∧ i ∈ ((cfg1.win 2).blk t).view.set := by
  have hi0 : (i 0).val < 100000 := (i 0).isLt
  have hi1 : (i 1).val < 25 := (i 1).isLt
  have hN : cfg1.N = 20 := N_1
  let t : Fin cfg1.N := ⟨(i 0).val / 5000, by rw [hN]; omega⟩
  obtain ⟨-, -, -, -, e4, e5⟩ := tile_index t
  have e4' : win1_2.index t (0 : Fin 2) = (i 0).val / 5000 := e4
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 25 ≤ (i 1).val ∧ (i 1).val < win1_2.index t (1 : Fin 2) * 25 + 25; omega

end Cert.KVal.Act1

namespace Cert.KVal

open Idealize.ShloMosaic Idealize.ShloMosaic.TcCoe Idealize.SL.Sem
open Cert.KernelIdeal Cert.KernelIdeal.Gen

-- the TensorCore's buffer contents when the region is entered
variable (V : (c : Dev nD) → (b : Ref sig .tc) → Buf (Elt Ideal) ((c : Thread nD τ).loc b))

/-- After the 20 row tiles of the first bias-and-activation kernel: every entry of the aggregated array plus its
    column's bias, passed through the tanh form of gelu. -/
theorem act1_final (c : Dev nD) :
    (dat1 V c).arrAt 2 cfg1.N
      = Cert.Spec.gelu25 (Cert.Spec.bias1 (V c (Pipeline.arrRef spec1 0)) (V c (Pipeline.arrRef spec1 1))) :=
  (dat1 V c).arrAt_eq_of_cover 2
    (Cert.Spec.gelu25 (Cert.Spec.bias1 (V c (Pipeline.arrRef spec1 0)) (V c (Pipeline.arrRef spec1 1))))
    (fun t _ => Act1.tile_flushed V c t) Act1.tile_cover

end Cert.KVal

end
-- ==== Proof.Act2.lean ====
/-
  The second bias-and-activation kernel (20 row tiles of 5000 rows): every tile is the aggregated tile plus the bias
  row, then the maximum with zero. Read index by index, the body's result at (p, q) of tile t is the specification
  `relu18 (bias2 A B)` at (5000 t + p, q); the 20 tiles cover the 100000 rows, so the output array is the
  specification of the two input arrays.
-/
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal

open Idealize.ShloMosaic Idealize.ShloMosaic.TcCoe Idealize.SL.Sem Idealize.ShloMosaic.ValueIdx
open Cert.KernelIdeal Cert.KernelIdeal.Gen

/-- One tile of the kernel's body at an index: the row-tile entry plus the bias row's entry of the same column,
    then the maximum with zero (both shape casts are to the same shape; the bias row is broadcast over the
    5000 rows, the scalar zero over the tile). -/
theorem act2_tile_apply (x0 : Vec Ideal S5000x18 .f32) (x1 : Vec Ideal S1x18 .f32) (p : Fin 5000) (q : Fin 18) :
    k3_pay1 x0 x1 (ix2 p q) = max (x0 (ix2 p q) + x1 (ix2 (0 : Fin 1) q)) (Ideal.ofBits .f32 0x00000000#32) := by
  unfold k3_pay1
  rw [maximumf_apply, addf_apply, shapeCast_self, shapeCast_self, broadcastTo_1b_ab_apply, broadcast_apply]
  rfl

/-- The specification at an index: the array's entry plus the bias row's entry of the same column (the
    [1, 18] array broadcast over the 100000 rows reads row 0), then the maximum with the rank-0 zero constant
    broadcast everywhere. -/
theorem act2_spec_apply (A : FVec Ideal Cert.ReferenceIdeal.S100000x18 .f32) (B : FVec Ideal Cert.ReferenceIdeal.S1x18 .f32)
    (r : Fin 100000) (q : Fin 18) :
    Cert.Spec.relu18 (Cert.Spec.bias2 A B) (ix2 r q)
      = max (A (ix2 r q) + B (ix2 (0 : Fin 1) q)) (Ideal.ofBits .f32 0x00000000#32) := by
  unfold Cert.Spec.relu18 Cert.Spec.bias2
  rw [maximumf_apply, addf_apply,
    broadcastInDim_apply _ _ B (ix2 r q) (ix2 (0 : Fin 1) q)
      (fun a => by match a with | ⟨0, _⟩ => rfl | ⟨1, _⟩ => rfl),
    broadcastInDim_apply _ _ (constant (F := Ideal) Cert.ReferenceIdeal.S_ .f32 0x00000000#32) (ix2 r q) ix0 (fun a => a.elim0)]
  rfl

/-- A tile entry against the specification's entry: when the row tile's entry at `j` is the array's at `i`, the
    bias block's row is the bias array's row, and `i` has `j`'s column, the body's result at `j` is the
    specification at `i`. -/
theorem act2_tile_eq_spec (A : FVec Ideal Cert.ReferenceIdeal.S100000x18 .f32) (B : FVec Ideal Cert.ReferenceIdeal.S1x18 .f32)
    (x0 : Vec Ideal S5000x18 .f32) (x1 : Vec Ideal S1x18 .f32) (j : S5000x18.Idx) (i : S100000x18.Idx)
    (h0 : x0 j = A i) (h1 : x1 (ix2 (0 : Fin 1) (j 1)) = B (ix2 (0 : Fin 1) (j 1))) (hi : i 1 = j 1) :
    k3_pay1 x0 x1 j = Cert.Spec.relu18 (Cert.Spec.bias2 A B) i := by
  obtain ⟨p, q, rfl⟩ : ∃ (p : Fin 5000) (q : Fin 18), j = ix2 p q := ⟨j 0, j 1, eq_ix2 j⟩
  obtain ⟨r, q', rfl⟩ : ∃ (r : Fin 100000) (q' : Fin 18), i = ix2 r q' := ⟨i 0, i 1, eq_ix2 i⟩
  obtain rfl : q' = q := hi
  rw [act2_tile_apply, act2_spec_apply, h0]
  exact congrArg (fun z => max (A (ix2 r q') + z) _) h1

-- the TensorCore's buffer contents when the region is entered
variable (V : (c : Dev nD) → (b : Ref sig .tc) → Buf (Elt Ideal) ((c : Thread nD τ).loc b))

/-- The zero offsets of the body's whole-buffer load and store, as the constant function. -/
theorem act2_zeros : (![0, 0] : Fin 2 → Nat) = fun _ => 0 := funext fun a => by fin_cases a <;> rfl

/-- The printed index maps, decided over the 20 grid points: at point `t` the row-tile window and the output window
    sit at block (t, 0), the bias window at block (0, 0). -/
theorem act2_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the specification of the two arrays as the region finds them:
    the one store through the whole buffer leaves its payload; the row tile is rows 5000 t … 5000 t + 4999 of the
    first array (its block index is the output's), the bias block is the whole bias array (block (0, 0)). A block's
    coordinate in its array is always index × size + 1 × the coordinate inside the block. -/
theorem act2_flushed (c : Dev nD) (t : Fin cfg3.N) :
    (dat3 V c).flushed 2 t = ((cfg3.win 2).blk t).view.read (Elt Ideal)
      (Cert.Spec.relu18 (Cert.Spec.bias2 (V c (Pipeline.arrRef spec3 0)) (V c (Pipeline.arrRef spec3 1)))) := by
  show (cfg3.win 2).cut (grid3.coords t) ((dat3 V c).after 2 t) = _
  rw [after3_2]
  unfold out3_2
  rw [View.canon_unit_zero act2_zeros]
  simp only [View.ld_unit_zero (S := S5000x18) act2_zeros, View.ld_unit_zero (S := S1x18) act2_zeros]
  obtain ⟨e00, e01, e10, e11, e20, e21⟩ := act2_index t
  funext j
  show k3_pay1 (iblk3 V c 0 t) (iblk3 V c 1 t) j
      = Cert.Spec.relu18 (Cert.Spec.bias2 (V c (Pipeline.arrRef spec3 0)) (V c (Pipeline.arrRef spec3 1)))
          (((cfg3.win 2).blk t).view.emb j)
  have h0 : iblk3 V c 0 t j = V c (Pipeline.arrRef spec3 0) (((cfg3.win 2).blk t).view.emb j) := by
    show V c (Pipeline.arrRef spec3 0) (((cfg3.win 0).blk t).view.emb j) = _
    refine congrArg (V c (Pipeline.arrRef spec3 0)) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 18 + 1 * (j 1).val = win3_2.index t (1 : Fin 2) * 18 + 1 * (j 1).val; omega
  have h1 : iblk3 V c 1 t (ix2 (0 : Fin 1) (j 1)) = V c (Pipeline.arrRef spec3 1) (ix2 (0 : Fin 1) (j 1)) := by
    show V c (Pipeline.arrRef spec3 1) (((cfg3.win 1).blk t).view.emb (ix2 (0 : Fin 1) (j 1))) = _
    refine congrArg (V c (Pipeline.arrRef spec3 1)) ?_
    funext a; apply Fin.ext
    match a with
    | ⟨0, _⟩ => show win3_1.index t (0 : Fin 2) * 1 + 1 * 0 = 0; omega
    | ⟨1, _⟩ => show win3_1.index t (1 : Fin 2) * 18 + 1 * (j 1).val = (j 1).val; omega
  have h2 : (((cfg3.win 2).blk t).view.emb j) 1 = j 1 := by
    apply Fin.ext
    show win3_2.index t (1 : Fin 2) * 18 + 1 * (j 1).val = (j 1).val; omega
  exact act2_tile_eq_spec (V c (Pipeline.arrRef spec3 0)) (V c (Pipeline.arrRef spec3 1)) (iblk3 V c 0 t) (iblk3 V c 1 t) j
    (((cfg3.win 2).blk t).view.emb j) h0 h1 h2

/-- An index of the output array is in point `t`'s block iff each coordinate is in the block's range on its axis. -/
theorem act2_mem_tile (t : Fin cfg3.N) (i : S100000x18.Idx) :
    i ∈ ((cfg3.win 2).blk t).view.set ↔ ∀ a : Fin 2, win3_2.index t a * S5000x18.size a ≤ (i a).val
      ∧ (i a).val < win3_2.index t a * S5000x18.size a + S5000x18.size a := by
  show i ∈ ((View.whole main_v61).slice (win3_2.rect t)).set ↔ _
  rw [View.set_slice_whole, Rect.mem_set_unit]
  exact Iff.rfl

/-- The 20 row tiles cover the array: row `r` is in the block of point `r / 5000`, and every point writes back. -/
theorem act2_cover (i : S100000x18.Idx) :
    ∃ t : Fin cfg3.N, (cfg3.win 2).flush t = true ∧ i ∈ ((cfg3.win 2).blk t).view.set := by
  have hi0 : (i 0).val < 100000 := (i 0).isLt
  have hi1 : (i 1).val < 18 := (i 1).isLt
  have ht : (i 0).val / 5000 < cfg3.N := by
    have := N_3
    show (i 0).val / 5000 < grid3.N
    omega
  obtain ⟨-, -, -, -, e20, e21⟩ := act2_index ⟨(i 0).val / 5000, ht⟩
  refine ⟨⟨(i 0).val / 5000, ht⟩, flush3_2 _, ?_⟩
  rw [act2_mem_tile]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, ht⟩ (1 : Fin 2) * 18 ≤ (i 1).val
      ∧ (i 1).val < win3_2.index ⟨(i 0).val / 5000, ht⟩ (1 : Fin 2) * 18 + 18
    rw [e21]
    omega

/-- After the 20 row tiles of the second bias-and-activation kernel: aggregated entry plus bias, then relu. -/
theorem act2_final (c : Dev nD) :
    (dat3 V c).arrAt 2 cfg3.N
      = Cert.Spec.relu18 (Cert.Spec.bias2 (V c (Pipeline.arrRef spec3 0)) (V c (Pipeline.arrRef spec3 1))) :=
  (dat3 V c).arrAt_eq_of_cover 2 _ (fun t _ => act2_flushed V c t) act2_cover

end Cert.KVal

end
-- ==== Proof.Act3.lean ====
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal.Act3

open Idealize.ShloMosaic Idealize.ShloMosaic.TcCoe Idealize.SL.Sem
open Idealize.ShloMosaic.ValueIdx
open Cert.KernelIdeal Cert.KernelIdeal.Gen

/-! ## One entry: the body's arithmetic and the specification's, as one function of an extended real -/

/-- The tanh form of gelu on one extended real, z · (½ · (1 + tanh (c₁ · (z + c₂ · ((z · z) · z))))), the cube
    taken as (z · z) · z and the four constants kept as their binary words. -/
def geluTanh (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * ((z * z) * z)))))

/-- The vector tanh read at an index. -/
theorem tanh_apply {s : Shape} {φ : FTy} (a : FVec Ideal s φ) (i : s.Idx) : tanh a i = Ideal.tanh (a i) := rfl

/-- The host's tanh read at an index: the same function of the entry. -/
theorem hostTanh_apply {s : Shape} {φ : FTy} (a : FVec Ideal s φ) (i : s.Idx) : Host.tanh a i = Ideal.tanh (a i) := rfl

/-- The tile's payload at row p, column q: gelu of the tile's entry plus the bias row's entry in that column.
    A splat scalar reads its word at every index; the one row broadcast over the 5000 rows reads (0, q); the body
    cubes as v · (v · v), and associativity of the product on the extended reals gives (v · v) · v. -/
theorem tilePayload_apply (x0 : Vec Ideal S5000x12 .f32) (x1 : Vec Ideal S1x12 .f32) (p : Fin 5000) (q : Fin 12) :
    (k5_pay1 (F := Ideal) x0 x1) (ix2 p q) = geluTanh (x0 (ix2 p q) + x1 (ix2 (0 : Fin 1) q)) := by
  unfold k5_pay1
  simp only [shapeCast_self]
  simp only [mulf_apply, addf_apply, broadcast_apply, tanh_apply, broadcastTo_1b_ab_apply, Ideal.ofBits_def]
  unfold geluTanh
  rw [mul_assoc (x0 (ix2 p q) + x1 (ix2 (0 : Fin 1) q))]

/-- The bias row broadcast over the 100000 rows reads, at (r, q), the row's entry in column q. -/
theorem biasRow_apply (B : FVec Ideal Cert.ReferenceIdeal.S1x12 .f32) (r : Fin 100000) (q : Fin 12) :
    broadcastInDim Cert.ReferenceIdeal.S100000x12 ![0, 1] Cert.ReferenceIdeal.Gen.bcast_S1x12_S100000x12_0_1 B (ix2 r q)
      = B (ix2 (0 : Fin 1) q) := by
  refine broadcastInDim_apply _ _ B (ix2 r q) (ix2 (0 : Fin 1) q) fun a => ?_
  match a with
  | ⟨0, _⟩ => rfl
  | ⟨1, _⟩ => rfl

/-- The specification at row r, column q: gelu of the array's entry plus the bias row's entry in that column.
    A rank-0 constant broadcast over the array reads its word at every index. -/
theorem spec_apply (A : FVec Ideal Cert.ReferenceIdeal.S100000x12 .f32) (B : FVec Ideal Cert.ReferenceIdeal.S1x12 .f32)
    (r : Fin 100000) (q : Fin 12) :
    Cert.Spec.gelu12 (Cert.Spec.bias3 A B) (ix2 r q) = geluTanh (A (ix2 r q) + B (ix2 (0 : Fin 1) q)) := by
  unfold Cert.Spec.gelu12 Cert.Spec.bias3
  simp only [mulf_apply, addf_apply, hostTanh_apply]
  rw [biasRow_apply B r q]
  rfl

/-- One tile entry against one array entry: when the tile's entry at j is the array's at i, the tile's bias row is
    the array's bias row, and i and j are in the same column, the payload at j is the specification at i. -/
theorem tile_point (x0 : Vec Ideal S5000x12 .f32) (x1 : Vec Ideal S1x12 .f32)
    (A : FVec Ideal Cert.ReferenceIdeal.S100000x12 .f32) (B : FVec Ideal Cert.ReferenceIdeal.S1x12 .f32)
    (j : S5000x12.Idx) (i : Cert.ReferenceIdeal.S100000x12.Idx)
    (h0 : x0 j = A i) (h1 : ∀ q : Fin 12, x1 (ix2 (0 : Fin 1) q) = B (ix2 (0 : Fin 1) q)) (hq : (i 1).val = (j 1).val) :
    (k5_pay1 (F := Ideal) x0 x1) j = Cert.Spec.gelu12 (Cert.Spec.bias3 A B) i := by
  obtain ⟨p, q, rfl⟩ : ∃ (p : Fin 5000) (q : Fin 12), j = ix2 p q := ⟨j 0, j 1, eq_ix2 j⟩
  obtain ⟨r, q', rfl⟩ : ∃ (r : Fin 100000) (q' : Fin 12), i = ix2 r q' := ⟨i 0, i 1, eq_ix2 i⟩
  obtain rfl : q' = q := Fin.ext hq
  rw [tilePayload_apply, spec_apply, h0, h1]

/-! ## From the 20 tiles to the array -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the input tile and the output tile are block (t, 0), the
    bias row is block (0, 0). -/
theorem tile_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the specification of the two input arrays as the region finds them:
    an element of a block sits in its array, on each axis, at block index × block size + its coordinate in the block,
    so the input tile and the output tile name the same array entries and the bias block is the whole bias row. -/
theorem tile_flushed (c : Dev nD) (t : Fin cfg5.N) :
    (dat5 V c).flushed 2 t = ((cfg5.win 2).blk t).view.read (Elt Ideal)
      (Cert.Spec.gelu12 (Cert.Spec.bias3 (V c (Pipeline.arrRef spec5 0)) (V c (Pipeline.arrRef spec5 1)))) := by
  show (cfg5.win 2).cut (grid5.coords t) ((dat5 V c).after 2 t) = _
  rw [after5_2]
  unfold out5_2
  rw [View.canon_unit_zero hz]
  simp only [View.ld_unit_zero (S := S5000x12) hz, View.ld_unit_zero (S := S1x12) hz]
  obtain ⟨e0, e1, e2, e3, e4, e5⟩ := tile_index t
  funext j
  show (k5_pay1 (F := Ideal) (iblk5 V c 0 t) (iblk5 V c 1 t)) j
    = Cert.Spec.gelu12 (Cert.Spec.bias3 (V c (Pipeline.arrRef spec5 0)) (V c (Pipeline.arrRef spec5 1)))
        (((cfg5.win 2).blk t).view.emb j)
  refine tile_point (iblk5 V c 0 t) (iblk5 V c 1 t) (V c (Pipeline.arrRef spec5 0)) (V c (Pipeline.arrRef spec5 1)) j
    (((cfg5.win 2).blk t).view.emb j) ?_ ?_ ?_
  · show V c (Pipeline.arrRef spec5 0) (((cfg5.win 0).blk t).view.emb j)
      = V c (Pipeline.arrRef spec5 0) (((cfg5.win 2).blk t).view.emb j)
    refine congrArg (V c (Pipeline.arrRef spec5 0)) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 12 + 1 * (j 1).val = win5_2.index t (1 : Fin 2) * 12 + 1 * (j 1).val; omega
  · intro q
    show V c (Pipeline.arrRef spec5 1) (((cfg5.win 1).blk t).view.emb (ix2 (0 : Fin 1) q))
      = V c (Pipeline.arrRef spec5 1) (ix2 (0 : Fin 1) q)
    refine congrArg (V c (Pipeline.arrRef spec5 1)) (funext fun a => Fin.ext ?_)
    match a with
    | ⟨0, _⟩ => show win5_1.index t (0 : Fin 2) * 1 + 1 * 0 = 0; omega
    | ⟨1, _⟩ => show win5_1.index t (1 : Fin 2) * 12 + 1 * q.val = q.val; omega
  · show win5_2.index t (1 : Fin 2) * 12 + 1 * (j 1).val = (j 1).val
    omega

/-- An index of the array is in grid point t's block iff each coordinate is in the block's range on its axis. -/
theorem mem_tile (t : Fin cfg5.N) (i : S100000x12.Idx) :
    i ∈ ((cfg5.win 2).blk t).view.set ↔ ∀ a : Fin 2, win5_2.index t a * S5000x12.size a ≤ (i a).val
      ∧ (i a).val < win5_2.index t a * S5000x12.size a + S5000x12.size a := by
  show i ∈ ((View.whole main_v77).slice (win5_2.rect t)).set ↔ _
  rw [View.set_slice_whole, Rect.mem_set_unit]
  exact Iff.rfl

/-- Every entry of the array is in some grid point's block: row r is in block r / 5000, and every point writes back. -/
theorem tile_cover (i : S100000x12.Idx) :
    ∃ t : Fin cfg5.N, (cfg5.win 2).flush t = true ∧ i ∈ ((cfg5.win 2).blk t).view.set := by
  have hi0 : (i 0).val < 100000 := (i 0).isLt
  have hi1 : (i 1).val < 12 := (i 1).isLt
  have hN : cfg5.N = 20 := N_5
  let t : Fin cfg5.N := ⟨(i 0).val / 5000, by rw [hN]; omega⟩
  obtain ⟨-, -, -, -, e4, e5⟩ := tile_index t
  have e4' : win5_2.index t (0 : Fin 2) = (i 0).val / 5000 := e4
  refine ⟨t, flush5_2 t, ?_⟩
  rw [mem_tile]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 12 ≤ (i 1).val ∧ (i 1).val < win5_2.index t (1 : Fin 2) * 12 + 12; omega

end Cert.KVal.Act3

namespace Cert.KVal

open Idealize.ShloMosaic Idealize.ShloMosaic.TcCoe Idealize.SL.Sem
open Cert.KernelIdeal Cert.KernelIdeal.Gen

-- the TensorCore's buffer contents when the region is entered
variable (V : (c : Dev nD) → (b : Ref sig .tc) → Buf (Elt Ideal) ((c : Thread nD τ).loc b))

/-- After the 20 row tiles of the third bias-and-activation kernel: every entry of the aggregated array plus its
    column's bias, passed through the tanh form of gelu. -/
theorem act3_final (c : Dev nD) :
    (dat5 V c).arrAt 2 cfg5.N
      = Cert.Spec.gelu12 (Cert.Spec.bias3 (V c (Pipeline.arrRef spec5 0)) (V c (Pipeline.arrRef spec5 1))) :=
  (dat5 V c).arrAt_eq_of_cover 2
    (Cert.Spec.gelu12 (Cert.Spec.bias3 (V c (Pipeline.arrRef spec5 0)) (V c (Pipeline.arrRef spec5 1))))
    (fun t _ => Act3.tile_flushed V c t) Act3.tile_cover

end Cert.KVal

end
-- ==== Proof.Act4.lean ====
/-
  The last bias kernel (20 row tiles of 5000 rows, one column, no activation): every tile is the aggregated tile
  plus the one bias entry. Read index by index, the body's result at (p, q) of tile t is the specification
  `bias4 A B` at (5000 t + p, q); the 20 tiles cover the 100000 rows, so the output array is the specification of
  the two input arrays.
-/
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal

open Idealize.ShloMosaic Idealize.ShloMosaic.TcCoe Idealize.SL.Sem Idealize.ShloMosaic.ValueIdx
open Cert.KernelIdeal Cert.KernelIdeal.Gen

/-- One tile of the kernel's body at an index: the row-tile entry plus the one bias entry (both shape casts are to
    the same shape; the [1, 1] bias block is broadcast over the 5000 rows). -/
theorem act4_tile_apply (x0 : Vec Ideal S5000x1 .f32) (x1 : Vec Ideal S1x1 .f32) (p : Fin 5000) (q : Fin 1) :
    k7_pay1 x0 x1 (ix2 p q) = x0 (ix2 p q) + x1 (ix2 (0 : Fin 1) q) := by
  unfold k7_pay1
  rw [addf_apply, shapeCast_self, shapeCast_self, broadcastTo_1b_ab_apply]

/-- The specification at an index: the array's entry plus the one bias entry (the [1, 1] array broadcast over the
    100000 rows reads row 0; its one column is column 0). -/
theorem act4_spec_apply (A : FVec Ideal Cert.ReferenceIdeal.S100000x1 .f32) (B : FVec Ideal Cert.ReferenceIdeal.S1x1 .f32)
    (r : Fin 100000) (q : Fin 1) :
    Cert.Spec.bias4 A B (ix2 r q) = A (ix2 r q) + B (ix2 (0 : Fin 1) q) := by
  unfold Cert.Spec.bias4
  rw [addf_apply, broadcastInDim_apply _ _ B (ix2 r q) (ix2 (0 : Fin 1) q)
      (fun a => by
        match a with
        | ⟨0, _⟩ => rfl
        | ⟨1, _⟩ =>
          show q.val = if (1 : ℕ) = 1 then 0 else q.val
          rw [if_pos rfl]
          have := q.isLt
          omega)]

/-- A tile entry against the specification's entry: when the row tile's entry at `j` is the array's at `i`, the
    bias block's entry is the bias array's, and `i` has `j`'s column, the body's result at `j` is the
    specification at `i`. -/
theorem act4_tile_eq_spec (A : FVec Ideal Cert.ReferenceIdeal.S100000x1 .f32) (B : FVec Ideal Cert.ReferenceIdeal.S1x1 .f32)
    (x0 : Vec Ideal S5000x1 .f32) (x1 : Vec Ideal S1x1 .f32) (j : S5000x1.Idx) (i : S100000x1.Idx)
    (h0 : x0 j = A i) (h1 : x1 (ix2 (0 : Fin 1) (j 1)) = B (ix2 (0 : Fin 1) (j 1))) (hi : i 1 = j 1) :
    k7_pay1 x0 x1 j = Cert.Spec.bias4 A B i := by
  obtain ⟨p, q, rfl⟩ : ∃ (p : Fin 5000) (q : Fin 1), j = ix2 p q := ⟨j 0, j 1, eq_ix2 j⟩
  obtain ⟨r, q', rfl⟩ : ∃ (r : Fin 100000) (q' : Fin 1), i = ix2 r q' := ⟨i 0, i 1, eq_ix2 i⟩
  obtain rfl : q' = q := hi
  rw [act4_tile_apply, act4_spec_apply, h0]
  exact congrArg (fun z => A (ix2 r q') + z) h1

-- the TensorCore's buffer contents when the region is entered
variable (V : (c : Dev nD) → (b : Ref sig .tc) → Buf (Elt Ideal) ((c : Thread nD τ).loc b))

/-- The zero offsets of the body's whole-buffer load and store, as the constant function. -/
theorem act4_zeros : (![0, 0] : Fin 2 → Nat) = fun _ => 0 := funext fun a => by fin_cases a <;> rfl

/-- The printed index maps, decided over the 20 grid points: at point `t` the row-tile window and the output window
    sit at block (t, 0), the bias window at block (0, 0). -/
theorem act4_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 400000 in
/-- What point `t` writes back is block `t` of the specification of the two arrays as the region finds them:
    the one store through the whole buffer leaves its payload; the row tile is rows 5000 t … 5000 t + 4999 of the
    first array (its block index is the output's), the bias block is the whole bias array (block (0, 0)). A block's
    coordinate in its array is always index × size + 1 × the coordinate inside the block. -/
theorem act4_flushed (c : Dev nD) (t : Fin cfg7.N) :
    (dat7 V c).flushed 2 t = ((cfg7.win 2).blk t).view.read (Elt Ideal)
      (Cert.Spec.bias4 (V c (Pipeline.arrRef spec7 0)) (V c (Pipeline.arrRef spec7 1))) := by
  show (cfg7.win 2).cut (grid7.coords t) ((dat7 V c).after 2 t) = _
  rw [after7_2]
  unfold out7_2
  rw [View.canon_unit_zero act4_zeros]
  simp only [View.ld_unit_zero (S := S5000x1) act4_zeros, View.ld_unit_zero (S := S1x1) act4_zeros]
  obtain ⟨e00, e01, e10, e11, e20, e21⟩ := act4_index t
  funext j
  obtain ⟨p, q, rfl⟩ : ∃ (p : Fin 5000) (q : Fin 1), j = ix2 p q := ⟨j 0, j 1, eq_ix2 j⟩
  show k7_pay1 (iblk7 V c 0 t) (iblk7 V c 1 t) (ix2 p q)
      = Cert.Spec.bias4 (V c (Pipeline.arrRef spec7 0)) (V c (Pipeline.arrRef spec7 1))
          (((cfg7.win 2).blk t).view.emb (ix2 p q))
  have h0 : iblk7 V c 0 t (ix2 p q) = V c (Pipeline.arrRef spec7 0) (((cfg7.win 2).blk t).view.emb (ix2 p q)) := by
    show V c (Pipeline.arrRef spec7 0) (((cfg7.win 0).blk t).view.emb (ix2 p q)) = _
    refine congrArg (V c (Pipeline.arrRef spec7 0)) ?_
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * 1 + 1 * q.val = win7_2.index t (1 : Fin 2) * 1 + 1 * q.val; omega
  have h1 : iblk7 V c 1 t (ix2 (0 : Fin 1) q) = V c (Pipeline.arrRef spec7 1) (ix2 (0 : Fin 1) q) := by
    show V c (Pipeline.arrRef spec7 1) (((cfg7.win 1).blk t).view.emb (ix2 (0 : Fin 1) q)) = _
    refine congrArg (V c (Pipeline.arrRef spec7 1)) ?_
    funext a; apply Fin.ext
    match a with
    | ⟨0, _⟩ => show win7_1.index t (0 : Fin 2) * 1 + 1 * 0 = 0; omega
    | ⟨1, _⟩ => show win7_1.index t (1 : Fin 2) * 1 + 1 * q.val = q.val; omega
  have h2 : (((cfg7.win 2).blk t).view.emb (ix2 p q)) 1 = q := by
    apply Fin.ext
    show win7_2.index t (1 : Fin 2) * 1 + 1 * q.val = q.val; omega
  exact act4_tile_eq_spec (V c (Pipeline.arrRef spec7 0)) (V c (Pipeline.arrRef spec7 1)) (iblk7 V c 0 t) (iblk7 V c 1 t) (ix2 p q)
    (((cfg7.win 2).blk t).view.emb (ix2 p q)) h0 h1 h2

/-- An index of the output array is in point `t`'s block iff each coordinate is in the block's range on its axis. -/
theorem act4_mem_tile (t : Fin cfg7.N) (i : S100000x1.Idx) :
    i ∈ ((cfg7.win 2).blk t).view.set ↔ ∀ a : Fin 2, win7_2.index t a * S5000x1.size a ≤ (i a).val
      ∧ (i a).val < win7_2.index t a * S5000x1.size a + S5000x1.size a := by
  show i ∈ ((View.whole main_v92).slice (win7_2.rect t)).set ↔ _
  rw [View.set_slice_whole, Rect.mem_set_unit]
  exact Iff.rfl

/-- The 20 row tiles cover the array: row `r` is in the block of point `r / 5000`, and every point writes back. -/
theorem act4_cover (i : S100000x1.Idx) :
    ∃ t : Fin cfg7.N, (cfg7.win 2).flush t = true ∧ i ∈ ((cfg7.win 2).blk t).view.set := by
  have hi0 : (i 0).val < 100000 := (i 0).isLt
  have hi1 : (i 1).val < 1 := (i 1).isLt
  have ht : (i 0).val / 5000 < cfg7.N := by
    have := N_7
    show (i 0).val / 5000 < grid7.N
    omega
  obtain ⟨-, -, -, -, e20, e21⟩ := act4_index ⟨(i 0).val / 5000, ht⟩
  refine ⟨⟨(i 0).val / 5000, ht⟩, flush7_2 _, ?_⟩
  rw [act4_mem_tile]
  intro a
  match a with
  | ⟨0, _⟩ =>
    show win7_2.index ⟨(i 0).val / 5000, ht⟩ (0 : Fin 2) * 5000 ≤ (i 0).val
      ∧ (i 0).val < win7_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win7_2.index ⟨(i 0).val / 5000, ht⟩ (1 : Fin 2) * 1 ≤ (i 1).val
      ∧ (i 1).val < win7_2.index ⟨(i 0).val / 5000, ht⟩ (1 : Fin 2) * 1 + 1
    rw [e21]
    omega

/-- After the 20 row tiles of the last bias kernel (no activation): aggregated entry plus the one bias. -/
theorem act4_final (c : Dev nD) :
    (dat7 V c).arrAt 2 cfg7.N
      = Cert.Spec.bias4 (V c (Pipeline.arrRef spec7 0)) (V c (Pipeline.arrRef spec7 1)) :=
  (dat7 V c).arrAt_eq_of_cover 2 _ (fun t _ => act4_flushed V c t) act4_cover

end Cert.KVal

end
-- ==== Proof.LibScatterSet.lean ====
/-
  A rank-1 overwriting scatter (`operand.at[indices].set(updates)`, one index per update, the operand's one axis
  inserted) read at an index: the element at `i` is the update of the LAST list entry whose index, read as a signed word,
  is `i`, and the operand's own element where no entry names `i` (an entry whose index is negative or past the end names
  nothing). General: any lengths, any element type.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

/-! ## A left fold of overwriting steps, read at one index

A step either leaves the element at `i` alone (a miss) or sets it to the step's own value (a hit). After a fold the
element at `i` is the value of the last hit, or the starting element when every step misses. -/

/-- A fold of steps that all miss `i` leaves the element at `i` as it was. -/
theorem foldl_miss {β ι α : Type} (g : (ι → α) → β → (ι → α)) (i : ι) (hit : β → Prop)
    (hmiss : ∀ r n, ¬ hit n → g r n i = r i) :
    ∀ (l : List β) (x : ι → α), (∀ n ∈ l, ¬ hit n) → l.foldl g x i = x i
  | [], _, _ => rfl
  | a :: l, x, h => by
      rw [List.foldl_cons, foldl_miss g i hit hmiss l (g x a) (fun n hn => h n (List.mem_cons_of_mem _ hn)),
        hmiss x a (h a List.mem_cons_self)]

/-- A fold whose last hit of `i` is the step `k` (every later step misses) ends with `k`'s value at `i`. -/
theorem foldl_last_hit {β ι α : Type} (g : (ι → α) → β → (ι → α)) (i : ι) (hit : β → Prop) (val : β → α)
    (hmiss : ∀ r n, ¬ hit n → g r n i = r i) (hhit : ∀ r n, hit n → g r n i = val n)
    (l₁ l₂ : List β) (k : β) (hk : hit k) (h₂ : ∀ n ∈ l₂, ¬ hit n) (x : ι → α) :
    (l₁ ++ k :: l₂).foldl g x i = val k := by
  rw [List.foldl_append, List.foldl_cons, foldl_miss g i hit hmiss l₂ _ h₂, hhit _ _ hk]

/-! ## Where one update lands -/

/-- Update `j` of the rank-1 scatter lands on operand index `i` exactly when its index word, read signed, is `i`. -/
theorem resultIdx?_eq_some_iff {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1) (idx : IVec (⟨2, ![n, 1]⟩ : Shape) 32) (j : (⟨1, ![n]⟩ : Shape).Idx) (i : Fin N) :
    d.resultIdx? j idx = some (ix1 i) ↔ (idx (StableHlo.Predicate.ixP (j 0))).toInt = (i.val : ℤ) := by
  have hm : (0 : Fin 1) ∈ d.scatterDimsToOperandDims := by rw [hs]; exact List.mem_singleton.mpr rfl
  have hk : (0 : Fin 1) ∉ d.sKept := by
    simp [ScatterDims.sKept, Shape.kept, hi]
  -- the scatter-indices index an update reads: its own row, column 0
  have hsi : ∀ c, d.siIdx j c = StableHlo.Predicate.ixP (j 0) := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hv])]
      apply Fin.ext
      have hc := c.isLt
      simp only [hs, List.length_singleton] at hc
      show c.val = 0
      omega
  have hstart : d.start j idx 0 = (idx (StableHlo.Predicate.ixP (j 0))).toInt := by
    unfold ScatterDims.start
    rw [dif_pos hm, hsi]
    rfl
  have hwin : d.window j 0 = 0 := by
    unfold ScatterDims.window
    rw [dif_neg hk]
  have hall : ∀ a : Fin 1, a = 0 := fun a => Subsingleton.elim _ _
  unfold ScatterDims.resultIdx?
  split
  · next h =>
    have h0 := h 0
    rw [hstart, hwin] at h0
    constructor
    · intro e
      have e' := congrFun (Option.some.inj e) 0
      have e'' := congrArg Fin.val e'
      simp only [hstart, hwin] at e''
      change ((idx (StableHlo.Predicate.ixP (j 0))).toInt + ((0 : Nat) : ℤ)).toNat = i.val at e''
      omega
    · intro e
      congr 1
      funext a
      rw [hall a]
      apply Fin.ext
      show (d.start j idx 0 + (d.window j 0 : ℤ)).toNat = i.val
      rw [hstart, hwin]
      omega
  · next h =>
    constructor
    · intro e; exact absurd e (by simp)
    · intro e
      exfalso
      apply h
      intro a
      rw [hall a, hstart, hwin]
      have := i.isLt
      show 0 ≤ _ + ((0 : Nat) : ℤ) ∧ _ + ((0 : Nat) : ℤ) < ((N : Nat) : ℤ)
      omega

open Classical in
/-- The overwriting scatter at index `i`. `StableHlo.Predicate.ixP k` is row `k` of the `[n, 1]` index array. -/
theorem scatter_set_apply {α : Type} {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1)
    (x : (⟨1, ![N]⟩ : Shape).Idx → α) (idx : IVec (⟨2, ![n, 1]⟩ : Shape) 32) (upd : (⟨1, ![n]⟩ : Shape).Idx → α) (i : Fin N) :
    Host.scatter d (fun _ b => b) x idx upd (ix1 i)
      = if h : ∃ k : Fin n, (idx (StableHlo.Predicate.ixP k)).toInt = (i.val : ℤ)
            ∧ ∀ k' : Fin n, (idx (StableHlo.Predicate.ixP k')).toInt = (i.val : ℤ) → k' ≤ k
        then upd (ix1 h.choose) else x (ix1 i) := by
  classical
  -- the update numbers that land on `i`
  let hit : Fin (⟨1, ![n]⟩ : Shape).numel → Prop := fun m =>
    d.resultIdx? ((⟨1, ![n]⟩ : Shape).rowMajor.symm m) idx = some (ix1 i)
  have hhitiff : ∀ m, hit m ↔
      (idx (StableHlo.Predicate.ixP ((⟨1, ![n]⟩ : Shape).rowMajor.symm m 0))).toInt = (i.val : ℤ) := fun m =>
    resultIdx?_eq_some_iff d hu hi hs hv idx _ i
  -- an update number is its index's one coordinate
  have hval : ∀ m : Fin (⟨1, ![n]⟩ : Shape).numel, ((⟨1, ![n]⟩ : Shape).rowMajor.symm m 0).val = m.val := fun m => by
    have e := Shape.rowMajor_val_one ((⟨1, ![n]⟩ : Shape).rowMajor.symm m)
    rw [Equiv.apply_symm_apply] at e
    exact e.symm
  -- the scatter is a fold of steps, each a miss or a hit at `i`
  obtain ⟨g, hg, hmiss, hhit⟩ : ∃ g : ((⟨1, ![N]⟩ : Shape).Idx → α) → Fin (⟨1, ![n]⟩ : Shape).numel → ((⟨1, ![N]⟩ : Shape).Idx → α),
      Host.scatter d (fun _ b => b) x idx upd = (List.finRange (⟨1, ![n]⟩ : Shape).numel).foldl g x
      ∧ (∀ r m, ¬ hit m → g r m (ix1 i) = r (ix1 i))
      ∧ (∀ r m, hit m → g r m (ix1 i) = upd ((⟨1, ![n]⟩ : Shape).rowMajor.symm m)) := by
    refine ⟨_, rfl, ?_, ?_⟩
    · intro r m hm
      have hm' : ¬ d.resultIdx? ((⟨1, ![n]⟩ : Shape).rowMajor.symm m) idx = some (ix1 i) := hm
      generalize d.resultIdx? ((⟨1, ![n]⟩ : Shape).rowMajor.symm m) idx = o at hm' ⊢
      cases o with
      | none => rfl
      | some i0 =>
        have hne : ¬ (ix1 i = i0) := fun e => hm' (congrArg some e.symm)
        exact if_neg hne
    · intro r m hm
      have hm' : d.resultIdx? ((⟨1, ![n]⟩ : Shape).rowMajor.symm m) idx = some (ix1 i) := hm
      generalize d.resultIdx? ((⟨1, ![n]⟩ : Shape).rowMajor.symm m) idx = o at hm' ⊢
      subst hm'
      exact if_pos rfl
  rw [hg]
  by_cases h : ∃ k : Fin n, (idx (StableHlo.Predicate.ixP k)).toInt = (i.val : ℤ)
      ∧ ∀ k' : Fin n, (idx (StableHlo.Predicate.ixP k')).toInt = (i.val : ℤ) → k' ≤ k
  · rw [dif_pos h]
    obtain ⟨hk1, hk2⟩ := h.choose_spec
    generalize h.choose = k at hk1 hk2
    -- the update number of `k`, and the list of update numbers split at it
    have hkm : (⟨1, ![n]⟩ : Shape).rowMajor.symm ((⟨1, ![n]⟩ : Shape).rowMajor (ix1 k)) = ix1 k :=
      Equiv.symm_apply_apply _ _
    have hkhit : hit ((⟨1, ![n]⟩ : Shape).rowMajor (ix1 k)) := by
      rw [hhitiff, hkm]; exact hk1
    obtain ⟨l₁, l₂, hsplit⟩ := List.append_of_mem (List.mem_finRange ((⟨1, ![n]⟩ : Shape).rowMajor (ix1 k)))
    have hpw : (l₁ ++ (⟨1, ![n]⟩ : Shape).rowMajor (ix1 k) :: l₂).Pairwise (· < ·) :=
      hsplit ▸ List.pairwise_lt_finRange _
    have hlater : ∀ m ∈ l₂, ¬ hit m := by
      intro m hm hmhit
      have hlt : (⟨1, ![n]⟩ : Shape).rowMajor (ix1 k) < m :=
        List.rel_of_pairwise_cons (List.pairwise_append.1 hpw).2.1 hm
      have hle := hk2 _ ((hhitiff m).1 hmhit)
      have h1 : ((⟨1, ![n]⟩ : Shape).rowMajor (ix1 k)).val = k.val := Shape.rowMajor_val_one _
      have h2 := hval m
      have h3 : ((⟨1, ![n]⟩ : Shape).rowMajor.symm m 0).val ≤ k.val := hle
      have h4 : ((⟨1, ![n]⟩ : Shape).rowMajor (ix1 k)).val < m.val := hlt
      omega
    rw [hsplit, foldl_last_hit g (ix1 i) hit _ hmiss hhit l₁ l₂ _ hkhit hlater x, hkm]
  · rw [dif_neg h]
    -- no entry names `i`: a nonempty set of such entries would have a greatest member
    have hnone : ∀ k : Fin n, (idx (StableHlo.Predicate.ixP k)).toInt ≠ (i.val : ℤ) := by
      intro k hk
      let S : Finset (Fin n) := Finset.univ.filter fun k => (idx (StableHlo.Predicate.ixP k)).toInt = (i.val : ℤ)
      have hne : S.Nonempty := ⟨k, Finset.mem_filter.2 ⟨Finset.mem_univ _, hk⟩⟩
      exact h ⟨S.max' hne, (Finset.mem_filter.1 (S.max'_mem hne)).2,
        fun k' hk' => S.le_max' k' (Finset.mem_filter.2 ⟨Finset.mem_univ _, hk'⟩)⟩
    exact foldl_miss g (ix1 i) hit hmiss _ x fun m _ hmhit => hnone _ ((hhitiff m).1 hmhit)

end Cert.LibScatterSet

end
-- ==== Proof.Pool.lean ====
/-
  The pooling region: 100 grid points, point t reading the [1000, 1] tile t of the node values and of the nodes' graph
  ids, and two [1, 512] accumulators (per-graph sums and counts) whose block never moves, so that they are carried from
  point to point and written back once, after the last point.

  Kernel side. Point 0 zeroes both accumulators; every point then adds, at lane g, the sum over its 1000 rows of
  value * [id = g] to the sums and the sum of [id = g] to the counts, where [id = g] is the float of the comparison
  of the id word with the lane number: 1 when the id, read signed, is g, else 0. By induction on the point, after
  point n the accumulators hold at lane g the sums of these terms over the first 1000 (n + 1) nodes; after point 99
  over all 100000.

  Reference side. The host's accumulating scatter at graph g is zero plus the sum of the updates landing on g, and
  update k lands on g exactly when its index word read signed is g: the sum over all nodes of update * [id = g],
  with the values as updates for the sums and ones for the counts. A node whose id is outside [0, 512) has
  [id = g] = 0 for every g on both sides. Only x * 1 = x, x * 0 = 0 and the regrouping of a sum over 100000 nodes
  into 100 runs of 1000 are used: they hold for all extended reals, so no finiteness is needed.
-/
import proofs.«423238_j45140106281309_2_alg».proof.Proof.Gen.KernelIdeal.Frame
import proofs.«423238_j45140106281309_2_alg».proof.Proof.Spec
import Idealize.ShloMosaic.Lib.Pipeline.Value
import Idealize.ShloMosaic.Lib.ValueIdx
import Idealize.ShloMosaic.PureOps.Ideal.Laws
import Idealize.ShloMosaic.Lib.ValueLayout
import Idealize.ShloMosaic.Lib.IdealHost
import Idealize.ShloMosaic.Lib.Tactic
import proofs.«423238_j45140106281309_2_alg».proof.Proof.LibScatterSet

set_option maxRecDepth 16384

noncomputable section

namespace Cert.KVal.Pool

open Idealize.ShloMosaic Idealize.ShloMosaic.TcCoe Idealize.SL.Sem
open Cert.KernelIdeal Cert.KernelIdeal.Gen

variable {F : FTy → Type} [FloatOps F]

/-- The zero offsets of a whole-block access, however spelt. -/
theorem hz : (![0, 0] : Fin 2 → Nat) = fun _ => 0 := funext fun a => by fin_cases a <;> rfl

/-! ## What each control case leaves in the two accumulators

At a later point the body's one store into each accumulator covers it: the sum accumulator ends at the running
contents plus this tile's masked column sums, the count accumulator at the running contents plus this tile's
indicator column sums. At the first point the zero block is stored first and read back, so the running contents
are the zero block. -/

/-- A later point, the sum accumulator: the running contents plus the tile's term. -/
theorem sum_later (c : Dev nD) (i : grid8.Coords) (a1 : Memref sig .tc .vmem S1000x1 .f32) (h1 : a1.IsWhole)
    (a2 : Memref sig .tc .vmem S1000x1 .i32) (h2 : a2.IsWhole) (a3 : Memref sig .tc .vmem S1x512 .f32) (h3 : a3.IsWhole)
    (a4 : Memref sig .tc .vmem S1x512 .f32) (h4 : a4.IsWhole) (hc : ¬cond8_0 i)
    (x0 : Vec F S1000x1 .f32) (x1 : Vec F S1000x1 .i32) (xo2 xo3 : Vec F S1x512 .f32) :
    out8_B_2 c i a1 h1 a2 h2 a3 h3 a4 h4 hc x0 x1 xo2 xo3 = k8_pay4 x0 x1 xo2 := by
  unfold out8_B_2
  rw [View.read_writes_eq_canon _ _ _ (cover8_B_2 c i a1 h1 a2 h2 a3 h3 a4 h4 hc x0 x1 xo2 xo3)]
  unfold kernelRun8_B
  dsimp only
  sl_unfold_words
  rw [View.canon_unit_zero hz]
  simp only [View.readAt_eq_ld, h1.read_unread, h2.read_unread, h3.read_unread,
    View.ld_unit_zero (S := S1000x1) hz, View.ld_unit_zero (S := S1x512) hz]

/-- A later point, the count accumulator: the running contents plus the tile's term. -/
theorem cnt_later (c : Dev nD) (i : grid8.Coords) (a1 : Memref sig .tc .vmem S1000x1 .f32) (h1 : a1.IsWhole)
    (a2 : Memref sig .tc .vmem S1000x1 .i32) (h2 : a2.IsWhole) (a3 : Memref sig .tc .vmem S1x512 .f32) (h3 : a3.IsWhole)
    (a4 : Memref sig .tc .vmem S1x512 .f32) (h4 : a4.IsWhole) (hc : ¬cond8_0 i)
    (x0 : Vec F S1000x1 .f32) (x1 : Vec F S1000x1 .i32) (xo2 xo3 : Vec F S1x512 .f32) :
    out8_B_3 c i a1 h1 a2 h2 a3 h3 a4 h4 hc x0 x1 xo2 xo3 = k8_pay5 x1 xo3 := by
  unfold out8_B_3
  rw [View.read_writes_eq_canon _ _ _ (cover8_B_3 c i a1 h1 a2 h2 a3 h3 a4 h4 hc x0 x1 xo2 xo3)]
  unfold kernelRun8_B
  dsimp only
  sl_unfold_words
  rw [View.canon_unit_zero hz]
  simp only [View.readAt_eq_ld, h1.read_unread, h2.read_unread, h4.read_unread,
    View.ld_unit_zero (S := S1000x1) hz, View.ld_unit_zero (S := S1x512) hz]

/-- The first point, the sum accumulator: the zero block plus the tile's term. -/
theorem sum_first (c : Dev nD) (i : grid8.Coords) (a1 : Memref sig .tc .vmem S1000x1 .f32) (h1 : a1.IsWhole)
    (a2 : Memref sig .tc .vmem S1000x1 .i32) (h2 : a2.IsWhole) (a3 : Memref sig .tc .vmem S1x512 .f32) (h3 : a3.IsWhole)
    (a4 : Memref sig .tc .vmem S1x512 .f32) (h4 : a4.IsWhole) (hc : cond8_0 i)
    (x0 : Vec F S1000x1 .f32) (x1 : Vec F S1000x1 .i32) :
    out8_A_2 c i a1 h1 a2 h2 a3 h3 a4 h4 hc x0 x1 = k8_pay4 x0 x1 (k8_pay1 (F := F)) := by
  unfold out8_A_2
  rw [View.read_writes_eq_canon _ _ _ (cover8_A_2 c i a1 h1 a2 h2 a3 h3 a4 h4 hc x0 x1)]
  unfold kernelRun8_A
  dsimp only
  sl_unfold_words
  rw [View.canon_cons_unit_zero (S := S1x512) hz]
  simp only [View.readAt_eq_ld, h1.read_unread, h2.read_unread, View.readCov_unit_zero (S := S1x512) _ hz,
    View.ld_unit_zero (S := S1000x1) hz]

/-- The first point, the count accumulator: the zero block plus the tile's term. -/
theorem cnt_first (c : Dev nD) (i : grid8.Coords) (a1 : Memref sig .tc .vmem S1000x1 .f32) (h1 : a1.IsWhole)
    (a2 : Memref sig .tc .vmem S1000x1 .i32) (h2 : a2.IsWhole) (a3 : Memref sig .tc .vmem S1x512 .f32) (h3 : a3.IsWhole)
    (a4 : Memref sig .tc .vmem S1x512 .f32) (h4 : a4.IsWhole) (hc : cond8_0 i)
    (x0 : Vec F S1000x1 .f32) (x1 : Vec F S1000x1 .i32) :
    out8_A_3 c i a1 h1 a2 h2 a3 h3 a4 h4 hc x0 x1 = k8_pay5 x1 (k8_pay2 (F := F)) := by
  unfold out8_A_3
  rw [View.read_writes_eq_canon _ _ _ (cover8_A_3 c i a1 h1 a2 h2 a3 h3 a4 h4 hc x0 x1)]
  unfold kernelRun8_A
  dsimp only
  sl_unfold_words
  rw [View.canon_cons_unit_zero (S := S1x512) hz]
  simp only [View.readAt_eq_ld, h2.read_unread, View.readCov_unit_zero (S := S1x512) _ hz,
    View.ld_unit_zero (S := S1000x1) hz]

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

/-! ## The indicator "this node's graph id is g"

The body compares the id word with the lane number g < 512 for equality; two 32-bit words are equal exactly when
they are equal read as signed integers, and g read signed is g. So the comparison's 0/1 value, converted to a
float, is 1 when the id read signed is g and 0 otherwise — a negative id, or one of 512 or more, gives 0 on every
lane. -/

/-- The indicator as an extended real. -/
def ind (w : BitVec 32) (g : Fin 512) : EReal := if w.toInt = (g.val : ℤ) then 1 else 0

/-- A lane number below 512, as a 32-bit word read signed, is itself. -/
theorem toInt_lane (g : Fin 512) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e, if_pos (by omega)]

/-- The id word is the lane's word exactly when it reads, signed, as the lane number. -/
theorem eq_lane_iff (w : BitVec 32) (g : Fin 512) : w = BitVec.ofNat 32 g.val ↔ w.toInt = (g.val : ℤ) :=
  ⟨fun h => h ▸ toInt_lane g, fun h => BitVec.eq_of_toInt_eq (h.trans (toInt_lane g).symm)⟩

/-- The comparison's bit, widened to 32 bits and converted to a float, is the indicator. -/
theorem float_of_cmp (w : BitVec 32) (g : Fin 512) :
    ((((IntOp.cmpi .eq w (BitVec.ofNat 32 g.val)).setWidth 32).toInt : ℝ) : EReal) = ind w g := by
  unfold ind
  by_cases h : w.toInt = (g.val : ℤ)
  · rw [if_pos h]
    have e : IntOp.cmpi .eq w (BitVec.ofNat 32 g.val) = 1#1 := by
      rw [(eq_lane_iff w g).mpr h]; unfold IntOp.cmpi; simp
    rw [e]
    norm_num
  · rw [if_neg h]
    have hne : ¬ w = BitVec.ofNat 32 g.val := fun e => h ((eq_lane_iff w g).mp e)
    have e : IntOp.cmpi .eq w (BitVec.ofNat 32 g.val) = 0#1 := by
      unfold IntOp.cmpi
      rw [show (w == BitVec.ofNat 32 g.val) = false from beq_eq_false_iff_ne.mpr hne]
      rfl
    rw [e]
    norm_num

/-! ## The body's arithmetic at an index -/

/-- A column [1000, 1] broadcast along the lanes reads, at (r, g), the column at r. -/
theorem bcast_col_apply {α : Type} (v : S1000x1.Idx → α) (r : Fin 1000) (g : Fin 512) :
    broadcastTo S1000x512 v broadcasts_S1000x1_S1000x512 (ix2 r g) = v (ix2 r (0 : Fin 1)) :=
  broadcastTo_apply v broadcasts_S1000x1_S1000x512 (ix2 r g) (ix2 r (0 : Fin 1)) fun a => by
    match a with
    | ⟨0, _⟩ => rfl
    | ⟨1, _⟩ => rfl

/-- The one-hot tile at (r, g): the indicator of row r's id against lane g. -/
theorem onehot_apply (ids : Vec Ideal S1000x1 .i32) (r : Fin 1000) (g : Fin 512) :
    k8_pay3 (F := Ideal) ids (ix2 r g) = ind (ids (ix2 r (0 : Fin 1))) g := by
  unfold k8_pay3
  dsimp only
  rw [sitofp_apply, extui_apply]
  show (((((IntOp.cmpi .eq (broadcastTo S1000x512 (shapeCast S1000x1 ids shapeCasts_S1000x1_S1000x1) broadcasts_S1000x1_S1000x512 (ix2 r g))
    (broadcastTo S1000x512 (iota .tc S1x512 32 [1] iota_S1x512_d1_w32) broadcasts_S1x512_S1000x512 (ix2 r g))).setWidth 32).toInt : ℝ) : EReal)) = _
  rw [bcast_col_apply, broadcastTo_1b_ab_apply, shapeCast_self, iota_single_apply]
  exact float_of_cmp (ids (ix2 r (0 : Fin 1))) g

/-- A sum over the rows of a [1000, 512] tile, read at lane g. -/
theorem colsum_apply (src : FVec Ideal S1000x512 .f32) (hacc : (0x00000000#32 : BitVec 32) = 0x00000000#32) (g : Fin 512) :
    multiReduction (F := Ideal) .add [0] S512 src 0x00000000#32 reduces_S1000x512_S512 (.inl rfl) hacc (ix1 g)
      = ∑ r : Fin 1000, src (ix2 r g) := by
  refine (Ideal.multiReduction_add_single src 0x00000000#32 reduces_S1000x512_S512 (.inl rfl) hacc (ix1 g)).trans ?_
  refine Finset.sum_congr rfl fun r _ => congrArg src ?_
  funext a
  match a with
  | ⟨0, _⟩ => rfl
  | ⟨1, _⟩ => rfl

/-- The sum accumulator's new contents at lane g: the old contents plus the sum, over the tile's rows, of the
    row's value times its indicator. -/
theorem sum_step_apply (x : Vec Ideal S1000x1 .f32) (ids : Vec Ideal S1000x1 .i32) (acc : Vec Ideal S1x512 .f32) (g : Fin 512) :
    k8_pay4 (F := Ideal) x ids acc (ix2 (0 : Fin 1) g)
      = acc (ix2 (0 : Fin 1) g) + ∑ r : Fin 1000, x (ix2 r (0 : Fin 1)) * ind (ids (ix2 r (0 : Fin 1))) g := by
  unfold k8_pay4
  dsimp only
  rw [addf_apply, shapeCast_self, shapeCast_a_1a_apply, colsum_apply]
  congr 1
  refine Finset.sum_congr rfl fun r _ => ?_
  rw [mulf_apply, bcast_col_apply, shapeCast_self, onehot_apply]

/-- The count accumulator's new contents at lane g: the old contents plus the number of the tile's rows whose id
    is g (the sum of their indicators). -/
theorem cnt_step_apply (ids : Vec Ideal S1000x1 .i32) (acc : Vec Ideal S1x512 .f32) (g : Fin 512) :
    k8_pay5 (F := Ideal) ids acc (ix2 (0 : Fin 1) g)
      = acc (ix2 (0 : Fin 1) g) + ∑ r : Fin 1000, ind (ids (ix2 r (0 : Fin 1))) g := by
  unfold k8_pay5
  dsimp only
  rw [addf_apply, shapeCast_self, shapeCast_a_1a_apply, colsum_apply]
  congr 1
  refine Finset.sum_congr rfl fun r _ => ?_
  rw [onehot_apply]

/-- The zero block the first point stores, at any index. -/
theorem zero_sum_apply (j : S1x512.Idx) : k8_pay1 (F := Ideal) j = 0 := by
  unfold k8_pay1; exact Ideal.ofBits_zero_f32

theorem zero_cnt_apply (j : S1x512.Idx) : k8_pay2 (F := Ideal) j = 0 := by
  unfold k8_pay2; exact Ideal.ofBits_zero_f32

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

/-! ## The two input arrays and their tiles -/

/-- The node values, a [100000, 1] column, as the region finds them. -/
abbrev vals (c : Dev nD) : Vec Ideal S100000x1 .f32 := V c (Pipeline.arrRef spec8 0)
/-- The nodes' graph ids, a [100000, 1] column of 32-bit words. -/
abbrev gids (c : Dev nD) : Vec Ideal S100000x1 .i32 := V c (Pipeline.arrRef spec8 1)
/-- Tile t of the values: rows 1000 t … 1000 t + 999. -/
abbrev vtile (c : Dev nD) (t : Fin cfg8.N) : Vec Ideal S1000x1 .f32 := iblk8 V c 0 t
/-- Tile t of the ids. -/
abbrev gtile (c : Dev nD) (t : Fin cfg8.N) : Vec Ideal S1000x1 .i32 := iblk8 V c 1 t

/-- Both input windows sit at block (t, 0) at point t. -/
theorem tile_index : ∀ t : Fin cfg8.N, (win8_0.index t 0 = t.val ∧ win8_0.index t 1 = 0)
    ∧ (win8_1.index t 0 = t.val ∧ win8_1.index t 1 = 0) :=
  (by decide +kernel : ∀ t : Fin grid8.N, (win8_0.index t 0 = t.val ∧ win8_0.index t 1 = 0)
    ∧ (win8_1.index t 0 = t.val ∧ win8_1.index t 1 = 0))

/-- Row r of value tile t is node 1000 t + r. -/
theorem vtile_apply (c : Dev nD) (t : Fin cfg8.N) (r : Fin 1000) (h : 1000 * t.val + r.val < 100000) :
    vtile V c t (ix2 r (0 : Fin 1)) = vals V c (ix2 (⟨1000 * t.val + r.val, h⟩ : Fin 100000) (0 : Fin 1)) := by
  have hi := (tile_index t).1
  show iblk8 V c 0 t (ix2 r (0 : Fin 1)) = _
  unfold iblk8
  rw [View.read_apply]
  show V c (Pipeline.arrRef spec8 0) _ = V c (Pipeline.arrRef spec8 0) _
  congr 1
  funext a
  apply Fin.ext
  match a with
  | ⟨0, _⟩ => show win8_0.index t 0 * 1000 + 1 * r.val = 1000 * t.val + r.val; rw [hi.1]; omega
  | ⟨1, _⟩ => show win8_0.index t 1 * 1 + 1 * 0 = 0; rw [hi.2]

/-- Row r of id tile t is node 1000 t + r. -/
theorem gtile_apply (c : Dev nD) (t : Fin cfg8.N) (r : Fin 1000) (h : 1000 * t.val + r.val < 100000) :
    gtile V c t (ix2 r (0 : Fin 1)) = gids V c (ix2 (⟨1000 * t.val + r.val, h⟩ : Fin 100000) (0 : Fin 1)) := by
  have hi := (tile_index t).2
  show iblk8 V c 1 t (ix2 r (0 : Fin 1)) = _
  unfold iblk8
  rw [View.read_apply]
  show V c (Pipeline.arrRef spec8 1) _ = V c (Pipeline.arrRef spec8 1) _
  congr 1
  funext a
  apply Fin.ext
  match a with
  | ⟨0, _⟩ => show win8_1.index t 0 * 1000 + 1 * r.val = 1000 * t.val + r.val; rw [hi.1]; omega
  | ⟨1, _⟩ => show win8_1.index t 1 * 1 + 1 * 0 = 0; rw [hi.2]

/-! ## The accumulators point by point -/

/-- After the first point: the zero blocks plus tile 0's terms. -/
theorem outs_first (c : Dev nD) (h : 0 < cfg8.N) :
    outsAt8 V c 0 h = (k8_pay4 (vtile V c ⟨0, h⟩) (gtile V c ⟨0, h⟩) (k8_pay1 (F := Ideal)),
      k8_pay5 (gtile V c ⟨0, h⟩) (k8_pay2 (F := Ideal))) := by
  rw [outsAt8_A V c ⟨0, h⟩ rfl]
  exact congrArg₂ Prod.mk (sum_first (F := Ideal) c _ _ _ _ _ _ _ _ _ _ _ _) (cnt_first (F := Ideal) c _ _ _ _ _ _ _ _ _ _ _ _)

/-- After a later point: what the point before left plus this tile's terms. -/
theorem outs_later (c : Dev nD) (n : ℕ) (h : n + 1 < cfg8.N) :
    outsAt8 V c (n + 1) h
      = (k8_pay4 (vtile V c ⟨n + 1, h⟩) (gtile V c ⟨n + 1, h⟩) (outsAt8 V c n (Nat.lt_of_succ_lt h)).1,
        k8_pay5 (gtile V c ⟨n + 1, h⟩) (outsAt8 V c n (Nat.lt_of_succ_lt h)).2) := by
  have hN : n + 1 < 100 := lt_of_lt_of_eq h N_8
  have hB : ¬(⟨n + 1, h⟩ : Fin cfg8.N).val % 100 = 0 := by dsimp only; omega
  rw [outsAt8_B V c ⟨n + 1, h⟩ hB]
  exact congrArg₂ Prod.mk (sum_later (F := Ideal) c _ _ _ _ _ _ _ _ _ _ _ _ _ _) (cnt_later (F := Ideal) c _ _ _ _ _ _ _ _ _ _ _ _ _ _)

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The running sums over the nodes in order

Node j contributes, to graph g's sum, its value times the indicator "its id is g", and to graph g's count the
indicator. After point n the accumulators hold, at lane g, the sums of these over the first 1000 (n + 1) nodes. -/

/-- Node j's value (zero past the array's end, which is never read). -/
def valN (c : Dev nD) (j : ℕ) : EReal :=
  if h : j < 100000 then vals V c (ix2 (⟨j, h⟩ : Fin 100000) (0 : Fin 1)) else 0
/-- Node j's id word. -/
def idN (c : Dev nD) (j : ℕ) : BitVec 32 :=
  if h : j < 100000 then gids V c (ix2 (⟨j, h⟩ : Fin 100000) (0 : Fin 1)) else 0#32

/-- Node j's contribution to graph g's sum. -/
def sumTerm (c : Dev nD) (g : Fin 512) (j : ℕ) : EReal := valN V c j * ind (idN V c j) g
/-- Node j's contribution to graph g's count. -/
def cntTerm (c : Dev nD) (g : Fin 512) (j : ℕ) : EReal := ind (idN V c j) g

/-- Tile t's masked column sum at lane g is the sum of the contributions of nodes 1000 t … 1000 t + 999. -/
theorem tile_sum (c : Dev nD) (g : Fin 512) (t : Fin cfg8.N) :
    ∑ r : Fin 1000, vtile V c t (ix2 r (0 : Fin 1)) * ind (gtile V c t (ix2 r (0 : Fin 1))) g
      = ∑ r ∈ Finset.range 1000, sumTerm V c g (1000 * t.val + r) := by
  have hN : t.val < 100 := lt_of_lt_of_eq t.isLt N_8
  rw [← Fin.sum_univ_eq_sum_range (fun r => sumTerm V c g (1000 * t.val + r)) 1000]
  refine Finset.sum_congr rfl fun r _ => ?_
  have hr := r.isLt
  have h : 1000 * t.val + r.val < 100000 := by omega
  rw [vtile_apply V c t r h, gtile_apply V c t r h]
  unfold sumTerm valN idN
  rw [dif_pos h, dif_pos h]

/-- Tile t's indicator column sum likewise. -/
theorem tile_cnt (c : Dev nD) (g : Fin 512) (t : Fin cfg8.N) :
    ∑ r : Fin 1000, ind (gtile V c t (ix2 r (0 : Fin 1))) g
      = ∑ r ∈ Finset.range 1000, cntTerm V c g (1000 * t.val + r) := by
  have hN : t.val < 100 := lt_of_lt_of_eq t.isLt N_8
  rw [← Fin.sum_univ_eq_sum_range (fun r => cntTerm V c g (1000 * t.val + r)) 1000]
  refine Finset.sum_congr rfl fun r _ => ?_
  have hr := r.isLt
  have h : 1000 * t.val + r.val < 100000 := by omega
  rw [gtile_apply V c t r h]
  unfold cntTerm idN
  rw [dif_pos h]

/-- THE INVARIANT, by induction on the point: after point n the two accumulators hold at lane g the sum and
    the count over the first 1000 (n + 1) nodes. -/
theorem acc_eq (c : Dev nD) (g : Fin 512) : ∀ (n : ℕ) (h : n < cfg8.N),
    (outsAt8 V c n h).1 (ix2 (0 : Fin 1) g) = ∑ j ∈ Finset.range (1000 * (n + 1)), sumTerm V c g j
    ∧ (outsAt8 V c n h).2 (ix2 (0 : Fin 1) g) = ∑ j ∈ Finset.range (1000 * (n + 1)), cntTerm V c g j
  | 0, h => by
    rw [outs_first V c h]
    refine ⟨(sum_step_apply (vtile V c ⟨0, h⟩) (gtile V c ⟨0, h⟩) (k8_pay1 (F := Ideal)) g).trans ?_,
      (cnt_step_apply (gtile V c ⟨0, h⟩) (k8_pay2 (F := Ideal)) g).trans ?_⟩
    · rw [zero_sum_apply, zero_add, tile_sum]
      exact Finset.sum_congr rfl fun r _ => by rw [Nat.mul_zero, Nat.zero_add]
    · rw [zero_cnt_apply, zero_add, tile_cnt]
      exact Finset.sum_congr rfl fun r _ => by rw [Nat.mul_zero, Nat.zero_add]
  | n + 1, h => by
    obtain ⟨ih1, ih2⟩ := acc_eq c g n (Nat.lt_of_succ_lt h)
    rw [outs_later V c n h]
    refine ⟨(sum_step_apply (vtile V c ⟨n + 1, h⟩) (gtile V c ⟨n + 1, h⟩) (outsAt8 V c n (Nat.lt_of_succ_lt h)).1 g).trans ?_,
      (cnt_step_apply (gtile V c ⟨n + 1, h⟩) (outsAt8 V c n (Nat.lt_of_succ_lt h)).2 g).trans ?_⟩
    · rw [ih1, tile_sum, show 1000 * (n + 1 + 1) = 1000 * (n + 1) + 1000 from by ring, Finset.sum_range_add]
    · rw [ih2, tile_cnt, show 1000 * (n + 1 + 1) = 1000 * (n + 1) + 1000 from by ring, Finset.sum_range_add]

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

/-! ## The reference's scatter-sums at a graph

The host's accumulating scatter at graph g is the operand there plus the sum of the updates that land on g;
update k lands on g exactly when its index word, read signed, is g. So it is the operand plus the sum over ALL
nodes of the update times the same indicator the kernel's comparison computes. -/

/-- A rank-1 index is its one coordinate. -/
def idx1Equiv (n : ℕ) : (⟨1, ![n]⟩ : Shape).Idx ≃ Fin n where
  toFun j := j 0
  invFun := ix1
  left_inv j := (eq_ix1 j).symm
  right_inv _ := rfl

/-- Row k of a one-column index array, in either spelling. -/
theorem ixP_eq_ix2 {n : ℕ} (k : Fin n) : StableHlo.Predicate.ixP k = ix2 k (0 : Fin 1) := by
  funext a
  match a with
  | ⟨0, _⟩ => rfl
  | ⟨1, _⟩ => rfl

/-- The pooling scatter-sum at graph g. -/
theorem scatterAdd_apply (x : FVec Ideal Cert.ReferenceIdeal.S512 .f32) (ids : IVec Cert.ReferenceIdeal.S100000x1 32)
    (upd : FVec Ideal Cert.ReferenceIdeal.S100000 .f32) (g : Fin 512) :
    Host.scatterAdd (F := Ideal) Cert.ReferenceIdeal.scatter_S512_S100000x1_S100000_n_0_0_1 x ids upd (ix1 g)
      = x (ix1 g) + ∑ k : Fin 100000, upd (ix1 k) * ind (ids (ix2 k (0 : Fin 1))) g := by
  show Ideal.hostScatterAdd Cert.ReferenceIdeal.scatter_S512_S100000x1_S100000_n_0_0_1 x ids upd (ix1 g) = _
  unfold Ideal.hostScatterAdd
  refine congrArg (x (ix1 g) + ·) ?_
  rw [Finset.filter_congr (fun j _ => Cert.LibScatterSet.resultIdx?_eq_some_iff
    Cert.ReferenceIdeal.scatter_S512_S100000x1_S100000_n_0_0_1 rfl rfl rfl rfl ids j g), Finset.sum_filter]
  refine Fintype.sum_equiv (idx1Equiv 100000) _ (fun k => upd (ix1 k) * ind (ids (ix2 k (0 : Fin 1))) g) fun j => ?_
  obtain ⟨k, rfl⟩ : ∃ k : Fin 100000, j = ix1 k := ⟨j 0, eq_ix1 j⟩
  show (if (ids (StableHlo.Predicate.ixP k)).toInt = (g.val : ℤ) then upd (ix1 k) else 0)
    = upd (ix1 k) * ind (ids (ix2 k (0 : Fin 1))) g
  rw [ixP_eq_ix2]
  unfold ind
  rw [mul_ite, mul_one, mul_zero]

/-- A [100000, 1] column reshaped to [100000] reads, at k, row k. -/
theorem reshape_col_apply {α : Type} (v : Cert.ReferenceIdeal.S100000x1.Idx → α)
    (h : Cert.ReferenceIdeal.S100000x1.ShapeCasts Cert.ReferenceIdeal.S100000) (k : Fin 100000) :
    shapeCast Cert.ReferenceIdeal.S100000 v h (ix1 k) = v (ix2 k (0 : Fin 1)) :=
  shapeCast_apply v h _ _ (by
    rw [Shape.rowMajor_val_two, Shape.rowMajor_val_one]
    show k.val * 1 + 0 = k.val
    omega)

variable (V : (c : Dev nD) → (b : Ref sig .tc) → Buf (Elt Ideal) ((c : Thread nD τ).loc b))

/-- The reference's pooled sum at graph g: the sum of the contributions of all 100000 nodes. -/
theorem poolSum_apply (c : Dev nD) (h : Cert.ReferenceIdeal.S100000x1.ShapeCasts Cert.ReferenceIdeal.S100000) (g : Fin 512) :
    Cert.Spec.poolSum (shapeCast Cert.ReferenceIdeal.S100000 (vals V c) h) (gids V c) (ix1 g)
      = ∑ j ∈ Finset.range 100000, sumTerm V c g j := by
  unfold Cert.Spec.poolSum
  rw [scatterAdd_apply, broadcastInDim_scalar_apply, constant_apply, Ideal.ofBits_zero_f32, zero_add,
    ← Fin.sum_univ_eq_sum_range (fun j => sumTerm V c g j) 100000]
  refine Finset.sum_congr rfl fun k _ => ?_
  unfold sumTerm valN idN
  rw [dif_pos k.isLt, dif_pos k.isLt, reshape_col_apply]

/-- The reference's pooled count at graph g: the number of nodes whose id is g. -/
theorem poolCnt_apply (c : Dev nD) (g : Fin 512) :
    Cert.Spec.poolCnt (gids V c) (ix1 g) = ∑ j ∈ Finset.range 100000, cntTerm V c g j := by
  unfold Cert.Spec.poolCnt
  rw [scatterAdd_apply, broadcastInDim_scalar_apply, constant_apply, Ideal.ofBits_zero_f32, zero_add,
    ← Fin.sum_univ_eq_sum_range (fun j => cntTerm V c g j) 100000]
  refine Finset.sum_congr rfl fun k _ => ?_
  unfold cntTerm idN
  rw [dif_pos k.isLt, broadcastInDim_scalar_apply, constant_apply, Ideal.ofBits_one_f32, one_mul]

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## After the last point

The accumulators' block index never moves, so each is written back once, at point 99, and that one block is
the whole [1, 512] array. -/

/-- The last point of the grid. -/
abbrev tLast : Fin cfg8.N := ⟨99, by decide⟩

/-- The reference's pooled sums as the [1, 512] row the kernel's array is. -/
abbrev sumRow (c : Dev nD) : Vec Ideal S1x512 .f32 :=
  shapeCast S1x512 (Cert.Spec.poolSum
    (shapeCast Cert.ReferenceIdeal.S100000 (V c (Pipeline.arrRef spec8 0)) Cert.ReferenceIdeal.Gen.shapeCasts_S100000x1_S100000)
    (V c (Pipeline.arrRef spec8 1))) shapeCasts_S512_S1x512

/-- The reference's pooled counts as a [1, 512] row. -/
abbrev cntRow (c : Dev nD) : Vec Ideal S1x512 .f32 :=
  shapeCast S1x512 (Cert.Spec.poolCnt (V c (Pipeline.arrRef spec8 1))) shapeCasts_S512_S1x512

/-- After the last point the sum accumulator is the reference's pooled sums: both are, at graph g, the sum of
    the contributions of all 100000 nodes. -/
theorem sum_last (c : Dev nD) : (outsAt8 V c tLast.val tLast.isLt).1 = sumRow V c := by
  funext j
  obtain ⟨u, g, rfl⟩ : ∃ (u : Fin 1) (g : Fin 512), j = ix2 u g := ⟨j 0, j 1, eq_ix2 j⟩
  obtain rfl : u = 0 := Subsingleton.elim _ _
  refine ((acc_eq V c g 99 tLast.isLt).1).trans ?_
  refine ((shapeCast_a_1a_apply _ shapeCasts_S512_S1x512 (0 : Fin 1) g).trans ?_).symm
  exact poolSum_apply V c _ g

/-- After the last point the count accumulator is the reference's pooled counts. -/
theorem cnt_last (c : Dev nD) : (outsAt8 V c tLast.val tLast.isLt).2 = cntRow V c := by
  funext j
  obtain ⟨u, g, rfl⟩ : ∃ (u : Fin 1) (g : Fin 512), j = ix2 u g := ⟨j 0, j 1, eq_ix2 j⟩
  obtain rfl : u = 0 := Subsingleton.elim _ _
  refine ((acc_eq V c g 99 tLast.isLt).2).trans ?_
  refine ((shapeCast_a_1a_apply _ shapeCasts_S512_S1x512 (0 : Fin 1) g).trans ?_).symm
  exact poolCnt_apply V c g

/-- Only the last point writes the accumulators back. -/
theorem eq_last_of_flush (t : Fin cfg8.N) (h : t.val % 100 = 99) : t = tLast := by
  have hN : t.val < 100 := lt_of_lt_of_eq t.isLt N_8
  exact Fin.ext (by show t.val = 99; omega)

/-- At the last point both accumulator windows sit at offset zero on either axis. -/
theorem acc_offsets :
    ((fun a => win8_2.index tLast a * main_v94_0.ty.shape.size a) = fun _ => 0)
    ∧ ((fun a => win8_3.index tLast a * main_v94_1.ty.shape.size a) = fun _ => 0) :=
  ⟨funext fun a => by fin_cases a <;> decide, funext fun a => by fin_cases a <;> decide⟩

/-- The one write-back of the sum accumulator writes the reference's row: block (0, 0) of a [1, 512] array,
    read through zero offsets, is the array. -/
theorem sum_flushed (c : Dev nD) (t : Fin cfg8.N) (hf : (cfg8.win 2).flush t = true) :
    (dat8 V c).flushed 2 t = ((cfg8.win 2).blk t).view.read (Elt Ideal) (sumRow V c) := by
  obtain rfl := eq_last_of_flush t ((flush8_2 t).mp hf)
  show (cfg8.win 2).cut (grid8.coords tLast) ((dat8 V c).after 2 tLast) = _
  rw [after8_2, sum_last]
  exact (Memref.read_access_unit_zero (Elt Ideal) main_v94_0 acc_offsets.1
    (fun a => by rw [congrFun acc_offsets.1 a]; simp) (sumRow V c)).symm

/-- The one write-back of the count accumulator likewise. -/
theorem cnt_flushed (c : Dev nD) (t : Fin cfg8.N) (hf : (cfg8.win 3).flush t = true) :
    (dat8 V c).flushed 3 t = ((cfg8.win 3).blk t).view.read (Elt Ideal) (cntRow V c) := by
  obtain rfl := eq_last_of_flush t ((flush8_3 t).mp hf)
  show (cfg8.win 3).cut (grid8.coords tLast) ((dat8 V c).after 3 tLast) = _
  rw [after8_3, cnt_last]
  exact (Memref.read_access_unit_zero (Elt Ideal) main_v94_1 acc_offsets.2
    (fun a => by rw [congrFun acc_offsets.2 a]; simp) (cntRow V c)).symm

end Cert.KVal.Pool

end

noncomputable section

namespace Cert.KVal.Pool

open Idealize.ShloMosaic Idealize.ShloMosaic.TcCoe Idealize.SL.Sem Idealize.ShloMosaic.ValueIdx
open Cert.KernelIdeal Cert.KernelIdeal.Gen

/-- At the last point each accumulator's block starts at 0 on either axis and has the array's extents 1 and 512. -/
theorem acc_block :
    (win8_2.index tLast 0 * win8_2.size 0 = 0 ∧ win8_2.xsize (grid8.coords tLast) 0 = 1
      ∧ win8_2.index tLast 1 * win8_2.size 1 = 0 ∧ win8_2.xsize (grid8.coords tLast) 1 = 512)
    ∧ (win8_3.index tLast 0 * win8_3.size 0 = 0 ∧ win8_3.xsize (grid8.coords tLast) 0 = 1
      ∧ win8_3.index tLast 1 * win8_3.size 1 = 0 ∧ win8_3.xsize (grid8.coords tLast) 1 = 512) := by
  decide +kernel

/-- Every index of the [1, 512] sum array lies in the block the last point writes back. -/
theorem sum_cover (c : Dev nD) (i : ((cfg8.win 2).arr.view.loc (c.tc : Thread nD τ)).2.ty.Idx) :
    ∃ t : Fin cfg8.N, (cfg8.win 2).flush t = true ∧ i ∈ ((cfg8.win 2).blk t).view.set := by
  refine ⟨tLast, (flush8_2 tLast).mpr rfl, ?_⟩
  show i ∈ ((View.whole main_v94_0).slice (win8_2.rect tLast)).set
  rw [View.set_slice_whole, Rect.mem_set_unit]
  have h0 : (i 0 : Nat) < 1 := (i 0).isLt
  have h1 : (i 1 : Nat) < 512 := (i 1).isLt
  obtain ⟨e0, s0, e1, s1⟩ := acc_block.1
  intro a
  match a with
  | ⟨0, _⟩ =>
    show win8_2.index tLast 0 * win8_2.size 0 ≤ (i 0 : Nat)
      ∧ (i 0 : Nat) < win8_2.index tLast 0 * win8_2.size 0 + win8_2.xsize (grid8.coords tLast) 0
    rw [e0, s0]; omega
  | ⟨1, _⟩ =>
    show win8_2.index tLast 1 * win8_2.size 1 ≤ (i 1 : Nat)
      ∧ (i 1 : Nat) < win8_2.index tLast 1 * win8_2.size 1 + win8_2.xsize (grid8.coords tLast) 1
    rw [e1, s1]; omega

/-- Every index of the [1, 512] count array lies in the block the last point writes back. -/
theorem cnt_cover (c : Dev nD) (i : ((cfg8.win 3).arr.view.loc (c.tc : Thread nD τ)).2.ty.Idx) :
    ∃ t : Fin cfg8.N, (cfg8.win 3).flush t = true ∧ i ∈ ((cfg8.win 3).blk t).view.set := by
  refine ⟨tLast, (flush8_3 tLast).mpr rfl, ?_⟩
  show i ∈ ((View.whole main_v94_1).slice (win8_3.rect tLast)).set
  rw [View.set_slice_whole, Rect.mem_set_unit]
  have h0 : (i 0 : Nat) < 1 := (i 0).isLt
  have h1 : (i 1 : Nat) < 512 := (i 1).isLt
  obtain ⟨e0, s0, e1, s1⟩ := acc_block.2
  intro a
  match a with
  | ⟨0, _⟩ =>
    show win8_3.index tLast 0 * win8_3.size 0 ≤ (i 0 : Nat)
      ∧ (i 0 : Nat) < win8_3.index tLast 0 * win8_3.size 0 + win8_3.xsize (grid8.coords tLast) 0
    rw [e0, s0]; omega
  | ⟨1, _⟩ =>
    show win8_3.index tLast 1 * win8_3.size 1 ≤ (i 1 : Nat)
      ∧ (i 1 : Nat) < win8_3.index tLast 1 * win8_3.size 1 + win8_3.xsize (grid8.coords tLast) 1
    rw [e1, s1]; omega

end Cert.KVal.Pool

end

noncomputable section

namespace Cert.KVal

open Idealize.ShloMosaic Idealize.ShloMosaic.TcCoe Idealize.SL.Sem
open Cert.KernelIdeal Cert.KernelIdeal.Gen

-- the TensorCore's buffer contents when the region is entered
variable (V : (c : Dev nD) → (b : Ref sig .tc) → Buf (Elt Ideal) ((c : Thread nD τ).loc b))

/-- After the 100 node tiles of the pooling kernel the sum accumulator holds, per graph g, the sum of the node values
    of the nodes whose graph id is g: point 0 zeroes the accumulator, every point adds its 1000 nodes' values times
    the 0/1 indicator "id = g", and a node whose id is outside [0, 512) matches no g. -/
theorem pool_sum_final (c : Dev nD) :
    (dat8 V c).arrAt 2 cfg8.N
      = shapeCast S1x512 (Cert.Spec.poolSum
          (shapeCast Cert.ReferenceIdeal.S100000 (V c (Pipeline.arrRef spec8 0)) Cert.ReferenceIdeal.Gen.shapeCasts_S100000x1_S100000)
          (V c (Pipeline.arrRef spec8 1))) shapeCasts_S512_S1x512 :=
  (dat8 V c).arrAt_eq_of_cover 2 (Pool.sumRow V c) (Pool.sum_flushed V c) (Pool.sum_cover c)

/-- The count accumulator holds, per graph g, the number of nodes whose graph id is g. -/
theorem pool_cnt_final (c : Dev nD) :
    (dat8 V c).arrAt 3 cfg8.N
      = shapeCast S1x512 (Cert.Spec.poolCnt (V c (Pipeline.arrRef spec8 1))) shapeCasts_S512_S1x512 :=
  (dat8 V c).arrAt_eq_of_cover 3 (Pool.cntRow V c) (Pool.cnt_flushed V c) (Pool.cnt_cover c)

end Cert.KVal

end
-- ==== Proof.Keep.lean ====
/- Which buffers are left alone between which boundaries of the program's run: an argument array from the launch up to
   the segment that reads it, the edge lists and the normalisation (computed before the first kernel) up to each layer's
   aggregation, and the last bias kernel's output across the one host operation before the pooling kernel. Each step is the
   frame's own fact for one segment: a kernel region changes only its own arrays; a host stretch changes only what its
   operations write. -/
import proofs.«423238_j45140106281309_2_alg».proof.Proof.Gen.KernelIdeal.Frame

set_option maxRecDepth 16384

noncomputable section

namespace Cert.KVal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The argument main_arg0 is as launched when boundary 3 is reached. -/
theorem main_arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The argument main_arg3 is as launched when boundary 3 is reached. -/
theorem main_arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The argument main_arg4 is as launched when boundary 4 is reached. -/
theorem main_arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The argument main_arg5 is as launched when boundary 6 is reached. -/
theorem main_arg5_at6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The argument main_arg6 is as launched when boundary 7 is reached. -/
theorem main_arg6_at7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The argument main_arg7 is as launched when boundary 9 is reached. -/
theorem main_arg7_at9 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The argument main_arg8 is as launched when boundary 10 is reached. -/
theorem main_arg8_at10 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The argument main_arg9 is as launched when boundary 12 is reached. -/
theorem main_arg9_at12 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The argument main_arg10 is as launched when boundary 13 is reached. -/
theorem main_arg10_at13 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The argument main_arg2 is as launched when boundary 15 is reached. -/
theorem main_arg2_at15 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The buffer main_v3 holds at boundary 4 what it held at boundary 3. -/
theorem main_v3_3_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The buffer main_v3 holds at boundary 7 what it held at boundary 3. -/
theorem main_v3_3_7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

/-- The buffer main_v3 holds at boundary 10 what it held at boundary 3. -/
theorem main_v3_3_10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

/-- The buffer main_v3 holds at boundary 13 what it held at boundary 3. -/
theorem main_v3_3_13 (c : Dev nD) : W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

/-- The buffer main_v6 holds at boundary 4 what it held at boundary 3. -/
theorem main_v6_3_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The buffer main_v6 holds at boundary 7 what it held at boundary 3. -/
theorem main_v6_3_7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- The buffer main_v6 holds at boundary 10 what it held at boundary 3. -/
theorem main_v6_3_10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- The buffer main_v6 holds at boundary 13 what it held at boundary 3. -/
theorem main_v6_3_13 (c : Dev nD) : W13 m ρ c (Proc.devRef .tc main_v6) = W3 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- The buffer main_v29 holds at boundary 4 what it held at boundary 3. -/
theorem main_v29_3_4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The buffer main_v29 holds at boundary 7 what it held at boundary 3. -/
theorem main_v29_3_7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

/-- The buffer main_v29 holds at boundary 10 what it held at boundary 3. -/
theorem main_v29_3_10 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

/-- The buffer main_v29 holds at boundary 13 what it held at boundary 3. -/
theorem main_v29_3_13 (c : Dev nD) : W13 m ρ c (Proc.devRef .tc main_v29) = W3 m ρ c (Proc.devRef .tc main_v29) :=
  calc W13 m ρ c (Proc.devRef .tc main_v29)
    _ = W12 m ρ c (Proc.devRef .tc main_v29) := W13_of_ne m ρ c main_v29 (by decide)
    _ = W11 m ρ c (Proc.devRef .tc main_v29) := W12_of_ne m ρ c main_v29 (by decide)
    _ = W10 m ρ c (Proc.devRef .tc main_v29) := StableHlo.after_of_forall_not_mem (b := Proc.devRef .tc main_v29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

/-- The buffer main_v92 holds at boundary 16 what it held at boundary 15. -/
theorem main_v92_15_16 (c : Dev nD) : W16 m ρ c (Proc.devRef .tc main_v92) = W15 m ρ c (Proc.devRef .tc main_v92) :=
  calc W16 m ρ c (Proc.devRef .tc main_v92)
    _ = W15 m ρ c (Proc.devRef .tc main_v92) := StableHlo.after_of_forall_not_mem (b := Proc.devRef .tc main_v92) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KVal.Keep

end
-- ==== Proof.Stage0.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first stretch of host operations (launch → boundary 1)

It builds the two edge lists with the self-loops appended, the degree as a scatter-sum of ones by the source
column, the test "degree > 0", the reciprocal square root of the degree, and a zero constant. Each result is
read back through the stretch's fold and is the corresponding function of the edge-index argument. -/

set_option maxHeartbeats 400000 in
theorem w1_v3 (c : Dev nD) :
    W1 m ρ c (Proc.devRef .tc main_v3) = Cert.Spec.rowIdx (m ((c : Thread nD τ).loc main_arg1)) := by
  show StableHlo.after hostOps0 (W0 m ρ c) (Proc.devRef .tc main_v3) = _
  after_results
  rfl

set_option maxHeartbeats 400000 in
theorem w1_v6 (c : Dev nD) :
    W1 m ρ c (Proc.devRef .tc main_v6) = Cert.Spec.colIdx (m ((c : Thread nD τ).loc main_arg1)) := by
  show StableHlo.after hostOps0 (W0 m ρ c) (Proc.devRef .tc main_v6) = _
  after_results
  rfl

set_option maxHeartbeats 400000 in
theorem w1_v12 (c : Dev nD) :
    W1 m ρ c (Proc.devRef .tc main_v12)
      = cmpf .ogt (Cert.Spec.deg (m ((c : Thread nD τ).loc main_arg1)))
          (broadcastInDim S100000 ![] bcast_S_S100000 (constant (F := Ideal) S_ .f32 0x00000000#32)) := by
  show StableHlo.after hostOps0 (W0 m ρ c) (Proc.devRef .tc main_v12) = _
  after_results
  rfl

set_option maxHeartbeats 400000 in
theorem w1_v13 (c : Dev nD) :
    W1 m ρ c (Proc.devRef .tc main_v13) = Host.rsqrt (Cert.Spec.deg (m ((c : Thread nD τ).loc main_arg1))) := by
  show StableHlo.after hostOps0 (W0 m ρ c) (Proc.devRef .tc main_v13) = _
  after_results
  rfl

set_option maxHeartbeats 400000 in
theorem w1_cst_2 (c : Dev nD) :
    W1 m ρ c (Proc.devRef .tc main_cst_2) = constant (F := Ideal) S_ .f32 0x00000000#32 := by
  show StableHlo.after hostOps0 (W0 m ρ c) (Proc.devRef .tc main_cst_2) = _
  after_results

/-! ## The second stretch (boundary 1 → 2): the three operations of the local function "where"

From ANY contents at its entry: the select of the reciprocal square root under the test, zero elsewhere. -/

set_option maxHeartbeats 400000 in
theorem where_v14 (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  after_results
  rfl

/-- At boundary 2 the buffer of the local function's result holds deg⁻¹ᐟ² (zero where the degree is zero). -/
theorem w2_v14 (c : Dev nD) :
    W2 m ρ c (Proc.devRef .tc main_v14) = Cert.Spec.dinv (m ((c : Thread nD τ).loc main_arg1)) := by
  show StableHlo.after hostOps0_1 (W1 m ρ c) (Proc.devRef .tc main_v14) = _
  rw [where_v14, w1_v12, w1_v13, w1_cst_2]
  rfl

/-- The two edge lists are not written by the local function. -/
theorem w2_v3 (c : Dev nD) :
    W2 m ρ c (Proc.devRef .tc main_v3) = Cert.Spec.rowIdx (m ((c : Thread nD τ).loc main_arg1)) :=
  (StableHlo.after_of_forall_not_mem (b := Proc.devRef .tc main_v3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w1_v3 m ρ c)
theorem w2_v6 (c : Dev nD) :
    W2 m ρ c (Proc.devRef .tc main_v6) = Cert.Spec.colIdx (m ((c : Thread nD τ).loc main_arg1)) :=
  (StableHlo.after_of_forall_not_mem (b := Proc.devRef .tc main_v6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w1_v6 m ρ c)

/-! ## The third stretch (boundary 2 → 3)

From ANY contents at its entry: each edge list is wrapped once (a negative index has the node count added), made a
one-column table, and used to gather from the dinv buffer; the normalisation is the product of the two gathers. -/

set_option maxHeartbeats 400000 in
theorem norm_v29 (V : Valuation τ sig (Elt Ideal)) :
    StableHlo.after hostOps0_2 V (Proc.devRef .tc main_v29)
      = (mulf
          (Host.gather gather_S100000_S3300000x1_S3300000_n_0_n_n_0_1_1 (V (Proc.devRef .tc main_v14))
            (broadcastInDim S3300000x1 ![0] bcast_S3300000_S3300000x1_0
              (select (cmpi .slt (V (Proc.devRef .tc main_v3)) (broadcastInDim S3300000 ![] bcast_S_S3300000 (constantI S_ 32 0#32)))
                (addi (V (Proc.devRef .tc main_v3)) (broadcastInDim S3300000 ![] bcast_S_S3300000 (constantI S_ 32 100000#32)))
                (V (Proc.devRef .tc main_v3)))))
          (Host.gather gather_S100000_S3300000x1_S3300000_n_0_n_n_0_1_1 (V (Proc.devRef .tc main_v14))
            (broadcastInDim S3300000x1 ![0] bcast_S3300000_S3300000x1_0
              (select (cmpi .slt (V (Proc.devRef .tc main_v6)) (broadcastInDim S3300000 ![] bcast_S_S3300000 (constantI S_ 32 0#32)))
                (addi (V (Proc.devRef .tc main_v6)) (broadcastInDim S3300000 ![] bcast_S_S3300000 (constantI S_ 32 100000#32)))
                (V (Proc.devRef .tc main_v6))))) : FVec Ideal S3300000 .f32) := by
  after_results_simp

/-! ## Boundary 3 -/

/-- When the first kernel is reached, the buffer of the edges' targets holds the target list with the self-loops appended. -/
theorem st_row (c : Dev nD) :
    W3 m ρ c (Proc.devRef .tc main_v3) = Cert.Spec.rowIdx (m ((c : Thread nD τ).loc main_arg1)) :=
  (StableHlo.after_of_forall_not_mem (b := Proc.devRef .tc main_v3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w2_v3 m ρ c)
/-- … and the buffer of the edges' sources the source list with the self-loops appended. -/
theorem st_col (c : Dev nD) :
    W3 m ρ c (Proc.devRef .tc main_v6) = Cert.Spec.colIdx (m ((c : Thread nD τ).loc main_arg1)) :=
  (StableHlo.after_of_forall_not_mem (b := Proc.devRef .tc main_v6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w2_v6 m ρ c)
/-- … and the normalisation buffer every edge's dinv[target] · dinv[source]. -/
theorem st_norm (c : Dev nD) :
    W3 m ρ c (Proc.devRef .tc main_v29) = Cert.Spec.norm (m ((c : Thread nD τ).loc main_arg1)) := by
  show StableHlo.after hostOps0_2 (W2 m ρ c) (Proc.devRef .tc main_v29) = _
  rw [norm_v29, w2_v14, w2_v3, w2_v6]
  rfl

end Cert.KVal

end
-- ==== Proof.Layer1.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The host stretch between the first dense kernel and the first activation kernel (boundary 4 → 5)

From ANY contents at its entry. The aggregation: the source list wrapped once and made a one-column table, the
rows of the dense kernel's output gathered by it, each scaled by the edge's normalisation (a column, broadcast
across the 25 features), and the scaled rows scatter-summed by the target column into a zero table. -/

set_option maxHeartbeats 400000 in
theorem agg_v43 (V : Valuation τ sig (Elt Ideal)) :
    StableHlo.after hostOps1 V (Proc.devRef .tc main_v43)
      = (Host.scatterAdd scatter_S100000x25_S3300000x1_S3300000x25_1_0_0_1
          (broadcastInDim S100000x25 ![] bcast_S_S100000x25 (constant (F := Ideal) S_ .f32 0x00000000#32))
          (broadcastInDim S3300000x1 ![0] bcast_S3300000_S3300000x1_0 (V (Proc.devRef .tc main_v3)))
          (mulf
            (Host.gather gather_S100000x25_S3300000x1_S3300000x25_1_0_n_n_0_1_125 (V (Proc.devRef .tc main_v30))
              (broadcastInDim S3300000x1 ![0] bcast_S3300000_S3300000x1_0
                (select (cmpi .slt (V (Proc.devRef .tc main_v6)) (broadcastInDim S3300000 ![] bcast_S_S3300000 (constantI S_ 32 0#32)))
                  (addi (V (Proc.devRef .tc main_v6)) (broadcastInDim S3300000 ![] bcast_S_S3300000 (constantI S_ 32 100000#32)))
                  (V (Proc.devRef .tc main_v6)))))
            (broadcastInDim S3300000x25 ![0, 1] bcast_S3300000x1_S3300000x25_0_1
              (broadcastInDim S3300000x1 ![0] bcast_S3300000_S3300000x1_0 (V (Proc.devRef .tc main_v29)))))
          : FVec Ideal S100000x25 .f32) := by
  after_results_simp

/-- The bias vector reshaped to a one-row table. -/
theorem bias_v44 (V : Valuation τ sig (Elt Ideal)) :
    StableHlo.after hostOps1 V (Proc.devRef .tc main_v44)
      = (shapeCast S1x25 (V (Proc.devRef .tc main_arg4)) shapeCasts_S25_S1x25 : FVec Ideal S1x25 .f32) := by
  after_results_simp
  rfl

/-- A vector of 25 entries reshaped to one row of 25 reads, at row 0 and column j, the vector's entry j: the same
    table as the broadcast of the vector along the column axis. -/
theorem reshape_row25 (b : FVec Ideal S25 .f32) :
    (shapeCast S1x25 b shapeCasts_S25_S1x25 : FVec Ideal S1x25 .f32) = Cert.Spec.biasRow1 b := by
  funext j
  refine (shapeCast_addUnit_apply ![25] b shapeCasts_S25_S1x25 j).trans ?_
  unfold Cert.Spec.biasRow1 broadcastInDim
  refine congrArg b (funext fun a => ?_)
  obtain rfl : a = 0 := Subsingleton.elim _ _
  rw [dif_neg (by decide)]
  exact Fin.ext rfl

/-! ## Layer 1 -/

/-- Layer 1, from the launch to the first activation's output: gelu (aggregate (x · W₁) + b₁) — given what the first
    dense kernel and the first activation kernel leave in their output arrays, and what the edge lists and the
    normalisation hold when the first kernel is reached. -/
theorem layer1 (c : Dev nD)
    (hrow : W3 m ρ c (Proc.devRef .tc main_v3) = Cert.Spec.rowIdx (m ((c : Thread nD τ).loc main_arg1)))
    (hcol : W3 m ρ c (Proc.devRef .tc main_v6) = Cert.Spec.colIdx (m ((c : Thread nD τ).loc main_arg1)))
    (hnorm : W3 m ρ c (Proc.devRef .tc main_v29) = Cert.Spec.norm (m ((c : Thread nD τ).loc main_arg1)))
    (hlin : ∀ V : (c : Dev nD) → (b : Ref sig .tc) → Buf (Elt Ideal) ((c : Thread nD τ).loc b), (dat0 V c).arrAt 2 cfg0.N
      = Cert.Spec.lin1 (V c (Pipeline.arrRef spec0 0)) (V c (Pipeline.arrRef spec0 1)))
    (hact : ∀ V : (c : Dev nD) → (b : Ref sig .tc) → Buf (Elt Ideal) ((c : Thread nD τ).loc b), (dat1 V c).arrAt 2 cfg1.N
      = Cert.Spec.gelu25 (Cert.Spec.bias1 (V c (Pipeline.arrRef spec1 0)) (V c (Pipeline.arrRef spec1 1)))) :
    W6 m ρ c (Proc.devRef .tc main_v45)
      = Cert.Spec.h1 (m ((c : Thread nD τ).loc main_arg0)) (m ((c : Thread nD τ).loc main_arg1)) (m ((c : Thread nD τ).loc main_arg3)) (m ((c : Thread nD τ).loc main_arg4)) := by
  -- the dense kernel's output array at boundary 4: x · W₁
  have e30 : W4 m ρ c (Proc.devRef .tc main_v30)
      = Cert.Spec.lin1 (m ((c : Thread nD τ).loc main_arg0)) (m ((c : Thread nD τ).loc main_arg3)) := by
    refine (W4_arr m ρ c 2).trans ((hlin (V3 m ρ)).trans ?_)
    show Cert.Spec.lin1 (W3 m ρ c (Proc.devRef .tc main_arg0)) (W3 m ρ c (Proc.devRef .tc main_arg3)) = _
    rw [Keep.main_arg0_at3, Keep.main_arg3_at3]
  -- the edge lists and the normalisation are as they were when the first kernel was reached
  have e3 := (Keep.main_v3_3_4 m ρ c).trans hrow
  have e6 := (Keep.main_v6_3_4 m ρ c).trans hcol
  have e29 := (Keep.main_v29_3_4 m ρ c).trans hnorm
  have e4 := Keep.main_arg4_at4 m ρ c
  -- boundary 5: the aggregation and the bias row
  have e43 : W5 m ρ c (Proc.devRef .tc main_v43)
      = Cert.Spec.agg1 (Cert.Spec.lin1 (m ((c : Thread nD τ).loc main_arg0)) (m ((c : Thread nD τ).loc main_arg3)))
          (m ((c : Thread nD τ).loc main_arg1)) := by
    show StableHlo.after hostOps1 (W4 m ρ c) (Proc.devRef .tc main_v43) = _
    rw [agg_v43, e30, e3, e6, e29]
    rfl
  have e44 : W5 m ρ c (Proc.devRef .tc main_v44) = Cert.Spec.biasRow1 (m ((c : Thread nD τ).loc main_arg4)) := by
    show StableHlo.after hostOps1 (W4 m ρ c) (Proc.devRef .tc main_v44) = _
    rw [bias_v44, e4]
    exact reshape_row25 _
  -- boundary 6: the activation kernel's output array
  refine (W6_arr m ρ c 2).trans ((hact (V5 m ρ)).trans ?_)
  show Cert.Spec.gelu25 (Cert.Spec.bias1 (W5 m ρ c (Proc.devRef .tc main_v43)) (W5 m ρ c (Proc.devRef .tc main_v44))) = _
  rw [e43, e44]
  rfl

end Cert.KVal

end
-- ==== Proof.Layer2.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

/-- A vector of length `n` reshaped to a one-row table is the vector broadcast along the columns: both read the
    vector at the column index (the row-major position of entry (0, k) of a one-row table is k). -/
private theorem reshape_row_eq_bcast {α : Type} (n : Nat) (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ b hc = broadcastInDim ⟨2, ![1, n]⟩ ![1] hb b := by
  funext j
  obtain ⟨a, k, rfl⟩ : ∃ a k, j = ValueIdx.ix2 a k := ⟨j 0, j 1, ValueIdx.eq_ix2 j⟩
  rw [shapeCast_apply b hc _ (ValueIdx.ix1 k) ?_, broadcastInDim_apply _ hb b _ (ValueIdx.ix1 k) ?_]
  · intro a'
    match a' with
    | ⟨0, _⟩ =>
      show k.val = if n = 1 then 0 else k.val
      have := k.isLt
      split <;> omega
  · rw [Shape.rowMajor_val_one, Shape.rowMajor_val_two]
    show k.val = a.val * n + k.val
    have := a.isLt
    have ha : a.val = 0 := by omega
    rw [ha]; omega

/-- The host operations between the second dense kernel and the second bias kernel, read at the buffer the
    scatter-sum writes: with the dense kernel's output holding `h` and the index and normalisation buffers holding
    the graph's targets, sources and edge weights, it holds layer 2's aggregation of `h` (wrap the sources, gather
    their rows of `h`, scale each by its edge's weight, sum per target). -/
private theorem host3_v59 (V : Valuation τ sig (Elt Ideal)) (ei : IVec Cert.ReferenceIdeal.S2x3200000 32)
    (h : FVec Ideal Cert.ReferenceIdeal.S100000x18 .f32)
    (h46 : V (Proc.devRef .tc main_v46) = h)
    (hrow : V (Proc.devRef .tc main_v3) = Cert.Spec.rowIdx ei)
    (hcol : V (Proc.devRef .tc main_v6) = Cert.Spec.colIdx ei)
    (hnorm : V (Proc.devRef .tc main_v29) = Cert.Spec.norm ei) :
    StableHlo.after hostOps3 V (Proc.devRef .tc main_v59) = Cert.Spec.agg2 h ei := by
  after_results_simp
  rw [h46, hrow, hcol, hnorm]
  rfl

/-- The same stretch read at the buffer the reshape writes: the bias vector as a one-row table. -/
private theorem host3_v60 (V : Valuation τ sig (Elt Ideal)) (b : FVec Ideal Cert.ReferenceIdeal.S18 .f32)
    (hb : V (Proc.devRef .tc main_arg6) = b) :
    StableHlo.after hostOps3 V (Proc.devRef .tc main_v60) = Cert.Spec.biasRow2 b := by
  after_results
  rw [hb]
  exact reshape_row_eq_bcast 18 b _ _

variable (m : (ℓ : Loc nD τ sig) → Buf (Elt Ideal) ℓ) (ρ : Dev nD → PrngReg)

/-- Layer 2: if the first activation's output buffer holds `H` when the second dense kernel is entered, the second
    activation's output buffer ends holding relu (aggregate (H · W₂) + b₂). -/
theorem layer2 (c : Dev nD) (H : FVec Ideal Cert.ReferenceIdeal.S100000x25 .f32)
    (hH : W6 m ρ c (Proc.devRef .tc main_v45) = H)
    (hrow : W3 m ρ c (Proc.devRef .tc main_v3) = Cert.Spec.rowIdx (m ((c : Thread nD τ).loc main_arg1)))
    (hcol : W3 m ρ c (Proc.devRef .tc main_v6) = Cert.Spec.colIdx (m ((c : Thread nD τ).loc main_arg1)))
    (hnorm : W3 m ρ c (Proc.devRef .tc main_v29) = Cert.Spec.norm (m ((c : Thread nD τ).loc main_arg1)))
    (hlin : ∀ V : (c : Dev nD) → (b : Ref sig .tc) → Buf (Elt Ideal) ((c : Thread nD τ).loc b), (dat2 V c).arrAt 2 cfg2.N
      = Cert.Spec.lin2 (V c (Pipeline.arrRef spec2 0)) (V c (Pipeline.arrRef spec2 1)))
    (hact : ∀ V : (c : Dev nD) → (b : Ref sig .tc) → Buf (Elt Ideal) ((c : Thread nD τ).loc b), (dat3 V c).arrAt 2 cfg3.N
      = Cert.Spec.relu18 (Cert.Spec.bias2 (V c (Pipeline.arrRef spec3 0)) (V c (Pipeline.arrRef spec3 1)))) :
    W9 m ρ c (Proc.devRef .tc main_v61)
      = Cert.Spec.relu18 (Cert.Spec.bias2 (Cert.Spec.agg2 (Cert.Spec.lin2 H (m ((c : Thread nD τ).loc main_arg5))) (m ((c : Thread nD τ).loc main_arg1))) (Cert.Spec.biasRow2 (m ((c : Thread nD τ).loc main_arg6)))) := by
  -- the dense kernel's output: H · W₂
  have e46 : W7 m ρ c (Proc.devRef .tc main_v46) = Cert.Spec.lin2 H (m ((c : Thread nD τ).loc main_arg5)) := by
    refine (W7_arr m ρ c 2).trans ?_
    rw [hlin (V6 m ρ)]
    show Cert.Spec.lin2 (W6 m ρ c (Proc.devRef .tc main_v45)) (W6 m ρ c (Proc.devRef .tc main_arg5)) = _
    rw [hH, Keep.main_arg5_at6]
  -- the host stretch: the aggregate and the bias row (the index and weight buffers are still those of boundary 3)
  have e59 : W8 m ρ c (Proc.devRef .tc main_v59)
      = Cert.Spec.agg2 (Cert.Spec.lin2 H (m ((c : Thread nD τ).loc main_arg5))) (m ((c : Thread nD τ).loc main_arg1)) :=
    host3_v59 (W7 m ρ c) _ _ e46 ((Keep.main_v3_3_7 m ρ c).trans hrow) ((Keep.main_v6_3_7 m ρ c).trans hcol)
      ((Keep.main_v29_3_7 m ρ c).trans hnorm)
  have e60 : W8 m ρ c (Proc.devRef .tc main_v60) = Cert.Spec.biasRow2 (m ((c : Thread nD τ).loc main_arg6)) :=
    host3_v60 (W7 m ρ c) _ (Keep.main_arg6_at7 m ρ c)
  -- the bias-and-activation kernel's output
  refine (W9_arr m ρ c 2).trans ?_
  rw [hact (V8 m ρ)]
  show Cert.Spec.relu18 (Cert.Spec.bias2 (W8 m ρ c (Proc.devRef .tc main_v59)) (W8 m ρ c (Proc.devRef .tc main_v60))) = _
  rw [e59, e60]

end Cert.KVal

end
-- ==== Proof.Layer3.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

/-- A vector of length `n` reshaped to a one-row table is the vector broadcast along the columns: both read the
    vector at the column index (the row-major position of entry (0, k) of a one-row table is k). -/
private theorem reshape_row_eq_bcast {α : Type} (n : Nat) (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ b hc = broadcastInDim ⟨2, ![1, n]⟩ ![1] hb b := by
  funext j
  obtain ⟨a, k, rfl⟩ : ∃ a k, j = ValueIdx.ix2 a k := ⟨j 0, j 1, ValueIdx.eq_ix2 j⟩
  rw [shapeCast_apply b hc _ (ValueIdx.ix1 k) ?_, broadcastInDim_apply _ hb b _ (ValueIdx.ix1 k) ?_]
  · intro a'
    match a' with
    | ⟨0, _⟩ =>
      show k.val = if n = 1 then 0 else k.val
      have := k.isLt
      split <;> omega
  · rw [Shape.rowMajor_val_one, Shape.rowMajor_val_two]
    show k.val = a.val * n + k.val
    have := a.isLt
    have ha : a.val = 0 := by omega
    rw [ha]; omega

/-- The host operations between the third dense kernel and the third bias kernel, read at the buffer the
    scatter-sum writes: with the dense kernel's output holding `h` and the index and normalisation buffers holding
    the graph's targets, sources and edge weights, it holds layer 3's aggregation of `h` (wrap the sources, gather
    their rows of `h`, scale each by its edge's weight, sum per target). -/
private theorem host5_v75 (V : Valuation τ sig (Elt Ideal)) (ei : IVec Cert.ReferenceIdeal.S2x3200000 32)
    (h : FVec Ideal Cert.ReferenceIdeal.S100000x12 .f32)
    (h62 : V (Proc.devRef .tc main_v62) = h)
    (hrow : V (Proc.devRef .tc main_v3) = Cert.Spec.rowIdx ei)
    (hcol : V (Proc.devRef .tc main_v6) = Cert.Spec.colIdx ei)
    (hnorm : V (Proc.devRef .tc main_v29) = Cert.Spec.norm ei) :
    StableHlo.after hostOps5 V (Proc.devRef .tc main_v75) = Cert.Spec.agg3 h ei := by
  after_results_simp
  rw [h62, hrow, hcol, hnorm]
  rfl

/-- The same stretch read at the buffer the reshape writes: the bias vector as a one-row table. -/
private theorem host5_v76 (V : Valuation τ sig (Elt Ideal)) (b : FVec Ideal Cert.ReferenceIdeal.S12 .f32)
    (hb : V (Proc.devRef .tc main_arg8) = b) :
    StableHlo.after hostOps5 V (Proc.devRef .tc main_v76) = Cert.Spec.biasRow3 b := by
  after_results
  rw [hb]
  exact reshape_row_eq_bcast 12 b _ _

variable (m : (ℓ : Loc nD τ sig) → Buf (Elt Ideal) ℓ) (ρ : Dev nD → PrngReg)

/-- Layer 3: if the second activation's output buffer holds `H` when the third dense kernel is entered, the third
    activation's output buffer ends holding gelu (aggregate (H · W₃) + b₃). -/
theorem layer3 (c : Dev nD) (H : FVec Ideal Cert.ReferenceIdeal.S100000x18 .f32)
    (hH : W9 m ρ c (Proc.devRef .tc main_v61) = H)
    (hrow : W3 m ρ c (Proc.devRef .tc main_v3) = Cert.Spec.rowIdx (m ((c : Thread nD τ).loc main_arg1)))
    (hcol : W3 m ρ c (Proc.devRef .tc main_v6) = Cert.Spec.colIdx (m ((c : Thread nD τ).loc main_arg1)))
    (hnorm : W3 m ρ c (Proc.devRef .tc main_v29) = Cert.Spec.norm (m ((c : Thread nD τ).loc main_arg1)))
    (hlin : ∀ V : (c : Dev nD) → (b : Ref sig .tc) → Buf (Elt Ideal) ((c : Thread nD τ).loc b), (dat4 V c).arrAt 2 cfg4.N
      = Cert.Spec.lin3 (V c (Pipeline.arrRef spec4 0)) (V c (Pipeline.arrRef spec4 1)))
    (hact : ∀ V : (c : Dev nD) → (b : Ref sig .tc) → Buf (Elt Ideal) ((c : Thread nD τ).loc b), (dat5 V c).arrAt 2 cfg5.N
      = Cert.Spec.gelu12 (Cert.Spec.bias3 (V c (Pipeline.arrRef spec5 0)) (V c (Pipeline.arrRef spec5 1)))) :
    W12 m ρ c (Proc.devRef .tc main_v77)
      = Cert.Spec.gelu12 (Cert.Spec.bias3 (Cert.Spec.agg3 (Cert.Spec.lin3 H (m ((c : Thread nD τ).loc main_arg7))) (m ((c : Thread nD τ).loc main_arg1))) (Cert.Spec.biasRow3 (m ((c : Thread nD τ).loc main_arg8)))) := by
  -- the dense kernel's output: H · W₃
  have e62 : W10 m ρ c (Proc.devRef .tc main_v62) = Cert.Spec.lin3 H (m ((c : Thread nD τ).loc main_arg7)) := by
    refine (W10_arr m ρ c 2).trans ?_
    rw [hlin (V9 m ρ)]
    show Cert.Spec.lin3 (W9 m ρ c (Proc.devRef .tc main_v61)) (W9 m ρ c (Proc.devRef .tc main_arg7)) = _
    rw [hH, Keep.main_arg7_at9]
  -- the host stretch: the aggregate and the bias row (the index and weight buffers are still those of boundary 3)
  have e75 : W11 m ρ c (Proc.devRef .tc main_v75)
      = Cert.Spec.agg3 (Cert.Spec.lin3 H (m ((c : Thread nD τ).loc main_arg7))) (m ((c : Thread nD τ).loc main_arg1)) :=
    host5_v75 (W10 m ρ c) _ _ e62 ((Keep.main_v3_3_10 m ρ c).trans hrow) ((Keep.main_v6_3_10 m ρ c).trans hcol)
      ((Keep.main_v29_3_10 m ρ c).trans hnorm)
  have e76 : W11 m ρ c (Proc.devRef .tc main_v76) = Cert.Spec.biasRow3 (m ((c : Thread nD τ).loc main_arg8)) :=
    host5_v76 (W10 m ρ c) _ (Keep.main_arg8_at10 m ρ c)
  -- the bias-and-activation kernel's output
  refine (W12_arr m ρ c 2).trans ?_
  rw [hact (V11 m ρ)]
  show Cert.Spec.gelu12 (Cert.Spec.bias3 (W11 m ρ c (Proc.devRef .tc main_v75)) (W11 m ρ c (Proc.devRef .tc main_v76))) = _
  rw [e75, e76]

end Cert.KVal

end
-- ==== Proof.Layer4.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

/-- A vector of length `n` reshaped to a one-row table is the vector broadcast along the columns: both read the
    vector at the column index (the row-major position of entry (0, k) of a one-row table is k). -/
private theorem reshape_row_eq_bcast {α : Type} (n : Nat) (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ b hc = broadcastInDim ⟨2, ![1, n]⟩ ![1] hb b := by
  funext j
  obtain ⟨a, k, rfl⟩ : ∃ a k, j = ValueIdx.ix2 a k := ⟨j 0, j 1, ValueIdx.eq_ix2 j⟩
  rw [shapeCast_apply b hc _ (ValueIdx.ix1 k) ?_, broadcastInDim_apply _ hb b _ (ValueIdx.ix1 k) ?_]
  · intro a'
    match a' with
    | ⟨0, _⟩ =>
      show k.val = if n = 1 then 0 else k.val
      have := k.isLt
      split <;> omega
  · rw [Shape.rowMajor_val_one, Shape.rowMajor_val_two]
    show k.val = a.val * n + k.val
    have := a.isLt
    have ha : a.val = 0 := by omega
    rw [ha]; omega

/-- The host operations between the fourth dense kernel and the fourth bias kernel, read at the buffer the
    scatter-sum writes: with the dense kernel's output holding `h` and the index and normalisation buffers holding
    the graph's targets, sources and edge weights, it holds layer 4's aggregation of `h` (wrap the sources, gather
    their entries of the one-column `h`, scale each by its edge's weight — the weights' one-column table itself —,
    sum per target). -/
private theorem host7_v90 (V : Valuation τ sig (Elt Ideal)) (ei : IVec Cert.ReferenceIdeal.S2x3200000 32)
    (h : FVec Ideal Cert.ReferenceIdeal.S100000x1 .f32)
    (h78 : V (Proc.devRef .tc main_v78) = h)
    (hrow : V (Proc.devRef .tc main_v3) = Cert.Spec.rowIdx ei)
    (hcol : V (Proc.devRef .tc main_v6) = Cert.Spec.colIdx ei)
    (hnorm : V (Proc.devRef .tc main_v29) = Cert.Spec.norm ei) :
    StableHlo.after hostOps7 V (Proc.devRef .tc main_v90) = Cert.Spec.agg4 h ei := by
  after_results_simp
  rw [h78, hrow, hcol, hnorm]
  rfl

/-- The same stretch read at the buffer the reshape writes: the bias vector as a one-row table. -/
private theorem host7_v91 (V : Valuation τ sig (Elt Ideal)) (b : FVec Ideal Cert.ReferenceIdeal.S1 .f32)
    (hb : V (Proc.devRef .tc main_arg10) = b) :
    StableHlo.after hostOps7 V (Proc.devRef .tc main_v91) = Cert.Spec.biasRow4 b := by
  after_results
  rw [hb]
  exact reshape_row_eq_bcast 1 b _ _

variable (m : (ℓ : Loc nD τ sig) → Buf (Elt Ideal) ℓ) (ρ : Dev nD → PrngReg)

/-- Layer 4: if the third activation's output buffer holds `H` when the fourth dense kernel is entered, the last bias
    kernel's output buffer ends holding aggregate (H · W₄) + b₄. -/
theorem layer4 (c : Dev nD) (H : FVec Ideal Cert.ReferenceIdeal.S100000x12 .f32)
    (hH : W12 m ρ c (Proc.devRef .tc main_v77) = H)
    (hrow : W3 m ρ c (Proc.devRef .tc main_v3) = Cert.Spec.rowIdx (m ((c : Thread nD τ).loc main_arg1)))
    (hcol : W3 m ρ c (Proc.devRef .tc main_v6) = Cert.Spec.colIdx (m ((c : Thread nD τ).loc main_arg1)))
    (hnorm : W3 m ρ c (Proc.devRef .tc main_v29) = Cert.Spec.norm (m ((c : Thread nD τ).loc main_arg1)))
    (hlin : ∀ V : (c : Dev nD) → (b : Ref sig .tc) → Buf (Elt Ideal) ((c : Thread nD τ).loc b), (dat6 V c).arrAt 2 cfg6.N
      = Cert.Spec.lin4 (V c (Pipeline.arrRef spec6 0)) (V c (Pipeline.arrRef spec6 1)))
    (hact : ∀ V : (c : Dev nD) → (b : Ref sig .tc) → Buf (Elt Ideal) ((c : Thread nD τ).loc b), (dat7 V c).arrAt 2 cfg7.N
      = Cert.Spec.bias4 (V c (Pipeline.arrRef spec7 0)) (V c (Pipeline.arrRef spec7 1))) :
    W15 m ρ c (Proc.devRef .tc main_v92)
      = Cert.Spec.bias4 (Cert.Spec.agg4 (Cert.Spec.lin4 H (m ((c : Thread nD τ).loc main_arg9))) (m ((c : Thread nD τ).loc main_arg1))) (Cert.Spec.biasRow4 (m ((c : Thread nD τ).loc main_arg10))) := by
  -- the dense kernel's output: H · W₄
  have e78 : W13 m ρ c (Proc.devRef .tc main_v78) = Cert.Spec.lin4 H (m ((c : Thread nD τ).loc main_arg9)) := by
    refine (W13_arr m ρ c 2).trans ?_
    rw [hlin (V12 m ρ)]
    show Cert.Spec.lin4 (W12 m ρ c (Proc.devRef .tc main_v77)) (W12 m ρ c (Proc.devRef .tc main_arg9)) = _
    rw [hH, Keep.main_arg9_at12]
  -- the host stretch: the aggregate and the bias row (the index and weight buffers are still those of boundary 3)
  have e90 : W14 m ρ c (Proc.devRef .tc main_v90)
      = Cert.Spec.agg4 (Cert.Spec.lin4 H (m ((c : Thread nD τ).loc main_arg9))) (m ((c : Thread nD τ).loc main_arg1)) :=
    host7_v90 (W13 m ρ c) _ _ e78 ((Keep.main_v3_3_13 m ρ c).trans hrow) ((Keep.main_v6_3_13 m ρ c).trans hcol)
      ((Keep.main_v29_3_13 m ρ c).trans hnorm)
  have e91 : W14 m ρ c (Proc.devRef .tc main_v91) = Cert.Spec.biasRow4 (m ((c : Thread nD τ).loc main_arg10)) :=
    host7_v91 (W13 m ρ c) _ (Keep.main_arg10_at13 m ρ c)
  -- the bias kernel's output
  refine (W15_arr m ρ c 2).trans ?_
  rw [hact (V14 m ρ)]
  show Cert.Spec.bias4 (W14 m ρ c (Proc.devRef .tc main_v90)) (W14 m ρ c (Proc.devRef .tc main_v91)) = _
  rw [e90, e91]

end Cert.KVal

end
-- ==== Proof.Tail.lean ====
import proofs.«423238_j45140106281309_2_alg».proof.Proof.Gen.KernelIdeal.Frame
import proofs.«423238_j45140106281309_2_alg».proof.Proof.SpecGraph
import proofs.«423238_j45140106281309_2_alg».proof.Proof.Keep
import Idealize.ShloMosaic.Lib.StableHlo.Run
import Idealize.ShloMosaic.Lib.Pipeline.Value
import Idealize.ShloMosaic.Lib.ValueIdx

set_option maxRecDepth 16384

noncomputable section

namespace Cert.KVal

open Idealize.ShloMosaic Idealize.ShloMosaic.TcCoe Idealize.SL.Sem Idealize.ShloMosaic.StableHlo
open Cert.KernelIdeal Cert.KernelIdeal.Gen

namespace TailAux

open Idealize.ShloMosaic.ValueIdx in
/-- The id vector reshaped to one column is the id vector broadcast along axis 0 to one column: both read the
    vector at the row coordinate. -/
theorem reshape_col_eq_idCol (v : IVec Cert.ReferenceIdeal.S100000 32) :
    shapeCast S100000x1 v shapeCasts_S100000_S100000x1 = Cert.Spec.idCol v := by
  funext j
  unfold Cert.Spec.idCol
  have e1 := shapeCast_apply v shapeCasts_S100000_S100000x1 j (ix1 (j 0 : Fin 100000)) (by
    rw [Shape.rowMajor_val_two, Shape.rowMajor_val_one]
    have h1 : (j 1).val < 1 := (j 1).isLt
    show (j 0).val = (j 0).val * 1 + (j 1).val; omega)
  have e2 := broadcastInDim_apply ![0] Cert.ReferenceIdeal.Gen.bcast_S100000_S100000x1_0 v j (ix1 (j 0 : Fin 100000)) (by
    intro a
    match a with
    | ⟨0, _⟩ => rfl)
  exact e1.trans e2.symm

/-- A vector of 512 entries laid as one row and read back as a vector is the vector. -/
theorem reshape_row_back (x : FVec Ideal Cert.ReferenceIdeal.S512 .f32) :
    shapeCast S512 (shapeCast S1x512 x shapeCasts_S512_S1x512) shapeCasts_S1x512_S512 = x :=
  shapeCast_shapeCast x _ _

/-- The constant one broadcast to 512 entries: the kernel program's and the specification's are one operation. -/
theorem ones_eq :
    (broadcastInDim S512 ![] bcast_S_S512 (constant (F := Ideal) S_ .f32 0x3F800000#32) : FVec Ideal S512 .f32)
      = broadcastInDim Cert.ReferenceIdeal.S512 ![] Cert.ReferenceIdeal.Gen.bcast_S_S512 (constant (F := Ideal) Cert.ReferenceIdeal.S_ .f32 0x3F800000#32) := rfl

end TailAux

variable (m : (ℓ : Loc nD τ sig) → Buf (Elt Ideal) ℓ) (ρ : Dev nD → PrngReg)

/-- When the pooling kernel is entered, the buffer of the reshaped node ids holds the launch's id vector as one column. -/
theorem TailAux.v93_at16 (c : Dev nD) :
    W16 m ρ c (Proc.devRef .tc main_v93) = Cert.Spec.idCol (m ((c : Thread nD τ).loc main_arg2)) := by
  have e : W16 m ρ c (Proc.devRef .tc main_v93)
      = shapeCast S100000x1 (W15 m ρ c (Proc.devRef .tc main_arg2)) shapeCasts_S100000_S100000x1 := by
    show StableHlo.after hostOps8 (W15 m ρ c) (Proc.devRef .tc main_v93) = _
    after_results
    rfl
  rw [e, Keep.main_arg2_at15]
  exact TailAux.reshape_col_eq_idCol _

/-- The pool and the final quotient: if the last bias kernel's output buffer holds `H` when the node ids are reshaped,
    the result buffer ends holding, per graph, the sum of its nodes' values over the larger of its node count and one —
    given what the pooling kernel leaves in its two accumulators. -/
theorem tail (c : Dev nD) (H : FVec Ideal Cert.ReferenceIdeal.S100000x1 .f32)
    (hH : W15 m ρ c (Proc.devRef .tc main_v92) = H)
    (hsum : ∀ V : (c : Dev nD) → (b : Ref sig .tc) → Buf (Elt Ideal) ((c : Thread nD τ).loc b), (dat8 V c).arrAt 2 cfg8.N
      = shapeCast S1x512 (Cert.Spec.poolSum
          (shapeCast Cert.ReferenceIdeal.S100000 (V c (Pipeline.arrRef spec8 0)) Cert.ReferenceIdeal.Gen.shapeCasts_S100000x1_S100000)
          (V c (Pipeline.arrRef spec8 1))) shapeCasts_S512_S1x512)
    (hcnt : ∀ V : (c : Dev nD) → (b : Ref sig .tc) → Buf (Elt Ideal) ((c : Thread nD τ).loc b), (dat8 V c).arrAt 3 cfg8.N
      = shapeCast S1x512 (Cert.Spec.poolCnt (V c (Pipeline.arrRef spec8 1))) shapeCasts_S512_S1x512) :
    W18 m ρ c (Proc.devRef .tc main_v99)
      = Host.divf
          (Cert.Spec.poolSum (shapeCast _ H Cert.ReferenceIdeal.Gen.shapeCasts_S100000x1_S100000) (Cert.Spec.idCol (m ((c : Thread nD τ).loc main_arg2))))
          (maximumf (Cert.Spec.poolCnt (Cert.Spec.idCol (m ((c : Thread nD τ).loc main_arg2))))
            (broadcastInDim Cert.ReferenceIdeal.S512 ![] Cert.ReferenceIdeal.Gen.bcast_S_S512 (constant S_ .f32 0x3F800000#32))) := by
  -- boundary 16: the pooling kernel's two input arrays
  have h92 : W16 m ρ c (Proc.devRef .tc main_v92) = H := (Keep.main_v92_15_16 m ρ c).trans hH
  have h93 := TailAux.v93_at16 m ρ c
  -- boundary 17: its two accumulators
  have hs : W17 m ρ c (Proc.devRef .tc main_v94_0)
      = shapeCast S1x512 (Cert.Spec.poolSum
          (shapeCast Cert.ReferenceIdeal.S100000 H Cert.ReferenceIdeal.Gen.shapeCasts_S100000x1_S100000)
          (Cert.Spec.idCol (m ((c : Thread nD τ).loc main_arg2)))) shapeCasts_S512_S1x512 := by
    refine ((W17_arr m ρ c 2).trans (hsum (V16 m ρ))).trans ?_
    show shapeCast S1x512 (Cert.Spec.poolSum
          (shapeCast Cert.ReferenceIdeal.S100000 (W16 m ρ c (Proc.devRef .tc main_v92)) Cert.ReferenceIdeal.Gen.shapeCasts_S100000x1_S100000)
          (W16 m ρ c (Proc.devRef .tc main_v93))) shapeCasts_S512_S1x512 = _
    rw [h92, h93]
  have hc : W17 m ρ c (Proc.devRef .tc main_v94_1)
      = shapeCast S1x512 (Cert.Spec.poolCnt (Cert.Spec.idCol (m ((c : Thread nD τ).loc main_arg2)))) shapeCasts_S512_S1x512 := by
    refine ((W17_arr m ρ c 3).trans (hcnt (V16 m ρ))).trans ?_
    show shapeCast S1x512 (Cert.Spec.poolCnt (W16 m ρ c (Proc.devRef .tc main_v93))) shapeCasts_S512_S1x512 = _
    rw [h93]
  -- boundary 18: the two reshapes, the maximum with one, the quotient
  have e99 : W18 m ρ c (Proc.devRef .tc main_v99)
      = Host.divf (shapeCast S512 (W17 m ρ c (Proc.devRef .tc main_v94_0)) shapeCasts_S1x512_S512)
          (maximumf (shapeCast S512 (W17 m ρ c (Proc.devRef .tc main_v94_1)) shapeCasts_S1x512_S512)
            (broadcastInDim S512 ![] bcast_S_S512 (constant (F := Ideal) S_ .f32 0x3F800000#32))) := by
    show StableHlo.after hostOps9 (W17 m ρ c) (Proc.devRef .tc main_v99) = _
    after_results
    rfl
  rw [e99, hs, hc, TailAux.reshape_row_back, TailAux.reshape_row_back, TailAux.ones_eq]

end Cert.KVal

end
-- ==== Proof.KValue.lean ====
/-
  The kernel program's result as one function of its arguments: the nine kernels' output arrays (each a whole-array
  function of the kernel's input arrays) threaded through the host operations between them, layer by layer — the
  edge lists and the normalisation computed once before the first kernel and read unchanged by every layer.
-/
import proofs.«423238_j45140106281309_2_alg».proof.Proof.Gen.KernelIdeal.Frame
import proofs.«423238_j45140106281309_2_alg».proof.Proof.SpecGraph
import proofs.«423238_j45140106281309_2_alg».proof.Proof.Lin1
import proofs.«423238_j45140106281309_2_alg».proof.Proof.Lin2
import proofs.«423238_j45140106281309_2_alg».proof.Proof.Lin3
import proofs.«423238_j45140106281309_2_alg».proof.Proof.Lin4
import proofs.«423238_j45140106281309_2_alg».proof.Proof.Act1
import proofs.«423238_j45140106281309_2_alg».proof.Proof.Act2
import proofs.«423238_j45140106281309_2_alg».proof.Proof.Act3
import proofs.«423238_j45140106281309_2_alg».proof.Proof.Act4
import proofs.«423238_j45140106281309_2_alg».proof.Proof.Pool
import proofs.«423238_j45140106281309_2_alg».proof.Proof.Stage0
import proofs.«423238_j45140106281309_2_alg».proof.Proof.Layer1
import proofs.«423238_j45140106281309_2_alg».proof.Proof.Layer2
import proofs.«423238_j45140106281309_2_alg».proof.Proof.Layer3
import proofs.«423238_j45140106281309_2_alg».proof.Proof.Layer4
import proofs.«423238_j45140106281309_2_alg».proof.Proof.Tail

set_option maxRecDepth 16384

noncomputable section

namespace Cert.KVal

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- At the last boundary of the run the result buffer holds the network of the launch contents of the eleven
    arguments: layer 1 from the arguments, each later layer from the one before, then the pool and the quotient. -/
theorem kernel_value (c : Dev nD) :
    W18 m ρ c (Proc.devRef .tc main_v99)
      = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have g1 := st_row m ρ c
  have g2 := st_col m ρ c
  have g3 := st_norm m ρ c
  have e1 := layer1 m ρ c g1 g2 g3 (fun V => lin1_final V c) (fun V => act1_final V c)
  have e2 := layer2 m ρ c _ e1 g1 g2 g3 (fun V => lin2_final V c) (fun V => act2_final V c)
  have e3 := layer3 m ρ c _ e2 g1 g2 g3 (fun V => lin3_final V c) (fun V => act3_final V c)
  have e4 := layer4 m ρ c _ e3 g1 g2 g3 (fun V => lin4_final V c) (fun V => act4_final V c)
  have e5 := tail m ρ c _ e4 (fun V => pool_sum_final V c) (fun V => pool_cnt_final V c)
  unfold Cert.Spec.net Cert.Spec.h4 Cert.Spec.h3 Cert.Spec.h2
  exact e5

end Cert.KVal

end
-- ==== Proof.RefBridge.lean ====
/-
  The reference program's stages, as the generated read-back names them, are the specification's functions: each
  stage is one host operation over earlier stages, and the specification composes the same operations in the same
  order, so every equation below is an unfolding — taken one layer at a time, the earlier layers' features kept as
  one term on both sides.
-/
import proofs.«423238_j45140106281309_2_alg».proof.Proof.RefRead
import proofs.«423238_j45140106281309_2_alg».proof.Proof.SpecGraph

set_option maxRecDepth 16384

noncomputable section

namespace Cert.RefBridge

open Idealize.ShloMosaic Cert.ReferenceIdeal Cert.ReferenceIdeal.Gen Cert.ReferenceIdeal.ReadP

variable (x0 : FVec Ideal S100000x37 .f32) (x1 : IVec S2x3200000 32) (x2 : IVec S100000 32)
  (x3 : FVec Ideal S37x25 .f32) (x4 : FVec Ideal S25 .f32) (x5 : FVec Ideal S25x18 .f32) (x6 : FVec Ideal S18 .f32)
  (x7 : FVec Ideal S18x12 .f32) (x8 : FVec Ideal S12 .f32) (x9 : FVec Ideal S12x1 .f32) (x10 : FVec Ideal S1 .f32)

/-- The targets' list. -/
theorem row_eq : val_main_v3 (F := Ideal) x1 = Cert.Spec.rowIdx x1 := rfl
/-- The sources' list. -/
theorem col_eq : val_main_v6 (F := Ideal) x1 = Cert.Spec.colIdx x1 := rfl
/-- The degree. -/
theorem deg_eq : val_main_v10 (F := Ideal) x1 = Cert.Spec.deg x1 := rfl
/-- deg⁻¹ᐟ², zero where the degree is zero. -/
theorem dinv_eq : val_main_v14 (F := Ideal) x1 = Cert.Spec.dinv x1 := by
  unfold Cert.Spec.dinv; rw [← deg_eq]; rfl
/-- The edges' normalisation. -/
theorem norm_eq : val_main_v29 (F := Ideal) x1 = Cert.Spec.norm x1 := by
  unfold Cert.Spec.norm; rw [← dinv_eq, ← row_eq, ← col_eq]; rfl
/-- The normalisation as a column, wherever a layer broadcasts it. -/
theorem normCol_eq : broadcastInDim S3300000x1 ![0] bcast_S3300000_S3300000x1_0 (val_main_v29 (F := Ideal) x1) = Cert.Spec.normCol x1 := by
  unfold Cert.Spec.normCol; rw [norm_eq]

/-- The features after layer 1. -/
theorem h1_eq : val_main_v59 (F := Ideal) x0 x1 x3 x4 = Cert.Spec.h1 x0 x1 x3 x4 := by
  unfold Cert.Spec.h1 Cert.Spec.agg1 Cert.Spec.normCol; rw [← norm_eq, ← row_eq, ← col_eq]; rfl
/-- The features after layer 2. -/
theorem h2_eq : val_main_v77 (F := Ideal) x0 x1 x3 x4 x5 x6 = Cert.Spec.h2 x0 x1 x3 x4 x5 x6 := by
  unfold Cert.Spec.h2 Cert.Spec.agg2 Cert.Spec.normCol; rw [← h1_eq, ← norm_eq, ← row_eq, ← col_eq]; rfl
/-- The features after layer 3. -/
theorem h3_eq : val_main_v107 (F := Ideal) x0 x1 x3 x4 x5 x6 x7 x8 = Cert.Spec.h3 x0 x1 x3 x4 x5 x6 x7 x8 := by
  unfold Cert.Spec.h3 Cert.Spec.agg3 Cert.Spec.normCol; rw [← h2_eq, ← norm_eq, ← row_eq, ← col_eq]; rfl
/-- The node values after layer 4. -/
theorem h4_eq : val_main_v123 (F := Ideal) x0 x1 x3 x4 x5 x6 x7 x8 x9 x10 = Cert.Spec.h4 x0 x1 x3 x4 x5 x6 x7 x8 x9 x10 := by
  unfold Cert.Spec.h4 Cert.Spec.agg4 Cert.Spec.normCol; rw [← h3_eq, ← norm_eq, ← row_eq, ← col_eq]; rfl
/-- The reference's result is the specification's network. -/
theorem net_eq : val_main_v134 (F := Ideal) x0 x1 x2 x3 x4 x5 x6 x7 x8 x9 x10 = Cert.Spec.net x0 x1 x2 x3 x4 x5 x6 x7 x8 x9 x10 := by
  unfold Cert.Spec.net; rw [← h4_eq]; rfl

end Cert.RefBridge

end
-- ==== Proof.lean ====
/-
  The certificate of a four-layer graph convolution network with a mean pool: the kernel program runs each layer's
  dense map h ↦ h · W and its bias-and-activation as tiled kernels and pools with a tiled one-hot reduction, around
  the same edge gathers and scatter-sums the reference program runs on the host; the reference is jax's plain
  version. At the ideal instance (floats extended reals, every operation exact, a change of float format the
  identity) both compute, per graph, the sum of its nodes' final values over the larger of its node count and one:
    * a dense kernel's 20 row tiles of 5000 rows, each a bf16 matrix product into a zero accumulator, assemble the one
      host contraction (the cast is the identity; a tile's entry and the whole product's entry are the same sum);
    * a bias-and-activation kernel's tiles assemble the host's broadcast add followed by the activation, the tanh form
      of gelu on both sides with the same four constants (the kernel cubes as v · (v · v), the reference as
      (v · v) · v: commutativity of the product on the extended reals), relu, or nothing;
    * the pooling kernel's 100 tiles accumulate, per graph g, the tile's values times the 0/1 indicator "id = g", which
      is the host's scatter-sum by graph id: x · 1 = x and x · 0 = 0 on every extended real, sums regroup freely, and a
      node whose id lies outside [0, 512) matches no g on one side and lands nowhere on the other.
  No law used needs the inputs finite: the precondition is never opened. The frames of the two kernel programs are
  the generated ones; the reference's frame is its generated run (a copy of it with the float family named at its one float compare) with the result dropped; the ideal pass rewrote
  nothing, so there is nothing to preserve.
-/
import proofs.«423238_j45140106281309_2_alg».proof.Defs
import proofs.«423238_j45140106281309_2_alg».proof.Proof.Gen.Kernel
import proofs.«423238_j45140106281309_2_alg».proof.Proof.Gen.Kernel.Skeleton
import proofs.«423238_j45140106281309_2_alg».proof.Proof.Gen.Kernel.Launch
import proofs.«423238_j45140106281309_2_alg».proof.Proof.Gen.Kernel.Points
import proofs.«423238_j45140106281309_2_alg».proof.Proof.Gen.Kernel.Frame
import proofs.«423238_j45140106281309_2_alg».proof.Proof.Gen.KernelIdeal
import proofs.«423238_j45140106281309_2_alg».proof.Proof.Gen.KernelIdeal.Skeleton
import proofs.«423238_j45140106281309_2_alg».proof.Proof.Gen.KernelIdeal.Launch
import proofs.«423238_j45140106281309_2_alg».proof.Proof.Gen.KernelIdeal.Points
import proofs.«423238_j45140106281309_2_alg».proof.Proof.Gen.KernelIdeal.Frame
import proofs.«423238_j45140106281309_2_alg».proof.Proof.Gen.ReferenceIdeal
import proofs.«423238_j45140106281309_2_alg».proof.Proof.Gen.Pre_finite_inputs
import proofs.«423238_j45140106281309_2_alg».proof.Proof.RefRun
import proofs.«423238_j45140106281309_2_alg».proof.Proof.RefRead
import proofs.«423238_j45140106281309_2_alg».proof.Proof.KRun
import proofs.«423238_j45140106281309_2_alg».proof.Proof.KValue
import proofs.«423238_j45140106281309_2_alg».proof.Proof.RefBridge
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program runs and leaves its arguments as launched: its generated run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the eleven arguments both programs end with the network of those arguments in their
    result buffers: the kernel program by its run read at the last boundary and the layers threaded through it, the
    reference by its generated run, whose stages are the network's operations one by one. -/
theorem algebraic : Cert.algebraic_KernelIdeal_ReferenceIdeal := by
  intro m ρ m' ρ' _ hagree
  refine ⟨fun c => Cert.Spec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.ValueRun.run (F := Ideal) m ρ)
    exact ⟨(h c).1.trans (Cert.KVal.kernel_value m ρ c), (h c).2⟩
  · refine (θ_run Cert.ReferenceIdeal.defs _ _).mono (fun r h c => ?_) (Cert.ReferenceIdeal.ValueP.run (F := Ideal) m' ρ')
    refine ⟨(h c).1.trans ?_, (h c).2⟩
    obtain ⟨a0, a1, a2, a3, a4, a5, a6, a7, a8, a9, a10⟩ := hagree c
    rw [Cert.ReferenceIdeal.ReadP.val_main_v134_eq, Cert.RefBridge.net_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
